-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384 : Shape := ⟨1, ![16384]⟩
abbrev S4096x128 : Shape := ⟨2, ![4096, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x128 .f32) (main_arg1 : IVec S16384 32) (main_arg2 : FVec F S4096x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S4096x128 .f32 := Host.absf main_arg2
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg1 main_v9
  let main_c_3 : IVec S_ 32 := constantI S_ 32 4096#32
  let main_v11 : IVec S16384 32 := broadcastInDim S16384 ![] bcast_S_S16384 main_c_3
  let main_v12 : IVec S16384 1 := cmpi .slt main_arg1 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  main_v15
-- ==== Kernel.lean ====
abbrev S16384x128 : Shape := ⟨2, ![16384, 128]⟩
abbrev S16384 : Shape := ⟨1, ![16384]⟩
abbrev S4096x128 : Shape := ⟨2, ![4096, 128]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S4096 : Shape := ⟨1, ![4096]⟩
abbrev S4096x1 : Shape := ⟨2, ![4096, 1]⟩
abbrev S1x4096 : Shape := ⟨2, ![1, 4096]⟩
abbrev S16x1x128 : Shape := ⟨3, ![16, 1, 128]⟩
abbrev S1024x128 : Shape := ⟨2, ![1024, 128]⟩
abbrev S1024x1 : Shape := ⟨2, ![1024, 1]⟩
abbrev S1x1x128 : Shape := ⟨3, ![1, 1, 128]⟩
abbrev S1x1024 : Shape := ⟨2, ![1, 1024]⟩
abbrev S1024x1024 : Shape := ⟨2, ![1024, 1024]⟩
abbrev S1024 : Shape := ⟨1, ![1024]⟩
abbrev S1x1x1 : Shape := ⟨3, ![1, 1, 1]⟩

abbrev nBuf : Space → Nat
  | .hbm => 64
  | .vmem => 15
  | .smem => 0
  | _ => 0

abbrev bufTy : (tb : Table) → Fin (tcTables nBuf tb) → BufTy
  | .hbm, ⟨0, _⟩ => ⟨S16384x128, .f32⟩
  | .hbm, ⟨1, _⟩ => ⟨S16384, .i32⟩
  | .hbm, ⟨2, _⟩ => ⟨S4096x128, .f32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S1, .i32⟩
  | .hbm, ⟨12, _⟩ => ⟨S_, .i32⟩
  | .hbm, ⟨13, _⟩ => ⟨S16384x1, .i32⟩
  | .hbm, ⟨14, _⟩ => ⟨S16384x1, .i1⟩
  | .hbm, ⟨15, _⟩ => ⟨S1x1, .i32⟩
  | .hbm, ⟨16, _⟩ => ⟨S16384x1, .i32⟩
  | .hbm, ⟨17, _⟩ => ⟨S16384x1, .i1⟩
  | .hbm, ⟨18, _⟩ => ⟨S16384x1, .i1⟩
  | .hbm, ⟨19, _⟩ => ⟨S_, .i1⟩
  | .hbm, ⟨20, _⟩ => ⟨S16384, .i1⟩
  | .hbm, ⟨21, _⟩ => ⟨S16384x128, .f32⟩
  | .hbm, ⟨22, _⟩ => ⟨S16384x128, .i1⟩
  | .hbm, ⟨23, _⟩ => ⟨S_, .f32⟩
  | .hbm, ⟨24, _⟩ => ⟨S16384x128, .f32⟩
  | .hbm, ⟨25, _⟩ => ⟨S16384x128, .f32⟩
  | .hbm, ⟨26, _⟩ => ⟨S16384x128, .f32⟩
  | .hbm, ⟨27, _⟩ => ⟨S16384x128, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S16384x128, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S4096x128, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S1x4096, .f32⟩
  | .hbm, ⟨44, _⟩ => ⟨S4096, .i32⟩
  | .hbm, ⟨45, _⟩ => ⟨S1x4096, .i32⟩
  | .hbm, ⟨46, _⟩ => ⟨S16384x1, .i32⟩
  | .hbm, ⟨47, _⟩ => ⟨S16x1x128, .f32⟩
  | .hbm, ⟨48, _⟩ => ⟨S16x1x128, .f32⟩
  | .hbm, ⟨49, _⟩ => ⟨S_, .f32⟩
  | .hbm, ⟨50, _⟩ => ⟨S_, .f32⟩
  | .hbm, ⟨51, _⟩ => ⟨S16x1x128, .f32⟩
  | .hbm, ⟨52, _⟩ => ⟨S16x1x128, .i32⟩
  | .hbm, ⟨53, _⟩ => ⟨S_, .i32⟩
  | .hbm, ⟨54, _⟩ => ⟨S_, .i32⟩
  | .hbm, ⟨55, _⟩ => ⟨S_, .f32⟩
  | .hbm, ⟨56, _⟩ => ⟨S_, .f32⟩
  | .hbm, ⟨57, _⟩ => ⟨S_, .i1⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S4096x128, .f32⟩
  | .local _ .vmem, ⟨3, _⟩ => ⟨S1024x1, .f32⟩
  | .local _ .vmem, ⟨4, _⟩ => ⟨S1024x1, .f32⟩
  | .local _ .vmem, ⟨5, _⟩ => ⟨S1024x1, .i32⟩
  | .local _ .vmem, ⟨6, _⟩ => ⟨S1024x1, .i32⟩
  | .local _ .vmem, ⟨7, _⟩ => ⟨S1x4096, .f32⟩
  | .local _ .vmem, ⟨8, _⟩ => ⟨S1x4096, .i32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | .local _ .vmem, ⟨13, _⟩ => ⟨S1x1, .f32⟩
  | .local _ .vmem, ⟨14, _⟩ => ⟨S1x1, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_cst : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_cst_0 : Ref sig .tc := ⟨.hbm, 32, rfl⟩
abbrev main_v6 : Ref sig .tc := ⟨.hbm, 33, rfl⟩
abbrev main_v7 : Ref sig .tc := ⟨.hbm, 34, rfl⟩
abbrev main_cst_1 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst_2 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18_0 : Ref sig .tc := ⟨.hbm, 47, rfl⟩
abbrev main_v18_1 : Ref sig .tc := ⟨.hbm, 48, rfl⟩
abbrev main_cst_3 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_c : Ref sig .tc := ⟨.hbm, 53, rfl⟩
abbrev main_v22 : Ref sig .tc := ⟨.hbm, 54, rfl⟩
abbrev main_v23 : Ref sig .tc := ⟨.hbm, 55, rfl⟩
abbrev main_cst_4 : Ref sig .tc := ⟨.hbm, 56, rfl⟩
abbrev main_v24 : Ref sig .tc := ⟨.hbm, 57, rfl⟩
abbrev main_cst_5 : Ref sig .tc := ⟨.hbm, 58, rfl⟩
abbrev main_v25 : Ref sig .tc := ⟨.hbm, 59, rfl⟩
abbrev main_v26 : Ref sig .tc := ⟨.hbm, 60, rfl⟩
abbrev main_cst_6 : Ref sig .tc := ⟨.hbm, 61, rfl⟩
abbrev main_call2_v0 : Ref sig .tc := ⟨.hbm, 62, rfl⟩
abbrev main_v27 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k0_off2 (i : grid0.Coords) : Fin 2 → Nat :=
  let c0_1 : Index := 0#32
  let arg1 : BitVec 32 := BitVec.ofNat 32 (i 1).val
  let c1024_i32 : BitVec 32 := 1024#32
  let v3 : BitVec 32 := Scalar.muli arg1 c1024_i32
  let v4 : BitVec 32 := v3
  let v7 : Index := Scalar.indexCast v4
  ![0, v7.toNat]
def k0_cond2 (i : grid0.Coords) : BitVec 1 :=
  let arg1 : BitVec 32 := BitVec.ofNat 32 (i 1).val
  let c3_i32 : BitVec 32 := 3#32
  let v52 : BitVec 1 := Scalar.cmpi .eq arg1 c3_i32
  let v53 : BitVec 32 := Scalar.extui v52
  let c0_i32_23 : BitVec 32 := 0#32
  let v54 : BitVec 1 := Scalar.cmpi .ne v53 c0_i32_23
  v54

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  reducesTo_S16384x128_S16384_d1 : S16384x128.ReducesTo [1] S16384
  reducesTo_S4096x128_S4096_d1 : S4096x128.ReducesTo [1] S4096
  bcast_S4096_S4096x1_0 : S4096.BroadcastsInDim S4096x1 (![0] : Fin 1 → Fin S4096x1.rank)
  transposes_S4096x1_S1x4096_1_0 : S4096x1.Transposes [1, 0] S1x4096
  shapeCasts_S4096_S1x4096 : S4096.ShapeCasts S1x4096
  shapeCasts_S16384_S16384x1 : S16384.ShapeCasts S16384x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  h_S1024x128 : 0 < S1024x128.numel
  h_S1x1024 : 0 < S1x1024.numel
  shapeCasts_S1x1024_S1x1024 : S1x1024.ShapeCasts S1x1024
  inb_S1024x128_S1024x128_0_0 : ∀ a, (![0, 0] : Fin 2 → Nat) a + S1024x128.size a ≤ S1024x128.size a
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  broadcasts_S1x1024_S1024x1024 : S1x1024.Broadcasts S1024x1024
  natLt_1_32 : 1 < 32
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  iota_S1x1x128_d2_w32 : S1x1x128.Iotas .tc 32 [2]
  shapeCasts_S1x1_S1x1x1 : S1x1.ShapeCasts S1x1x1
  shapeCasts_S1x1x1_S1x1x1 : S1x1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  reducesTo_S16x1x128_S_d0_1_2 : S16x1x128.ReducesTo [0, 1, 2] S_
  gather_S4096x128_S16384x1_S16384x128_1_0_n_n_0_1_1128_wf : GatherDims.WF S4096x128 S16384x1 S16384x128 [1] [0] [] [0] [] 1 ![1, 128]
  dot_S1024x128_S1024x128_S1024x1024_1_1_0_0_n_n_wf : DotDims.WF S1024x128 S1024x128 S1024x1024 [1] [1] [0] [0] [] []
  hrank0 : 0 < grid0.rank
  k0_mult1_dvd : ∀ i : grid0.Coords, 128 ∣ (k0_mult1 i).toNat
  k0_off1_inb : ∀ i : grid0.Coords, ∀ a, (k0_off1 i) a + S1024x128.size a ≤ S4096x128.size a
  k0_off2_inb : ∀ i : grid0.Coords, ∀ a, (k0_off2 i) a + S1x1024.size a ≤ S1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S16384x128.size a
  hwx0_0 : ∀ i : grid0.Coords, EltTy.bits .f32 = 32 ∨ (Rect.block (s := S16384x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .f32 = 32 ∨ (Rect.block (s := S4096x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S16384x1.size a
  hwx0_3 : ∀ i : grid0.Coords, EltTy.bits .i32 = 32 ∨ (Rect.block (s := S16384x1) S1024x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .i32 = 32 ∨ (Rect.block (s := S1x4096) S1x4096.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S16x1x128.size a
  hwx0_6 : ∀ i : grid0.Coords, EltTy.bits .f32 = 32 ∨ (Rect.block (s := S16x1x128) S1x1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x128.size a ≤ S16x1x128.size a
  hwx0_7 : ∀ i : grid0.Coords, EltTy.bits .f32 = 32 ∨ (Rect.block (s := S16x1x128) S1x1x128.size (cc0_transform_7 i) (hinb0_7 i)).WholeWords (EltTy.packing .f32)

variable [Facts₀]

def gather_S4096x128_S16384x1_S16384x128_1_0_n_n_0_1_1128 : GatherDims S4096x128 S16384x1 S16384x128 where
  offsetDims := [1]
  collapsedSliceDims := [0]
  operandBatchingDims := []
  startIndicesBatchingDims := []
  startIndexMap := [0]
  indexVectorDim := 1
  sliceSizes := ![1, 128]
  wf := gather_S4096x128_S16384x1_S16384x128_1_0_n_n_0_1_1128_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18_0) S1x1x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v18_1) S1x1x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S16384x128 : Shape := ⟨2, ![16384, 128]⟩
abbrev S16384 : Shape := ⟨1, ![16384]⟩
abbrev S4096x128 : Shape := ⟨2, ![4096, 128]⟩
abbrev S_ : Shape := ⟨0, ![]⟩
abbrev S16384x1 : Shape := ⟨2, ![16384, 1]⟩
abbrev S4096 : Shape := ⟨1, ![4096]⟩
abbrev S1x4096 : Shape := ⟨2, ![1, 4096]⟩
abbrev S16384x4096 : Shape := ⟨2, ![16384, 4096]⟩
abbrev S128x4096 : Shape := ⟨2, ![128, 4096]⟩
abbrev S16384x1x1 : Shape := ⟨3, ![16384, 1, 1]⟩
abbrev S1 : Shape := ⟨1, ![1]⟩
abbrev S1x1x1 : Shape := ⟨3, ![1, 1, 1]⟩

abbrev nBuf : Space → Nat
  | .hbm => 76
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384, .i32⟩
  | .hbm, ⟨2, _⟩ => ⟨S4096x128, .f32⟩
  | .hbm, ⟨3, _⟩ => ⟨S16384x128, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S4096x128, .f32⟩
  | .hbm, ⟨8, _⟩ => ⟨S_, .f32⟩
  | .hbm, ⟨9, _⟩ => ⟨S4096, .f32⟩
  | .hbm, ⟨10, _⟩ => ⟨S1x4096, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S128x4096, .f32⟩
  | .hbm, ⟨15, _⟩ => ⟨S16384x4096, .f32⟩
  | .hbm, ⟨16, _⟩ => ⟨S_, .f32⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S16384x1, .i32⟩
  | .hbm, ⟨21, _⟩ => ⟨S_, .i32⟩
  | .hbm, ⟨22, _⟩ => ⟨S16384x1, .i32⟩
  | .hbm, ⟨23, _⟩ => ⟨S16384x1, .i1⟩
  | .hbm, ⟨24, _⟩ => ⟨S_, .i32⟩
  | .hbm, ⟨25, _⟩ => ⟨S16384x1, .i32⟩
  | .hbm, ⟨26, _⟩ => ⟨S16384x1, .i32⟩
  | .hbm, ⟨27, _⟩ => ⟨S16384x1, .i32⟩
  | .hbm, ⟨28, _⟩ => ⟨S16384x1x1, .i32⟩
  | .hbm, ⟨29, _⟩ => ⟨S1, .i32⟩
  | .hbm, ⟨30, _⟩ => ⟨S_, .i32⟩
  | .hbm, ⟨31, _⟩ => ⟨S16384x1x1, .i32⟩
  | .hbm, ⟨32, _⟩ => ⟨S16384x1x1, .i1⟩
  | .hbm, ⟨33, _⟩ => ⟨S1x1x1, .i32⟩
  | .hbm, ⟨34, _⟩ => ⟨S16384x1x1, .i32⟩
  | .hbm, ⟨35, _⟩ => ⟨S16384x1x1, .i1⟩
  | .hbm, ⟨36, _⟩ => ⟨S16384x1x1, .i1⟩
  | .hbm, ⟨37, _⟩ => ⟨S_, .i1⟩
  | .hbm, ⟨38, _⟩ => ⟨S16384x1, .i1⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x4096, .f32⟩
  | .hbm, ⟨47, _⟩ => ⟨S16384x4096, .f32⟩
  | .hbm, ⟨48, _⟩ => ⟨S4096, .i32⟩
  | .hbm, ⟨49, _⟩ => ⟨S1x4096, .i32⟩
  | .hbm, ⟨50, _⟩ => ⟨S16384x1, .i32⟩
  | .hbm, ⟨51, _⟩ => ⟨S16384x4096, .i32⟩
  | .hbm, ⟨52, _⟩ => ⟨S16384x4096, .i32⟩
  | .hbm, ⟨53, _⟩ => ⟨S16384x4096, .i1⟩
  | .hbm, ⟨54, _⟩ => ⟨S_, .f32⟩
  | .hbm, ⟨55, _⟩ => ⟨S16384x4096, .f32⟩
  | .hbm, ⟨56, _⟩ => ⟨S16384x4096, .i1⟩
  | .hbm, ⟨57, _⟩ => ⟨S16384x4096, .i1⟩
  | .hbm, ⟨58, _⟩ => ⟨S_, .f32⟩
  | .hbm, ⟨59, _⟩ => ⟨S_, .f32⟩
  | .hbm, ⟨60, _⟩ => ⟨S16384x4096, .f32⟩
  | .hbm, ⟨61, _⟩ => ⟨S16384x4096, .f32⟩
  | .hbm, ⟨62, _⟩ => ⟨S_, .f32⟩
  | .hbm, ⟨63, _⟩ => ⟨S_, .f32⟩
  | .hbm, ⟨64, _⟩ => ⟨S16384x4096, .i32⟩
  | .hbm, ⟨65, _⟩ => ⟨S_, .i32⟩
  | .hbm, ⟨66, _⟩ => ⟨S_, .i32⟩
  | .hbm, ⟨67, _⟩ => ⟨S_, .f32⟩
  | .hbm, ⟨68, _⟩ => ⟨S_, .f32⟩
  | .hbm, ⟨69, _⟩ => ⟨S_, .i1⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_cst : Ref sig .tc := ⟨.hbm, 40, rfl⟩
abbrev main_call0_v14 : Ref sig .tc := ⟨.hbm, 41, rfl⟩
abbrev main_v15 : Ref sig .tc := ⟨.hbm, 42, rfl⟩
abbrev main_cst_2 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_3 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_cst_4 : Ref sig .tc := ⟨.hbm, 58, rfl⟩
abbrev main_call1_v0 : Ref sig .tc := ⟨.hbm, 59, rfl⟩
abbrev main_call1_v1 : Ref sig .tc := ⟨.hbm, 60, rfl⟩
abbrev main_v29 : Ref sig .tc := ⟨.hbm, 61, rfl⟩
abbrev main_cst_5 : Ref sig .tc := ⟨.hbm, 62, rfl⟩
abbrev main_v30 : Ref sig .tc := ⟨.hbm, 63, rfl⟩
abbrev main_v31 : Ref sig .tc := ⟨.hbm, 64, rfl⟩
abbrev main_c : Ref sig .tc := ⟨.hbm, 65, rfl⟩
abbrev main_v32 : Ref sig .tc := ⟨.hbm, 66, rfl⟩
abbrev main_v33 : Ref sig .tc := ⟨.hbm, 67, rfl⟩
abbrev main_cst_6 : Ref sig .tc := ⟨.hbm, 68, rfl⟩
abbrev main_v34 : Ref sig .tc := ⟨.hbm, 69, rfl⟩
abbrev main_cst_7 : Ref sig .tc := ⟨.hbm, 70, rfl⟩
abbrev main_v35 : Ref sig .tc := ⟨.hbm, 71, rfl⟩
abbrev main_v36 : Ref sig .tc := ⟨.hbm, 72, rfl⟩
abbrev main_cst_8 : Ref sig .tc := ⟨.hbm, 73, rfl⟩
abbrev main_call2_v0 : Ref sig .tc := ⟨.hbm, 74, rfl⟩
abbrev main_v37 : Ref sig .tc := ⟨.hbm, 75, rfl⟩

abbrev nD : Nat := 1
abbrev τ : Topo := Topo.v7x

variable {F : FTy → Type} [FloatOps F]

class Facts₀ : Prop where
  reducesTo_S16384x128_S16384_d1 : S16384x128.ReducesTo [1] S16384
  h_S_ : 0 < S_.numel
  bcast_S16384_S16384x1_0 : S16384.BroadcastsInDim S16384x1 (![0] : Fin 1 → Fin S16384x1.rank)
  reducesTo_S4096x128_S4096_d1 : S4096x128.ReducesTo [1] S4096
  bcast_S4096_S1x4096_1 : S4096.BroadcastsInDim S1x4096 (![1] : Fin 1 → Fin S1x4096.rank)
  bcast_S16384x1_S16384x4096_0_1 : S16384x1.BroadcastsInDim S16384x4096 (![0, 1] : Fin 2 → Fin S16384x4096.rank)
  bcast_S1x4096_S16384x4096_0_1 : S1x4096.BroadcastsInDim S16384x4096 (![0, 1] : Fin 2 → Fin S16384x4096.rank)
  transposes_S4096x128_S128x4096_1_0 : S4096x128.Transposes [1, 0] S128x4096
  bcast_S_S16384x4096 : S_.BroadcastsInDim S16384x4096 (![] : Fin 0 → Fin S16384x4096.rank)
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  reducesTo_S16384x4096_S_d0_1 : S16384x4096.ReducesTo [0, 1] S_
  natLt_1_32 : 1 < 32
  dot_S16384x128_S128x4096_S16384x4096_1_0_0_1_n_n_wf : DotDims.WF S16384x128 S128x4096 S16384x4096 [1] [0] [0] [1] [] []
  gather_S16384x4096_S16384x1x1_S16384x1_n_1_0_0_1_2_11_wf : GatherDims.WF S16384x4096 S16384x1x1 S16384x1 [] [1] [0] [1] [0] 2 ![1, 1]

variable [Facts₀]

def dot_S16384x128_S128x4096_S16384x4096_1_0_0_1_n_n : DotDims S16384x128 S128x4096 S16384x4096 where
  lhsContracting := [1]
  rhsContracting := [0]
  lhsNonContracting := [0]
  rhsNonContracting := [1]
  lhsBatch := []
  rhsBatch := []
  wf := dot_S16384x128_S128x4096_S16384x4096_1_0_0_1_n_n_wf
def gather_S16384x4096_S16384x1x1_S16384x1_n_1_0_0_1_2_11 : GatherDims S16384x4096 S16384x1x1 S16384x1 where
  offsetDims := []
  collapsedSliceDims := [1]
  operandBatchingDims := [0]
  startIndicesBatchingDims := [0]
  startIndexMap := [1]
  indexVectorDim := 2
  sliceSizes := ![1, 1]
  wf := gather_S16384x4096_S16384x1x1_S16384x1_n_1_0_0_1_2_11_wf

class Facts : Prop extends Facts₀ where

variable [Facts]
-- ==== Proof.Spec.lean ====
/-
  The mathematics both programs compute, stated once over real arrays.

  For embeddings `e` (16384 rows of 128 reals), centers `cn` (4096 rows of 128 reals) and a label `tg i` in
  `[0, 4096)` for every row: `dist i c` is the squared Euclidean distance from row `i` to center `c`;
  `loss i c = 1 + dist i (tg i) - dist i c` is the margin violation of the triplet `(i, tg i, c)`; the triplet
  is mined when the violation is positive and `c` is not the row's own label. The result is the mean of the
  violation over the mined triplets (zero when none is mined): `tail` of their sum and their number.
  The same quantities restricted to a tile of 1024 rows by 1024 centers are what one grid point adds.
-/
import Idealize.ShloMosaic.PureOps
import Idealize.ShloMosaic.PureOps.Ideal
import Idealize.ShloMosaic.Lib.ValueIdx

open scoped BigOperators

noncomputable section

namespace Cert.CenterLoss

open Idealize.ShloMosaic Idealize.ShloMosaic.ValueIdx

abbrev S0 : Shape := ⟨0, ![]⟩

variable (e : Fin 16384 → Fin 128 → ℝ) (cn : Fin 4096 → Fin 128 → ℝ) (tg : Fin 16384 → Fin 4096)

/-- Squared Euclidean distance from embedding `i` to center `c`. -/
def dist (i : Fin 16384) (c : Fin 4096) : ℝ := ∑ d : Fin 128, (e i d - cn c d) ^ 2

/-- The margin violation of the triplet `(i, tg i, c)`, with margin one. -/
def loss (i : Fin 16384) (c : Fin 4096) : ℝ := 1 + dist e cn i (tg i) - dist e cn i c

/-- The triplet `(i, tg i, c)` is mined: it violates the margin and `c` is not the row's own label. -/
def hit (i : Fin 16384) (c : Fin 4096) : Prop := 0 < loss e cn tg i c ∧ c ≠ tg i

instance (i : Fin 16384) (c : Fin 4096) : Decidable (hit e cn tg i c) := Classical.propDecidable _

/-- The sum of the violations of the mined triplets. -/
def total : ℝ := ∑ i : Fin 16384, ∑ c : Fin 4096, if hit e cn tg i c then loss e cn tg i c else 0

/-- The number of mined triplets. -/
def count : ℕ := ∑ i : Fin 16384, ∑ c : Fin 4096, if hit e cn tg i c then 1 else 0

/-- Row `p` of row tile `I`. -/
def rowOf (I : Fin 16) (p : Fin 1024) : Fin 16384 := ⟨I.val * 1024 + p.val, by have := I.isLt; have := p.isLt; omega⟩

/-- Center `q` of center tile `J`. -/
def colOf (J : Fin 4) (q : Fin 1024) : Fin 4096 := ⟨J.val * 1024 + q.val, by have := J.isLt; have := q.isLt; omega⟩

/-- The sum of the violations of the mined triplets of one tile. -/
def tileTotal (I : Fin 16) (J : Fin 4) : ℝ :=
  ∑ p : Fin 1024, ∑ q : Fin 1024,
    if hit e cn tg (rowOf I p) (colOf J q) then loss e cn tg (rowOf I p) (colOf J q) else 0

/-- The number of mined triplets of one tile. -/
def tileCount (I : Fin 16) (J : Fin 4) : ℕ :=
  ∑ p : Fin 1024, ∑ q : Fin 1024, if hit e cn tg (rowOf I p) (colOf J q) then 1 else 0

/-- What both programs do with the sum `tot` and the number `n` of the mined triplets: the mean, or zero when there is none. -/
def tail (tot : FVec Ideal S0 .f32) (n : IVec S0 32) : FVec Ideal S0 .f32 :=
  select (cmpf .ogt (sitofp (F := Ideal) .f32 n) (constant (F := Ideal) S0 .f32 0x00000000#32))
    (Host.divf tot (maximumf (sitofp (F := Ideal) .f32 n) (constant (F := Ideal) S0 .f32 0x3F800000#32)))
    (constant (F := Ideal) S0 .f32 0x00000000#32)

end Cert.CenterLoss

end
-- ==== Proof.PreRead.lean ====
/-
  The precondition read back.

  The printed precondition is one bit: the conjunction, over every entry `x` of the embeddings and of the centers, of
  `|x| < +∞`, and, over every label `t`, of `0 ≤ t` and `t < 4096` (both signed). When that bit is set, every entry of
  the two float arrays is a real number (an extended real whose absolute value is below `+∞` is neither infinity, so
  it is the coercion of its real part), and every label is the 32-bit word of a natural number below 4096 (a word
  that is nonnegative signed reads the same signed and unsigned). So the three arrays are the images of real arrays
  `e`, `cn` and of a labelling `tg` with values in `Fin 4096`: the data the specification is stated over.
-/
import proofs.«427538_j82927228551475_3_alg».proof.Pre_finite_inputs
import proofs.«427538_j82927228551475_3_alg».proof.Proof.Gen.Pre_finite_inputs
import proofs.«427538_j82927228551475_3_alg».proof.Proof.Spec
import Idealize.ShloMosaic.Lib.ReduceAll
import Idealize.ShloMosaic.Lib.StableHlo.Predicate
import Idealize.ShloMosaic.Lib.ValueIdx
import Idealize.ShloMosaic.PureOps.Ideal

noncomputable section

namespace Cert.CenterLoss.PreRead

open Idealize.ShloMosaic Idealize.ShloMosaic.ValueIdx
open Cert.Pre_finite_inputs

/-- The scalar shape has one index. -/
instance : Subsingleton S_.Idx := ⟨fun a b => funext fun d => d.elim0⟩

/-- An extended real whose absolute value `max x (-x)` is below `+∞` is the coercion of its real part. -/
theorem real_of_abs_lt_top (x : Ideal .f32)
    (h : FloatOps.cmpf .olt (FloatOps.hostAbsf x) (FloatOps.ofBits (F := Ideal) .f32 0x7F800000#32) = 1#1) :
    x = ((EReal.toReal x : ℝ) : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  have hlt : max (x : EReal) (-(x : EReal)) < ⊤ := by
    unfold Ideal.cmp at h'
    exact of_decide_eq_true ((StableHlo.Predicate.ofBool_eq_one_iff _).1 h')
  obtain ⟨h1, h2⟩ := max_lt_iff.1 hlt
  have hne_top : (x : EReal) ≠ ⊤ := ne_of_lt h1
  have hne_bot : (x : EReal) ≠ ⊥ := by
    intro hb
    rw [hb] at h2
    exact absurd h2 (by simp)
  exact (EReal.coe_toReal hne_top hne_bot).symm

/-- A 32-bit word that is at least 0 and below 4096, both signed, is the word of its unsigned value, which is below 4096. -/
theorem word_of_range (t : BitVec 32) (h0 : IntOp.cmpi .sge t 0#32 = 1#1) (h1 : IntOp.cmpi .slt t 4096#32 = 1#1) :
    t.toNat < 4096 ∧ t = BitVec.ofNat 32 t.toNat := by
  have a0 : (0#32 : BitVec 32).toInt ≤ t.toInt := IntOp.cmpi_sge.1 h0
  have a1 : t.toInt < (4096#32 : BitVec 32).toInt := IntOp.cmpi_slt.1 h1
  rw [show (0#32 : BitVec 32).toInt = 0 from by decide] at a0
  rw [show (4096#32 : BitVec 32).toInt = 4096 from by decide] at a1
  have hn : 2 * t.toNat < 2 ^ 32 := BitVec.toInt_pos_iff.1 a0
  have e : t.toInt = t.toNat := BitVec.toInt_eq_toNat_of_lt hn
  refine ⟨by omega, ?_⟩
  apply BitVec.eq_of_toNat_eq
  rw [BitVec.toNat_ofNat]
  exact (Nat.mod_eq_of_lt t.isLt).symm

/-- The precondition decoded: the float arrays are real arrays and the labels name centers. -/
theorem decode (x0 : FVec Ideal S16384x128 .f32) (x1 : IVec S16384 32) (x2 : FVec Ideal S4096x128 .f32)
    (h : Cert.Pre_finite_inputs.fn (F := Ideal) x0 x1 x2 = fun _ => 1#1) :
    ∃ (e : Fin 16384 → Fin 128 → ℝ) (cn : Fin 4096 → Fin 128 → ℝ) (tg : Fin 16384 → Fin 4096),
      (∀ (i : Fin 16384) (d : Fin 128), x0 (ix2 i d) = ((e i d : ℝ) : EReal)) ∧
      (∀ (c : Fin 4096) (d : Fin 128), x2 (ix2 c d) = ((cn c d : ℝ) : EReal)) ∧
      (∀ i : Fin 16384, x1 (ix1 i) = BitVec.ofNat 32 (tg i).val) := by
  have h0 := congrFun h ix0
  dsimp only [Cert.Pre_finite_inputs.fn] at h0
  -- the bit is the conjunction of three reductions: embeddings, centers, labels
  obtain ⟨h12, h3⟩ := IntOp.andi_eq_one.1 h0
  obtain ⟨ha, hb⟩ := IntOp.andi_eq_one.1 h12
  have fa : ∀ (i : Fin 16384) (d : Fin 128), x0 (ix2 i d) = ((EReal.toReal (x0 (ix2 i d)) : ℝ) : EReal) := fun i d =>
    real_of_abs_lt_top (x0 (ix2 i d)) (Host.reduce_andi_all _ _ _ _ ix0 ha (ix2 i d))
  have fb : ∀ (c : Fin 4096) (d : Fin 128), x2 (ix2 c d) = ((EReal.toReal (x2 (ix2 c d)) : ℝ) : EReal) := fun c d =>
    real_of_abs_lt_top (x2 (ix2 c d)) (Host.reduce_andi_all _ _ _ _ ix0 hb (ix2 c d))
  have fc : ∀ i : Fin 16384, (x1 (ix1 i)).toNat < 4096 ∧ x1 (ix1 i) = BitVec.ofNat 32 (x1 (ix1 i)).toNat := fun i => by
    have hi := Host.reduce_andi_all _ _ _ _ ix0 h3 (ix1 i)
    obtain ⟨g0, g1⟩ := IntOp.andi_eq_one.1 hi
    exact word_of_range (x1 (ix1 i)) g0 g1
  exact ⟨fun i d => EReal.toReal (x0 (ix2 i d)), fun c d => EReal.toReal (x2 (ix2 c d)),
    fun i => ⟨(x1 (ix1 i)).toNat, (fc i).1⟩, fa, fb, fun i => (fc i).2⟩

end Cert.CenterLoss.PreRead

end
-- ==== Proof.Math.lean ====
/-
  The real-number facts behind the comparison of the two programs.

  The float constants the programs spell denote 0, 1 and 2. The coercion of the reals into the extended reals
  commutes with finite sums, so an expression built from sums, products and differences of coerced reals is the
  coercion of the same expression over the reals. With the expansion
  `Σ (x - y)² = Σ x² - 2 Σ x y + Σ y²` this identifies the expanded form one program evaluates and the
  form the other evaluates with the margin violation `loss` and the squared distance `dist`. Finally the sums
  over all rows and all centers split into the sixteen by four tiles of 1024 by 1024, and the numbers of mined
  triplets are bounded by the numbers of triplets.
-/
import proofs.«427538_j82927228551475_3_alg».proof.Proof.Spec
import Mathlib.Data.EReal.Operations
import Mathlib.Algebra.BigOperators.Fin
import Mathlib.Algebra.Order.BigOperators.Group.Finset
import Mathlib.Logic.Equiv.Fin.Basic
import Mathlib.Tactic.Ring
import Mathlib.Tactic.NormNum

open scoped BigOperators

noncomputable section

namespace Cert.CenterLoss

open Idealize.ShloMosaic

variable (e : Fin 16384 → Fin 128 → ℝ) (cn : Fin 4096 → Fin 128 → ℝ) (tg : Fin 16384 → Fin 4096)

/-! ### The constants -/

/-- The pattern of `+0.0` denotes `0`. -/
theorem ofBits_zero : Ideal.ofBits .f32 0x00000000#32 = (0 : EReal) := by
  simp [Ideal.ofBits, Ideal.ieee]

/-- The pattern of `1.0` (exponent field 127, fraction 0) denotes `1`. -/
theorem ofBits_one : Ideal.ofBits .f32 0x3F800000#32 = ((1 : ℝ) : EReal) := by
  simp [Ideal.ofBits, Ideal.ieee, -EReal.coe_mul]; norm_num

/-- The pattern of `2.0` (exponent field 128, fraction 0) denotes `2`. -/
theorem ofBits_two : Ideal.ofBits .f32 0x40000000#32 = ((2 : ℝ) : EReal) := by
  simp [Ideal.ofBits, Ideal.ieee, -EReal.coe_mul]; norm_num

/-! ### The coercion and finite sums -/

/-- The coercion of the reals into the extended reals commutes with finite sums. -/
theorem coe_sum {ι : Type*} (s : Finset ι) (f : ι → ℝ) :
    ((∑ i ∈ s, f i : ℝ) : EReal) = ∑ i ∈ s, ((f i : ℝ) : EReal) := by
  induction s using Finset.cons_induction with
  | empty => simp
  | cons a s ha ih => rw [Finset.sum_cons, Finset.sum_cons, EReal.coe_add, ih]

/-! ### The two forms of the distance and of the violation -/

/-- `Σ (x - y)² = Σ x x - 2 Σ x y + Σ y y`. -/
theorem sum_sq_sub (x y : Fin 128 → ℝ) :
    ∑ d : Fin 128, (x d - y d) ^ 2
      = ∑ d : Fin 128, x d * x d - 2 * ∑ d : Fin 128, x d * y d + ∑ d : Fin 128, y d * y d := by
  rw [Finset.mul_sum, ← Finset.sum_sub_distrib, ← Finset.sum_add_distrib]
  exact Finset.sum_congr rfl fun d _ => by ring

/-- The expanded form of the violation: `1 + dist i (tg i) - Σ e² - Σ c² + 2 Σ e c`. -/
theorem kernel_loss (i : Fin 16384) (c : Fin 4096) :
    (((((1 : ℝ) : EReal) + ∑ d : Fin 128, ((e i d : EReal) - (cn (tg i) d : EReal)) * ((e i d : EReal) - (cn (tg i) d : EReal)))
        - ∑ d : Fin 128, (e i d : EReal) * (e i d : EReal))
      - ∑ d : Fin 128, (cn c d : EReal) * (cn c d : EReal))
    + ((2 : ℝ) : EReal) * ∑ d : Fin 128, (e i d : EReal) * (cn c d : EReal)
    = ((loss e cn tg i c : ℝ) : EReal) := by
  simp only [← EReal.coe_sub, ← EReal.coe_mul, ← coe_sum, ← EReal.coe_add]
  congr 1
  unfold loss dist
  rw [sum_sq_sub (e i) (cn c)]
  have h : ∑ d : Fin 128, (e i d - cn (tg i) d) * (e i d - cn (tg i) d)
      = ∑ d : Fin 128, (e i d - cn (tg i) d) ^ 2 := Finset.sum_congr rfl fun d _ => by ring
  rw [h]; ring

/-- The expanded form of the squared distance: `Σ e² + Σ c² - 2 Σ e c`. -/
theorem ref_dist (i : Fin 16384) (c : Fin 4096) :
    ((∑ d : Fin 128, (e i d : EReal) * (e i d : EReal)) + ∑ d : Fin 128, (cn c d : EReal) * (cn c d : EReal))
      - ((2 : ℝ) : EReal) * ∑ d : Fin 128, (e i d : EReal) * (cn c d : EReal)
    = ((dist e cn i c : ℝ) : EReal) := by
  simp only [← EReal.coe_sub, ← EReal.coe_mul, ← coe_sum, ← EReal.coe_add]
  congr 1
  unfold dist
  rw [sum_sq_sub (e i) (cn c)]; ring

/-- The violation from the two distances. -/
theorem ref_loss (i : Fin 16384) (c : Fin 4096) :
    (((1 : ℝ) : EReal) + ((dist e cn i (tg i) : ℝ) : EReal)) - ((dist e cn i c : ℝ) : EReal)
      = ((loss e cn tg i c : ℝ) : EReal) := by
  rw [← EReal.coe_add, ← EReal.coe_sub]; rfl

/-! ### Splitting the sums into tiles -/

/-- A sum over the 16384 rows is the sum over the sixteen row tiles of the sums over their 1024 rows. -/
theorem sum_rows {M : Type*} [AddCommMonoid M] (g : Fin 16384 → M) :
    ∑ i : Fin 16384, g i = ∑ I : Fin 16, ∑ p : Fin 1024, g (rowOf I p) := by
  rw [← Fintype.sum_prod_type']
  symm
  refine Fintype.sum_equiv (finProdFinEquiv : Fin 16 × Fin 1024 ≃ Fin (16 * 1024)) _ _ fun x => ?_
  congr 1
  exact Fin.ext (by simp only [rowOf, finProdFinEquiv_apply_val]; omega)

/-- A sum over the 4096 centers is the sum over the four center tiles of the sums over their 1024 centers. -/
theorem sum_cols {M : Type*} [AddCommMonoid M] (g : Fin 4096 → M) :
    ∑ c : Fin 4096, g c = ∑ J : Fin 4, ∑ q : Fin 1024, g (colOf J q) := by
  rw [← Fintype.sum_prod_type']
  symm
  refine Fintype.sum_equiv (finProdFinEquiv : Fin 4 × Fin 1024 ≃ Fin (4 * 1024)) _ _ fun x => ?_
  congr 1
  exact Fin.ext (by simp only [colOf, finProdFinEquiv_apply_val]; omega)

/-- A double sum over rows and centers is the sum, over the tiles, of the double sums over a tile. -/
theorem sum_tiles {M : Type*} [AddCommMonoid M] (F : Fin 16384 → Fin 4096 → M) :
    ∑ i : Fin 16384, ∑ c : Fin 4096, F i c
      = ∑ I : Fin 16, ∑ J : Fin 4, ∑ p : Fin 1024, ∑ q : Fin 1024, F (rowOf I p) (colOf J q) := by
  rw [sum_rows (fun i => ∑ c : Fin 4096, F i c)]
  refine Finset.sum_congr rfl fun I _ => ?_
  exact (Finset.sum_congr rfl fun p _ => sum_cols (fun c => F (rowOf I p) c)).trans Finset.sum_comm

/-- The sum of the mined violations is the sum of the tiles' sums. -/
theorem total_tiles : total e cn tg = ∑ I : Fin 16, ∑ J : Fin 4, tileTotal e cn tg I J := by
  unfold total tileTotal
  exact sum_tiles (fun i c => if hit e cn tg i c then loss e cn tg i c else 0)

/-- The number of mined triplets is the sum of the tiles' numbers. -/
theorem count_tiles : count e cn tg = ∑ I : Fin 16, ∑ J : Fin 4, tileCount e cn tg I J := by
  unfold count tileCount
  exact sum_tiles (M := ℕ) (fun i c => if hit e cn tg i c then 1 else 0)

/-! ### The bounds -/

/-- A tile mines at most its `1024 · 1024` triplets. -/
theorem tileCount_le (I : Fin 16) (J : Fin 4) : tileCount e cn tg I J ≤ 1048576 := by
  unfold tileCount
  calc ∑ p : Fin 1024, ∑ q : Fin 1024, (if hit e cn tg (rowOf I p) (colOf J q) then 1 else 0)
      ≤ ∑ _p : Fin 1024, ∑ _q : Fin 1024, 1 :=
        Finset.sum_le_sum fun p _ => Finset.sum_le_sum fun q _ => by split_ifs <;> simp
    _ = 1048576 := by simp

/-- At most `16 · 4 · 1024 · 1024` triplets are mined. -/
theorem count_le : count e cn tg ≤ 67108864 := by
  rw [count_tiles]
  calc ∑ I : Fin 16, ∑ J : Fin 4, tileCount e cn tg I J
      ≤ ∑ _I : Fin 16, ∑ _J : Fin 4, 1048576 :=
        Finset.sum_le_sum fun I _ => Finset.sum_le_sum fun J _ => tileCount_le e cn tg I J
    _ = 67108864 := by simp

end Cert.CenterLoss

end
-- ==== Proof.RefValue.lean ====
/-
  The reference program's result as the specification's function.

  On arrays of reals `e` (embeddings), `cn` (centers) and labels `tg` below 4096, the reference computes, entry by entry:
  the distance matrix `(|e_i|² + |c_c|²) − 2·⟨e_i, c_c⟩`, which is the squared distance `dist i c`; the row's own distance
  `take_along_axis(dist, labels)`, whose index arithmetic (wrap a negative index, test the range, gather with a clamp,
  select) leaves a label in `[0, 4096)` alone, so that row `i` reads `dist i (tg i)`; the margin violation
  `(1 + dist i (tg i)) − dist i c = loss i c`; the mask `loss > 0` and `c ≠ tg i`, the bit of "the triplet is mined"; the
  float sum of the masked loss, which is `total`; and the wrapping 32-bit sum of the mask's bits, which is the word of
  `count`. The last five operations are literally the specification's `tail` of those two.
-/
import proofs.«427538_j82927228551475_3_alg».proof.Proof.RefRead
import proofs.«427538_j82927228551475_3_alg».proof.Proof.Spec
import proofs.«427538_j82927228551475_3_alg».proof.Proof.Math
import Idealize.ShloMosaic.Lib.ValueIdx
import Idealize.ShloMosaic.Lib.ValueLayout
import Idealize.ShloMosaic.Lib.Pipeline.Value
import Idealize.ShloMosaic.Lib.ReduceAll
import Idealize.ShloMosaic.Lib.IndicatorCount
import Idealize.ShloMosaic.Lib.WordArith
import Idealize.ShloMosaic.PureOps.Ideal.Laws

open scoped BigOperators

noncomputable section

namespace Cert.ReferenceIdeal.RefValue

open Cert.ReferenceIdeal Cert.ReferenceIdeal.Gen Cert.ReferenceIdeal.ReadP Cert.CenterLoss Idealize.ShloMosaic
  Idealize.ShloMosaic.ValueIdx

/-! ## The last five operations are the specification's `tail` -/

/-- The reference's result is `tail` of its float sum and its integer count. -/
theorem v37_eq_tail (x0 : FVec Ideal S16384x128 .f32) (x1 : IVec S16384 32) (x2 : FVec Ideal S4096x128 .f32) :
    val_main_v37 (F := Ideal) x0 x1 x2
      = Cert.CenterLoss.tail (val_main_v30 (F := Ideal) x0 x1 x2) (val_main_v32 (F := Ideal) x0 x1 x2) := by
  unfold val_main_v37 val_main_v34 val_main_v36 val_main_v35 val_main_v33 val_main_call2_v0 val_main_cst_6
    val_main_cst_7 val_main_cst_8 Cert.CenterLoss.tail
  rfl

section Entries

variable (x0 : FVec Ideal S16384x128 .f32) (x1 : IVec S16384 32) (x2 : FVec Ideal S4096x128 .f32)
  (e : Fin 16384 → Fin 128 → ℝ) (cn : Fin 4096 → Fin 128 → ℝ) (tg : Fin 16384 → Fin 4096)
  (he : ∀ (i : Fin 16384) (d : Fin 128), x0 (ix2 i d) = ((e i d : ℝ) : EReal))
  (hc : ∀ (c : Fin 4096) (d : Fin 128), x2 (ix2 c d) = ((cn c d : ℝ) : EReal))
  (ht : ∀ i : Fin 16384, x1 (ix1 i) = BitVec.ofNat 32 (tg i).val)

/-! ## The squared distance -/

include he in
/-- The squared norm of embedding row `i`. -/
theorem v1_at (i : Fin 16384) :
    val_main_v1 (F := Ideal) x0 (ix1 i) = ∑ d : Fin 128, (e i d : EReal) * (e i d : EReal) := by
  rw [val_main_v1_apply, val_main_cst_apply]
  refine (congrArg (· + _) Cert.CenterLoss.ofBits_zero).trans ((zero_add _).trans ?_)
  refine Finset.sum_congr rfl fun k _ => ?_
  rw [val_main_v0_apply,
    show idx_main_v1 (ix1 i) k = ix2 i k from
      funext fun a => Fin.ext (by match a with | ⟨0, _⟩ => rfl | ⟨1, _⟩ => rfl), he]
  rfl

include hc in
/-- The squared norm of center row `c`. -/
theorem v4_at (c : Fin 4096) :
    val_main_v4 (F := Ideal) x2 (ix1 c) = ∑ d : Fin 128, (cn c d : EReal) * (cn c d : EReal) := by
  rw [val_main_v4_apply, val_main_cst_0_apply]
  refine (congrArg (· + _) Cert.CenterLoss.ofBits_zero).trans ((zero_add _).trans ?_)
  refine Finset.sum_congr rfl fun k _ => ?_
  rw [val_main_v3_apply,
    show idx_main_v4 (ix1 c) k = ix2 c k from
      funext fun a => Fin.ext (by match a with | ⟨0, _⟩ => rfl | ⟨1, _⟩ => rfl), hc]
  rfl

include he hc in
/-- The inner product of embedding row `i` and center row `c`. -/
theorem v10_at (i : Fin 16384) (c : Fin 4096) :
    val_main_v10 (F := Ideal) x0 x2 (ix2 i c) = ∑ d : Fin 128, (e i d : EReal) * (cn c d : EReal) := by
  rw [val_main_v10_apply]
  refine Finset.sum_congr rfl fun k _ => ?_
  rw [val_main_v9_apply,
    show lidx_main_v10 (ix2 i c) k = ix2 i k from
      funext fun a => Fin.ext (by match a with | ⟨0, _⟩ => rfl | ⟨1, _⟩ => rfl),
    show idx_main_v9 (ridx_main_v10 (ix2 i c) k) = ix2 c k from
      funext fun a => Fin.ext (by match a with | ⟨0, _⟩ => rfl | ⟨1, _⟩ => rfl), he, hc]

include he hc in
/-- Entry `(i, c)` of the distance matrix is the squared distance from row `i` to center `c`. -/
theorem v13_at (i : Fin 16384) (c : Fin 4096) :
    val_main_v13 (F := Ideal) x0 x2 (ix2 i c) = ((dist e cn i c : ℝ) : EReal) := by
  rw [val_main_v13_apply, val_main_v8_apply, val_main_v12_apply, val_main_v6_apply, val_main_v2_apply,
    val_main_v7_apply, val_main_v5_apply, val_main_v11_apply, val_main_cst_1_apply,
    show idx_main_v2 (idx_main_v6 (ix2 i c)) = ix1 i from
      funext fun a => Fin.ext (by match a with | ⟨0, _⟩ => rfl),
    show idx_main_v5 (idx_main_v7 (ix2 i c)) = ix1 c from
      funext fun a => Fin.ext (by match a with | ⟨0, _⟩ => rfl),
    v1_at x0 e he, v4_at x2 cn hc, v10_at x0 x2 e cn he hc]
  rw [show (FloatOps.ofBits .f32 0x40000000#32 : Ideal .f32) = ((2 : ℝ) : EReal) from Cert.CenterLoss.ofBits_two]
  exact Cert.CenterLoss.ref_dist (e := e) (cn := cn) i c

/-! ## The row's own label, as the index words the reference computes -/

/-- A label below 4096, written as a 32-bit word and read signed, is itself. -/
theorem toInt_label (t : Fin 4096) : (BitVec.ofNat 32 t.val).toInt = (t.val : Int) :=
  WordArith.toInt_ofNat_small t.val (by have := t.isLt; omega)

include ht in
/-- The label column: entry `(i, 0)` is row `i`'s label word. -/
theorem v14_at (i : Fin 16384) (u : Fin 1) :
    val_main_v14 (F := Ideal) x1 (ix2 i u) = BitVec.ofNat 32 (tg i).val := by
  rw [val_main_v14_apply,
    show idx_main_v14 (ix2 i u) = ix1 i from funext fun a => Fin.ext (by match a with | ⟨0, _⟩ => rfl), ht]

include ht in
/-- The wrapped index of row `i` is its label: a label is not negative, so nothing is added. -/
theorem call0_v4_at (i : Fin 16384) (u : Fin 1) :
    val_main_call0_v4 (F := Ideal) x1 (ix2 i u) = BitVec.ofNat 32 (tg i).val := by
  rw [val_main_call0_v4_apply, val_main_call0_v1_apply, val_main_call0_v0_apply, val_main_call0_c_apply,
    v14_at x1 tg ht]
  have h0 : IntOp.cmpi .slt (BitVec.ofNat 32 (tg i).val) 0#32 = 0#1 :=
    eq_zero_of_ne_one fun h => by
      have hlt := IntOp.cmpi_slt.mp h
      rw [toInt_label, BitVec.toInt_zero] at hlt
      omega
  rw [h0]
  exact select_zero _ _

include ht in
/-- The same index as a `[16384, 1, 1]` array. -/
theorem call0_v5_at (i : Fin 16384) (u v : Fin 1) :
    val_main_call0_v5 (F := Ideal) x1 (ix3 i u v) = BitVec.ofNat 32 (tg i).val := by
  rw [val_main_call0_v5_apply,
    show idx_main_call0_v5 (ix3 i u v) = ix2 i (0 : Fin 1) from
      funext fun a => Fin.ext (by
        match a with
        | ⟨0, _⟩ =>
          show ((i.val * 1 + u.val) * 1 + v.val) / 1 = i.val
          have := u.isLt
          have := v.isLt
          omega
        | ⟨1, _⟩ => rfl),
    call0_v4_at x1 tg ht]

include ht in
/-- The range test `0 ≤ index ≤ 4095` holds on every row. -/
theorem call0_v11_at (j : S16384x1x1.Idx) : val_main_call0_v11 (F := Ideal) x1 j = 1#1 := by
  obtain ⟨i, u, v, rfl⟩ : ∃ i u v, j = ix3 i u v := ⟨j 0, j 1, j 2, eq_ix3 j⟩
  rw [val_main_call0_v11_apply, val_main_call0_v7_apply, val_main_call0_v10_apply, val_main_call0_v6_apply,
    val_main_call0_c_2_apply, val_main_call0_v9_apply, val_main_call0_v8_apply, val_main_call0_c_1_apply,
    call0_v5_at x1 tg ht]
  refine IntOp.andi_eq_one.mpr ⟨IntOp.cmpi_sge.mpr ?_, IntOp.cmpi_sle.mpr ?_⟩
  · rw [toInt_label, BitVec.toInt_zero]
    omega
  · rw [toInt_label, show (4095#32 : BitVec 32).toInt = 4095 from by decide]
    have := (tg i).isLt
    omega

/-- A reduction by `and` of an array of ones, started from one, is one at every index. -/
theorem reduce_andi_ones {s t u : Shape} {axes : List (Fin s.rank)} (x : s.Idx → BitVec 1) (init : u.Idx → BitVec 1)
    (h : s.ReducesTo axes t) (hu : 0 < u.numel) (j : t.Idx) (hx : ∀ i, x i = 1#1)
    (hi : init (Shape.Idx.first hu) = 1#1) : Host.reduce IntOp.andi x init h hu j = 1#1 := by
  rw [Host.reduce_eq_foldl, hi]
  generalize (((List.finRange s.numel).map s.rowMajor.symm).filter fun i => h.drop i = j) = l
  induction l with
  | nil => rfl
  | cons a l ih =>
    rw [List.foldl_cons, hx a]
    exact ih

include ht in
/-- So the test reduced over its axis of extent one holds on every row. -/
theorem call0_v12_at (k : S16384x1.Idx) : val_main_call0_v12 (F := Ideal) x1 k = 1#1 := by
  unfold val_main_call0_v12
  exact reduce_andi_ones _ _ _ _ _ (call0_v11_at x1 tg ht) rfl

/-! ## The gather along the rows -/

/-- The batched gather at `(i, 0)`: the operand at row `i` (axis 0 is a batching axis: its coordinate is the result's)
    and at the column the start index names (axis 1 is collapsed and start-indexed: the word read signed, clamped into
    `[0, 4095]`, which leaves a label alone). -/
theorem gather_at {α : Type} (x : S16384x4096.Idx → α) (idx : IVec S16384x1x1 32) (i : Fin 16384) (u : Fin 1)
    (t : Fin 4096) (h : (idx (ix3 i u (0 : Fin 1))).toInt = (t.val : Int)) :
    Host.gather gather_S16384x4096_S16384x1x1_S16384x1_n_1_0_0_1_2_11 x idx (ix2 i u) = x (ix2 i t) := by
  unfold Host.gather
  congr 1
  funext a
  refine Fin.ext ?_
  match a with
  | ⟨0, _⟩ =>
    show gather_S16384x4096_S16384x1x1_S16384x1_n_1_0_0_1_2_11.start (ix2 i u) idx 0
      + gather_S16384x4096_S16384x1x1_S16384x1_n_1_0_0_1_2_11.batchCoord (ix2 i u) 0
      + gather_S16384x4096_S16384x1x1_S16384x1_n_1_0_0_1_2_11.offCoord (ix2 i u) 0 = i.val
    have hb : (0 : Fin 2) ∈ gather_S16384x4096_S16384x1x1_S16384x1_n_1_0_0_1_2_11.operandBatchingDims :=
      List.mem_singleton.mpr rfl
    rw [GatherDims.start_batching _ _ _ _ hb,
      GatherDims.offCoord_eq_zero _ _ _ (fun hk => ((GatherDims.mem_sKept _ _).mp hk).2 hb)]
    unfold GatherDims.batchCoord
    rw [dif_pos hb]
    simp only [Nat.zero_add, Nat.add_zero]
    rfl
  | ⟨1, _⟩ =>
    show gather_S16384x4096_S16384x1x1_S16384x1_n_1_0_0_1_2_11.start (ix2 i u) idx 1
      + gather_S16384x4096_S16384x1x1_S16384x1_n_1_0_0_1_2_11.batchCoord (ix2 i u) 1
      + gather_S16384x4096_S16384x1x1_S16384x1_n_1_0_0_1_2_11.offCoord (ix2 i u) 1 = t.val
    have hs : (1 : Fin 2) ∈ gather_S16384x4096_S16384x1x1_S16384x1_n_1_0_0_1_2_11.startIndexMap :=
      List.mem_singleton.mpr rfl
    have hcs : (1 : Fin 2) ∈ gather_S16384x4096_S16384x1x1_S16384x1_n_1_0_0_1_2_11.collapsedSliceDims :=
      List.mem_singleton.mpr rfl
    rw [GatherDims.batchCoord_eq_zero _ _ _ (show (1 : Fin 2) ∉ ([0] : List (Fin 2)) by decide),
      GatherDims.offCoord_eq_zero _ _ _ (fun hk => ((GatherDims.mem_sKept _ _).mp hk).1 hcs)]
    unfold GatherDims.start
    rw [dif_pos hs]
    have hsi : gather_S16384x4096_S16384x1x1_S16384x1_n_1_0_0_1_2_11.siIdx (ix2 i u)
        ⟨List.idxOf (1 : Fin 2) gather_S16384x4096_S16384x1x1_S16384x1_n_1_0_0_1_2_11.startIndexMap,
          List.idxOf_lt_length_iff.2 hs⟩ = ix3 i u (0 : Fin 1) := by
      funext b
      refine Fin.ext ?_
      match b with
      | ⟨0, _⟩ => rfl
      | ⟨1, _⟩ => rfl
      | ⟨2, _⟩ => rfl
    rw [hsi, h]
    show min (Int.toNat (t.val : Int)) (4096 - 1) + 0 + 0 = t.val
    rw [Int.toNat_natCast]
    have := t.isLt
    omega

include he hc ht in
/-- Row `i` of `take_along_axis`: the squared distance from row `i` to the center of its own label. -/
theorem v15_at (i : Fin 16384) (u : Fin 1) :
    val_main_v15 (F := Ideal) x0 x1 x2 (ix2 i u) = ((dist e cn i (tg i) : ℝ) : EReal) := by
  rw [val_main_v15_apply, call0_v12_at x1 tg ht, select_one]
  unfold val_main_call0_v13
  rw [gather_at _ _ i u (tg i) (by rw [call0_v5_at x1 tg ht]; exact toInt_label _)]
  exact v13_at x0 x2 e cn he hc i (tg i)

/-! ## The margin violation and the mask -/

include he hc ht in
/-- Entry `(i, c)` of the loss matrix is the margin violation of the triplet `(i, tg i, c)`. -/
theorem v19_at (i : Fin 16384) (c : Fin 4096) :
    val_main_v19 (F := Ideal) x0 x1 x2 (ix2 i c) = ((loss e cn tg i c : ℝ) : EReal) := by
  rw [val_main_v19_apply, val_main_v18_apply, val_main_v17_apply, val_main_v16_apply, val_main_cst_2_apply,
    show idx_main_v18 (ix2 i c) = ix2 i (0 : Fin 1) from
      funext fun a => Fin.ext (by match a with | ⟨0, _⟩ => rfl | ⟨1, _⟩ => rfl),
    v15_at x0 x1 x2 e cn tg he hc ht, v13_at x0 x2 e cn he hc,
    show (FloatOps.ofBits .f32 0x3F800000#32 : Ideal .f32) = ((1 : ℝ) : EReal) from Cert.CenterLoss.ofBits_one]
  exact Cert.CenterLoss.ref_loss (e := e) (cn := cn) (tg := tg) i c

include ht in
/-- The "not the row's own label" bit at `(i, c)`: the column number's word against the label's. -/
theorem v25_at (i : Fin 16384) (c : Fin 4096) :
    val_main_v25 (F := Ideal) x1 (ix2 i c)
      = IntOp.cmpi .ne (BitVec.ofNat 32 c.val) (BitVec.ofNat 32 (tg i).val) := by
  rw [val_main_v25_apply, val_main_v23_apply, val_main_v21_apply, val_main_v20_apply, val_main_v24_apply,
    val_main_v22_apply,
    show idx_main_v22 (idx_main_v24 (ix2 i c)) = ix1 i from
      funext fun a => Fin.ext (by match a with | ⟨0, _⟩ => rfl), ht]

/-- Two numbers below 4096 have the same 32-bit word only if they are equal. -/
theorem label_word_eq_iff (c t : Fin 4096) : BitVec.ofNat 32 c.val = BitVec.ofNat 32 t.val ↔ c = t := by
  constructor
  · intro h
    have hn := congrArg BitVec.toNat h
    rw [BitVec.toNat_ofNat, BitVec.toNat_ofNat, Nat.mod_eq_of_lt (by have := c.isLt; omega),
      Nat.mod_eq_of_lt (by have := t.isLt; omega)] at hn
    exact Fin.ext hn
  · rintro rfl
    rfl

include he hc ht in
/-- The mask at `(i, c)` is the bit of "the triplet `(i, tg i, c)` is mined". -/
theorem v28_at (i : Fin 16384) (c : Fin 4096) :
    val_main_v28 (F := Ideal) x0 x1 x2 (ix2 i c) = if hit e cn tg i c then 1#1 else 0#1 := by
  rw [val_main_v28_apply, val_main_v27_apply, val_main_v26_apply, val_main_cst_3_apply,
    v19_at x0 x1 x2 e cn tg he hc ht, v25_at x1 tg ht,
    show (FloatOps.ofBits .f32 0x00000000#32 : Ideal .f32) = (0 : EReal) from Cert.CenterLoss.ofBits_zero]
  by_cases hh : hit e cn tg i c
  · rw [if_pos hh]
    refine IntOp.andi_eq_one.mpr ⟨?_, IntOp.cmpi_ne.mpr fun h => hh.2 ((label_word_eq_iff c (tg i)).mp h)⟩
    show BitVec.ofBool (decide ((0 : EReal) < ((loss e cn tg i c : ℝ) : EReal))) = 1#1
    rw [decide_eq_true (EReal.coe_pos.mpr hh.1)]
    rfl
  · rw [if_neg hh]
    refine eq_zero_of_ne_one fun h => hh ?_
    obtain ⟨h1, h2⟩ := IntOp.andi_eq_one.mp h
    refine ⟨?_, fun hct => IntOp.cmpi_ne.mp h2 (by rw [hct])⟩
    have h1' : BitVec.ofBool (decide ((0 : EReal) < ((loss e cn tg i c : ℝ) : EReal))) = 1#1 := h1
    exact EReal.coe_pos.mp (of_decide_eq_true ((WordArith.ofBool_eq_one_iff _).mp h1'))

/-! ## The sum of the violations of the mined triplets -/

include he hc ht in
/-- The masked loss at `(i, c)`: the violation where the triplet is mined, zero elsewhere. -/
theorem v29_at (i : Fin 16384) (c : Fin 4096) :
    val_main_v29 (F := Ideal) x0 x1 x2 (ix2 i c)
      = (((if hit e cn tg i c then loss e cn tg i c else 0 : ℝ)) : EReal) := by
  rw [val_main_v29_apply, v28_at x0 x1 x2 e cn tg he hc ht, v19_at x0 x1 x2 e cn tg he hc ht,
    val_main_call1_v1_apply, val_main_call1_v0_apply, val_main_cst_4_apply,
    show (FloatOps.ofBits .f32 0x00000000#32 : Ideal .f32) = (0 : EReal) from Cert.CenterLoss.ofBits_zero]
  by_cases hh : hit e cn tg i c
  · rw [if_pos hh, if_pos hh]
    exact select_one _ _
  · rw [if_neg hh, if_neg hh]
    exact (select_zero _ _).trans EReal.coe_zero.symm

include he hc ht in
/-- (T) The reference's float sum is the specification's `total`. -/
theorem v30_eq : val_main_v30 (F := Ideal) x0 x1 x2 = fun _ => ((total e cn tg : ℝ) : EReal) := by
  funext j
  rw [val_main_v30_apply, val_main_cst_5_apply]
  refine (congrArg (· + _) Cert.CenterLoss.ofBits_zero).trans ((zero_add _).trans ?_)
  rw [sum_idx2]
  unfold total
  rw [Cert.CenterLoss.coe_sum]
  refine Finset.sum_congr rfl fun i _ => ?_
  rw [Cert.CenterLoss.coe_sum]
  exact Finset.sum_congr rfl fun c _ => v29_at x0 x1 x2 e cn tg he hc ht i c

/-! ## The number of mined triplets -/

include he hc ht in
/-- (N) The reference's integer sum of the mask is the word of the specification's `count`: a wrapping sum of zeros and
    ones is the word of the number of ones. -/
theorem v32_eq : val_main_v32 (F := Ideal) x0 x1 x2 = fun _ => BitVec.ofNat 32 (count e cn tg) := by
  funext j
  unfold val_main_v32
  rw [Host.reduce_eq_fold, Finset.filter_true_of_mem (fun k _ => Subsingleton.elim _ _)]
  show Finset.fold IntOp.addi (0#32) (fun k => (val_main_v28 (F := Ideal) x0 x1 x2 k).setWidth 32) Finset.univ = _
  rw [IndicatorCount.fold_addi_setWidth_eq_card]
  refine congrArg (BitVec.ofNat 32) ?_
  rw [Finset.card_filter, sum_idx2]
  unfold Cert.CenterLoss.count
  refine Finset.sum_congr rfl fun i _ => Finset.sum_congr rfl fun c _ => ?_
  rw [v28_at x0 x1 x2 e cn tg he hc ht]
  by_cases hh : hit e cn tg i c
  · rw [if_pos hh, if_pos hh, if_pos rfl]
  · rw [if_neg hh, if_neg hh, if_neg (by decide)]

end Entries

/-- THE REFERENCE'S RESULT: on arrays of reals `e`, `cn` and labels `tg` below 4096, the reference program's result is
    the specification's `tail` of the sum of the violations of the mined triplets and of their number. -/
theorem ref_value (x0 : FVec Ideal S16384x128 .f32) (x1 : IVec S16384 32) (x2 : FVec Ideal S4096x128 .f32)
    (e : Fin 16384 → Fin 128 → ℝ) (cn : Fin 4096 → Fin 128 → ℝ) (tg : Fin 16384 → Fin 4096)
    (he : ∀ (i : Fin 16384) (d : Fin 128), x0 (ix2 i d) = ((e i d : ℝ) : EReal))
    (hc : ∀ (c : Fin 4096) (d : Fin 128), x2 (ix2 c d) = ((cn c d : ℝ) : EReal))
    (ht : ∀ i : Fin 16384, x1 (ix1 i) = BitVec.ofNat 32 (tg i).val) :
    Cert.ReferenceIdeal.ReadP.val_main_v37 (F := Ideal) x0 x1 x2
      = Cert.CenterLoss.tail (fun _ => ((total e cn tg : ℝ) : EReal)) (fun _ => BitVec.ofNat 32 (count e cn tg)) := by
  rw [v37_eq_tail, v30_eq x0 x1 x2 e cn tg he hc ht, v32_eq x0 x1 x2 e cn tg he hc ht]

end Cert.ReferenceIdeal.RefValue

end
-- ==== Proof.KAcc.lean ====
/-
  What the kernel's grid leaves in its two accumulators and its two output blocks.

  A grid point `(I, J)` is a tile of 1024 embedding rows by 1024 centers. The body computes the tile's sum of mined
  violations (a 1×1 value, `tileT`) and its per-row numbers of mined triplets (`tileC`) from the point's blocks: the
  embedding rows, the resident centers / squared norms / column numbers read at the column tile's offset, the rows'
  precomputed terms and labels. Two 1×1 accumulators carried across the points of a row tile are reset at `J = 0` and
  take the tile's values at every point; at `J = 3` each is spread on lane 0 of a 1×1×128 output block.
  Here: what each control case leaves in each accumulator and output (the covering store's value read back), the
  accumulators after point `n` as a recursion over the points, and the proof, by induction on the point, that the
  run's contents are that recursion.
-/
import proofs.«427538_j82927228551475_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)

namespace Cert.KernelIdeal.AccValue
open Cert.KernelIdeal Cert.KernelIdeal.Gen
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The 1024 center rows of the point's column tile, read out of the resident centers. -/
abbrev cTile (i : grid0.Coords) (x1 : Vec F S4096x128 .f32) : Vec F S1024x128 .f32 :=
  View.ld x1 (Rect.unit (s := S4096x128) (k0_off1 i) S1024x128.size (k0_off1_inb i))
/-- The column tile's 1024 squared norms, read out of the resident row. -/
abbrev nTile (i : grid0.Coords) (x4 : Vec F S1x4096 .f32) : Vec F S1x1024 .f32 :=
  View.ld x4 (Rect.unit (s := S1x4096) (k0_off2 i) S1x1024.size (k0_off2_inb i))
/-- The column tile's 1024 column numbers, read out of the resident row. -/
abbrev jTile (i : grid0.Coords) (x5 : Vec F S1x4096 .i32) : Vec F S1x1024 .i32 :=
  View.ld x5 (Rect.unit (s := S1x4096) (k0_off2 i) S1x1024.size (k0_off2_inb i))

/-- The tile's sum of mined violations, as the body computes it from its blocks. -/
def tileT (i : grid0.Coords) (x0 : Vec F S1024x128 .f32) (x1 : Vec F S4096x128 .f32) (x2 : Vec F S1024x1 .f32) (x3 : Vec F S1024x1 .i32) (x4 : Vec F S1x4096 .f32) (x5 : Vec F S1x4096 .i32) : FVec F S1x1 .f32 :=
  k0_pay10 (cTile i x1) (nTile i x4) (jTile i x5) x0 x2 x3
/-- The tile's per-row numbers of mined triplets, as the body computes them from its blocks. -/
def tileC (i : grid0.Coords) (x0 : Vec F S1024x128 .f32) (x1 : Vec F S4096x128 .f32) (x2 : Vec F S1024x1 .f32) (x3 : Vec F S1024x1 .i32) (x4 : Vec F S1x4096 .f32) (x5 : Vec F S1x4096 .i32) : FVec F S1024 .f32 :=
  k0_pay11 (cTile i x1) (nTile i x4) (jTile i x5) x0 x2 x3

theorem sA0 (c : Dev nD) (i : grid0.Coords) (arg2 : Memref sig .tc .vmem S1024x128 .f32) (harg2 : arg2.IsWhole) (arg3 : Memref sig .tc .vmem S4096x128 .f32) (harg3 : arg3.IsWhole) (arg4 : Memref sig .tc .vmem S1024x1 .f32) (harg4 : arg4.IsWhole) (arg5 : Memref sig .tc .vmem S1024x1 .i32) (harg5 : arg5.IsWhole) (arg6 : Memref sig .tc .vmem S1x4096 .f32) (harg6 : arg6.IsWhole) (arg7 : Memref sig .tc .vmem S1x4096 .i32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1 .f32) (harg10 : arg10.IsWhole) (arg11 : Memref sig .tc .vmem S1x1 .f32) (harg11 : arg11.IsWhole) (hc0 : cond0_0 i) (hc1 : ¬cond0_1 i) (x0 : Vec F S1024x128 .f32) (x1 : Vec F S4096x128 .f32) (x2 : Vec F S1024x1 .f32) (x3 : Vec F S1024x1 .i32) (x4 : Vec F S1x4096 .f32) (x5 : Vec F S1x4096 .i32) :
    sout0_A_0 c i arg2 harg2 arg3 harg3 arg4 harg4 arg5 harg5 arg6 harg6 arg7 harg7 arg8 harg8 arg9 harg9 arg10 harg10 arg11 harg11 hc0 hc1 x0 x1 x2 x3 x4 x5 = k0_pay1 (tileT i x0 x1 x2 x3 x4 x5) (k0_pay6 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_run_names
  rw [View.canon_cons_unit_zero (S := S1x1) hz2, View.readCov_unit_zero (S := S1x1) _ hz2]
  simp only [View.readAt_eq_ld, harg2.read_unread, harg3.read_unread, harg4.read_unread, harg5.read_unread, harg6.read_unread, harg7.read_unread, harg10.read_unread, harg11.read_unread, View.ld_unit_zero (S := S1024x128) hz2, View.ld_unit_zero (S := S1024x1) hz2, View.ld_unit_zero (S := S1x1) hz2]
  rfl

theorem sA1 (c : Dev nD) (i : grid0.Coords) (arg2 : Memref sig .tc .vmem S1024x128 .f32) (harg2 : arg2.IsWhole) (arg3 : Memref sig .tc .vmem S4096x128 .f32) (harg3 : arg3.IsWhole) (arg4 : Memref sig .tc .vmem S1024x1 .f32) (harg4 : arg4.IsWhole) (arg5 : Memref sig .tc .vmem S1024x1 .i32) (harg5 : arg5.IsWhole) (arg6 : Memref sig .tc .vmem S1x4096 .f32) (harg6 : arg6.IsWhole) (arg7 : Memref sig .tc .vmem S1x4096 .i32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1 .f32) (harg10 : arg10.IsWhole) (arg11 : Memref sig .tc .vmem S1x1 .f32) (harg11 : arg11.IsWhole) (hc0 : cond0_0 i) (hc1 : ¬cond0_1 i) (x0 : Vec F S1024x128 .f32) (x1 : Vec F S4096x128 .f32) (x2 : Vec F S1024x1 .f32) (x3 : Vec F S1024x1 .i32) (x4 : Vec F S1x4096 .f32) (x5 : Vec F S1x4096 .i32) :
    sout0_A_1 c i arg2 harg2 arg3 harg3 arg4 harg4 arg5 harg5 arg6 harg6 arg7 harg7 arg8 harg8 arg9 harg9 arg10 harg10 arg11 harg11 hc0 hc1 x0 x1 x2 x3 x4 x5 = k0_pay2 (tileC i x0 x1 x2 x3 x4 x5) (k0_pay7 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_run_names
  rw [View.canon_cons_unit_zero (S := S1x1) hz2, View.readCov_unit_zero (S := S1x1) _ hz2]
  simp only [View.readAt_eq_ld, harg2.read_unread, harg3.read_unread, harg4.read_unread, harg5.read_unread, harg6.read_unread, harg7.read_unread, harg10.read_unread, harg11.read_unread, View.ld_unit_zero (S := S1024x128) hz2, View.ld_unit_zero (S := S1024x1) hz2, View.ld_unit_zero (S := S1x1) hz2]
  rfl

theorem sB0 (c : Dev nD) (i : grid0.Coords) (arg2 : Memref sig .tc .vmem S1024x128 .f32) (harg2 : arg2.IsWhole) (arg3 : Memref sig .tc .vmem S4096x128 .f32) (harg3 : arg3.IsWhole) (arg4 : Memref sig .tc .vmem S1024x1 .f32) (harg4 : arg4.IsWhole) (arg5 : Memref sig .tc .vmem S1024x1 .i32) (harg5 : arg5.IsWhole) (arg6 : Memref sig .tc .vmem S1x4096 .f32) (harg6 : arg6.IsWhole) (arg7 : Memref sig .tc .vmem S1x4096 .i32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : ¬cond0_1 i) (x0 : Vec F S1024x128 .f32) (x1 : Vec F S4096x128 .f32) (x2 : Vec F S1024x1 .f32) (x3 : Vec F S1024x1 .i32) (x4 : Vec F S1x4096 .f32) (x5 : Vec F S1x4096 .i32) (xs0 xs1 : Vec F S1x1 .f32) :
    sout0_B_0 c i arg2 harg2 arg3 harg3 arg4 harg4 arg5 harg5 arg6 harg6 arg7 harg7 arg8 harg8 arg9 harg9 arg10 harg10 arg11 harg11 hc0 hc1 x0 x1 x2 x3 x4 x5 xs0 xs1 = k0_pay1 (tileT i x0 x1 x2 x3 x4 x5) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_run_names
  rw [View.canon_unit_zero hz2]
  simp only [View.readAt_eq_ld, harg2.read_unread, harg3.read_unread, harg4.read_unread, harg5.read_unread, harg6.read_unread, harg7.read_unread, harg10.read_unread, harg11.read_unread, View.ld_unit_zero (S := S1024x128) hz2, View.ld_unit_zero (S := S1024x1) hz2, View.ld_unit_zero (S := S1x1) hz2]
  rfl

theorem sB1 (c : Dev nD) (i : grid0.Coords) (arg2 : Memref sig .tc .vmem S1024x128 .f32) (harg2 : arg2.IsWhole) (arg3 : Memref sig .tc .vmem S4096x128 .f32) (harg3 : arg3.IsWhole) (arg4 : Memref sig .tc .vmem S1024x1 .f32) (harg4 : arg4.IsWhole) (arg5 : Memref sig .tc .vmem S1024x1 .i32) (harg5 : arg5.IsWhole) (arg6 : Memref sig .tc .vmem S1x4096 .f32) (harg6 : arg6.IsWhole) (arg7 : Memref sig .tc .vmem S1x4096 .i32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : ¬cond0_1 i) (x0 : Vec F S1024x128 .f32) (x1 : Vec F S4096x128 .f32) (x2 : Vec F S1024x1 .f32) (x3 : Vec F S1024x1 .i32) (x4 : Vec F S1x4096 .f32) (x5 : Vec F S1x4096 .i32) (xs0 xs1 : Vec F S1x1 .f32) :
    sout0_B_1 c i arg2 harg2 arg3 harg3 arg4 harg4 arg5 harg5 arg6 harg6 arg7 harg7 arg8 harg8 arg9 harg9 arg10 harg10 arg11 harg11 hc0 hc1 x0 x1 x2 x3 x4 x5 xs0 xs1 = k0_pay2 (tileC i x0 x1 x2 x3 x4 x5) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_run_names
  rw [View.canon_unit_zero hz2]
  simp only [View.readAt_eq_ld, harg2.read_unread, harg3.read_unread, harg4.read_unread, harg5.read_unread, harg6.read_unread, harg7.read_unread, harg10.read_unread, harg11.read_unread, View.ld_unit_zero (S := S1024x128) hz2, View.ld_unit_zero (S := S1024x1) hz2, View.ld_unit_zero (S := S1x1) hz2]
  rfl

theorem sC0 (c : Dev nD) (i : grid0.Coords) (arg2 : Memref sig .tc .vmem S1024x128 .f32) (harg2 : arg2.IsWhole) (arg3 : Memref sig .tc .vmem S4096x128 .f32) (harg3 : arg3.IsWhole) (arg4 : Memref sig .tc .vmem S1024x1 .f32) (harg4 : arg4.IsWhole) (arg5 : Memref sig .tc .vmem S1024x1 .i32) (harg5 : arg5.IsWhole) (arg6 : Memref sig .tc .vmem S1x4096 .f32) (harg6 : arg6.IsWhole) (arg7 : Memref sig .tc .vmem S1x4096 .i32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : cond0_1 i) (x0 : Vec F S1024x128 .f32) (x1 : Vec F S4096x128 .f32) (x2 : Vec F S1024x1 .f32) (x3 : Vec F S1024x1 .i32) (x4 : Vec F S1x4096 .f32) (x5 : Vec F S1x4096 .i32) (xs0 xs1 : Vec F S1x1 .f32) :
    sout0_C_0 c i arg2 harg2 arg3 harg3 arg4 harg4 arg5 harg5 arg6 harg6 arg7 harg7 arg8 harg8 arg9 harg9 arg10 harg10 arg11 harg11 hc0 hc1 x0 x1 x2 x3 x4 x5 xs0 xs1 = k0_pay1 (tileT i x0 x1 x2 x3 x4 x5) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_run_names
  rw [View.canon_unit_zero hz2]
  simp only [View.readAt_eq_ld, harg2.read_unread, harg3.read_unread, harg4.read_unread, harg5.read_unread, harg6.read_unread, harg7.read_unread, harg10.read_unread, harg11.read_unread, View.ld_unit_zero (S := S1024x128) hz2, View.ld_unit_zero (S := S1024x1) hz2, View.ld_unit_zero (S := S1x1) hz2]
  rfl

theorem sC1 (c : Dev nD) (i : grid0.Coords) (arg2 : Memref sig .tc .vmem S1024x128 .f32) (harg2 : arg2.IsWhole) (arg3 : Memref sig .tc .vmem S4096x128 .f32) (harg3 : arg3.IsWhole) (arg4 : Memref sig .tc .vmem S1024x1 .f32) (harg4 : arg4.IsWhole) (arg5 : Memref sig .tc .vmem S1024x1 .i32) (harg5 : arg5.IsWhole) (arg6 : Memref sig .tc .vmem S1x4096 .f32) (harg6 : arg6.IsWhole) (arg7 : Memref sig .tc .vmem S1x4096 .i32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : cond0_1 i) (x0 : Vec F S1024x128 .f32) (x1 : Vec F S4096x128 .f32) (x2 : Vec F S1024x1 .f32) (x3 : Vec F S1024x1 .i32) (x4 : Vec F S1x4096 .f32) (x5 : Vec F S1x4096 .i32) (xs0 xs1 : Vec F S1x1 .f32) :
    sout0_C_1 c i arg2 harg2 arg3 harg3 arg4 harg4 arg5 harg5 arg6 harg6 arg7 harg7 arg8 harg8 arg9 harg9 arg10 harg10 arg11 harg11 hc0 hc1 x0 x1 x2 x3 x4 x5 xs0 xs1 = k0_pay2 (tileC i x0 x1 x2 x3 x4 x5) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_run_names
  rw [View.canon_unit_zero hz2]
  simp only [View.readAt_eq_ld, harg2.read_unread, harg3.read_unread, harg4.read_unread, harg5.read_unread, harg6.read_unread, harg7.read_unread, harg10.read_unread, harg11.read_unread, View.ld_unit_zero (S := S1024x128) hz2, View.ld_unit_zero (S := S1024x1) hz2, View.ld_unit_zero (S := S1x1) hz2]
  rfl

theorem oC6 (c : Dev nD) (i : grid0.Coords) (arg2 : Memref sig .tc .vmem S1024x128 .f32) (harg2 : arg2.IsWhole) (arg3 : Memref sig .tc .vmem S4096x128 .f32) (harg3 : arg3.IsWhole) (arg4 : Memref sig .tc .vmem S1024x1 .f32) (harg4 : arg4.IsWhole) (arg5 : Memref sig .tc .vmem S1024x1 .i32) (harg5 : arg5.IsWhole) (arg6 : Memref sig .tc .vmem S1x4096 .f32) (harg6 : arg6.IsWhole) (arg7 : Memref sig .tc .vmem S1x4096 .i32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : cond0_1 i) (x0 : Vec F S1024x128 .f32) (x1 : Vec F S4096x128 .f32) (x2 : Vec F S1024x1 .f32) (x3 : Vec F S1024x1 .i32) (x4 : Vec F S1x4096 .f32) (x5 : Vec F S1x4096 .i32) (xs0 xs1 : Vec F S1x1 .f32) :
    out0_C_6 c i arg2 harg2 arg3 harg3 arg4 harg4 arg5 harg5 arg6 harg6 arg7 harg7 arg8 harg8 arg9 harg9 arg10 harg10 arg11 harg11 hc0 hc1 x0 x1 x2 x3 x4 x5 xs0 xs1 = k0_pay4 (k0_pay1 (tileT i x0 x1 x2 x3 x4 x5) xs0) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_run_names
  rw [View.canon_unit_zero hz3]
  simp only [View.readCov_unit_zero (S := S1x1) _ hz2, View.readAt_eq_ld, harg2.read_unread, harg3.read_unread, harg4.read_unread, harg5.read_unread, harg6.read_unread, harg7.read_unread, harg10.read_unread, harg11.read_unread, View.ld_unit_zero (S := S1024x128) hz2, View.ld_unit_zero (S := S1024x1) hz2, View.ld_unit_zero (S := S1x1) hz2]
  rfl

theorem oC7 (c : Dev nD) (i : grid0.Coords) (arg2 : Memref sig .tc .vmem S1024x128 .f32) (harg2 : arg2.IsWhole) (arg3 : Memref sig .tc .vmem S4096x128 .f32) (harg3 : arg3.IsWhole) (arg4 : Memref sig .tc .vmem S1024x1 .f32) (harg4 : arg4.IsWhole) (arg5 : Memref sig .tc .vmem S1024x1 .i32) (harg5 : arg5.IsWhole) (arg6 : Memref sig .tc .vmem S1x4096 .f32) (harg6 : arg6.IsWhole) (arg7 : Memref sig .tc .vmem S1x4096 .i32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : cond0_1 i) (x0 : Vec F S1024x128 .f32) (x1 : Vec F S4096x128 .f32) (x2 : Vec F S1024x1 .f32) (x3 : Vec F S1024x1 .i32) (x4 : Vec F S1x4096 .f32) (x5 : Vec F S1x4096 .i32) (xs0 xs1 : Vec F S1x1 .f32) :
    out0_C_7 c i arg2 harg2 arg3 harg3 arg4 harg4 arg5 harg5 arg6 harg6 arg7 harg7 arg8 harg8 arg9 harg9 arg10 harg10 arg11 harg11 hc0 hc1 x0 x1 x2 x3 x4 x5 xs0 xs1 = k0_pay5 (k0_pay2 (tileC i x0 x1 x2 x3 x4 x5) xs1) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_run_names
  rw [View.canon_unit_zero hz3]
  simp only [View.readCov_unit_zero (S := S1x1) _ hz2, View.readAt_eq_ld, harg2.read_unread, harg3.read_unread, harg4.read_unread, harg5.read_unread, harg6.read_unread, harg7.read_unread, harg10.read_unread, harg11.read_unread, View.ld_unit_zero (S := S1024x128) hz2, View.ld_unit_zero (S := S1024x1) hz2, View.ld_unit_zero (S := S1x1) hz2]
  rfl

variable (m : (ℓ : Loc nD τ sig) → Buf (Elt F) ℓ)

/-- The tile's sum of mined violations at grid point `t`: the body's value on the point's input blocks. -/
def ptT (c : Dev nD) (t : Fin cfg0.N) : FVec F S1x1 .f32 := tileT (grid0.coords t) (iblk m c 0 t) (iblk m c 1 t) (iblk m c 2 t) (iblk m c 3 t) (iblk m c 4 t) (iblk m c 5 t)
/-- The tile's per-row numbers of mined triplets at grid point `t`. -/
def ptC (c : Dev nD) (t : Fin cfg0.N) : FVec F S1024 .f32 := tileC (grid0.coords t) (iblk m c 0 t) (iblk m c 1 t) (iblk m c 2 t) (iblk m c 3 t) (iblk m c 4 t) (iblk m c 5 t)

/-- The first accumulator after point `n`: reset at the first column tile of a row tile, then the tiles' sums added
    in point order. -/
def accT (c : Dev nD) : (n : ℕ) → n < cfg0.N → Vec F S1x1 .f32
  | 0, h => k0_pay1 (ptT m c ⟨0, h⟩) (k0_pay6 (F := F))
  | n + 1, h => if (n + 1) % 4 = 0 then k0_pay1 (ptT m c ⟨n + 1, h⟩) (k0_pay6 (F := F))
      else k0_pay1 (ptT m c ⟨n + 1, h⟩) (accT c n (Nat.lt_of_succ_lt h))

/-- The second accumulator after point `n`: the same recursion over the tiles' numbers of mined triplets. -/
def accC (c : Dev nD) : (n : ℕ) → n < cfg0.N → Vec F S1x1 .f32
  | 0, h => k0_pay2 (ptC m c ⟨0, h⟩) (k0_pay7 (F := F))
  | n + 1, h => if (n + 1) % 4 = 0 then k0_pay2 (ptC m c ⟨n + 1, h⟩) (k0_pay7 (F := F))
      else k0_pay2 (ptC m c ⟨n + 1, h⟩) (accC c n (Nat.lt_of_succ_lt h))

theorem accT_succ_reset (c : Dev nD) (n : ℕ) (h : n + 1 < cfg0.N) (h0 : (n + 1) % 4 = 0) :
    accT m c (n + 1) h = k0_pay1 (ptT m c ⟨n + 1, h⟩) (k0_pay6 (F := F)) := by
  rw [accT, if_pos h0]
theorem accT_succ_add (c : Dev nD) (n : ℕ) (h : n + 1 < cfg0.N) (h0 : ¬(n + 1) % 4 = 0) :
    accT m c (n + 1) h = k0_pay1 (ptT m c ⟨n + 1, h⟩) (accT m c n (Nat.lt_of_succ_lt h)) := by
  rw [accT, if_neg h0]
theorem accC_succ_reset (c : Dev nD) (n : ℕ) (h : n + 1 < cfg0.N) (h0 : (n + 1) % 4 = 0) :
    accC m c (n + 1) h = k0_pay2 (ptC m c ⟨n + 1, h⟩) (k0_pay7 (F := F)) := by
  rw [accC, if_pos h0]
theorem accC_succ_add (c : Dev nD) (n : ℕ) (h : n + 1 < cfg0.N) (h0 : ¬(n + 1) % 4 = 0) :
    accC m c (n + 1) h = k0_pay2 (ptC m c ⟨n + 1, h⟩) (accC m c n (Nat.lt_of_succ_lt h)) := by
  rw [accC, if_neg h0]

/-- What the two carried accumulators hold after point `n` is the recursion above: by induction on the point, the
    case of the point decided by its column tile. -/
theorem outsAt_acc (c : Dev nD) : ∀ (n : ℕ) (h : n < cfg0.N),
    (outsAt0 m c n h).2.2.1 = accT m c n h ∧ (outsAt0 m c n h).2.2.2 = accC m c n h
  | 0, h => by
    have e := outsAt0_A m c ⟨0, h⟩ (Nat.zero_mod _) (by show ¬(0 % 4 = 3); decide)
    rw [e]
    dsimp only
    exact ⟨sA0 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) scM0_0 (Memref.isWhole_whole _) scM0_1 (Memref.isWhole_whole _) _ _ (iblk m c 0 ⟨0, h⟩) (iblk m c 1 ⟨0, h⟩) (iblk m c 2 ⟨0, h⟩) (iblk m c 3 ⟨0, h⟩) (iblk m c 4 ⟨0, h⟩) (iblk m c 5 ⟨0, h⟩), sA1 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) scM0_0 (Memref.isWhole_whole _) scM0_1 (Memref.isWhole_whole _) _ _ (iblk m c 0 ⟨0, h⟩) (iblk m c 1 ⟨0, h⟩) (iblk m c 2 ⟨0, h⟩) (iblk m c 3 ⟨0, h⟩) (iblk m c 4 ⟨0, h⟩) (iblk m c 5 ⟨0, h⟩)⟩
  | n + 1, h => by
    obtain ⟨ihT, ihC⟩ := outsAt_acc c n (Nat.lt_of_succ_lt h)
    by_cases h0 : (n + 1) % 4 = 0
    · have h1 : ¬(n + 1) % 4 = 3 := by omega
      have e := outsAt0_A m c ⟨n + 1, h⟩ h0 h1
      rw [e, accT_succ_reset m c n h h0, accC_succ_reset m c n h h0]
      dsimp only
      exact ⟨sA0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩), sA1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩)⟩
    · rw [accT_succ_add m c n h h0, accC_succ_add m c n h h0, ← ihT, ← ihC]
      by_cases h1 : (n + 1) % 4 = 3
      · have e := outsAt0_C m c ⟨n + 1, h⟩ h0 h1
        rw [e]
        dsimp only
        exact ⟨sC0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) _ _, sC1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) _ _⟩
      · have e := outsAt0_B m c ⟨n + 1, h⟩ h0 h1
        rw [e]
        dsimp only
        exact ⟨sB0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) _ _, sB1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) _ _⟩

/-- At the last column tile of a row tile the two outputs' blocks are the accumulators spread on lane 0. -/
theorem outsAt_out (c : Dev nD) (t : Fin cfg0.N) (h3 : t.val % 4 = 3) :
    (outsAt0 m c t.val t.isLt).1 = k0_pay4 (accT m c t.val t.isLt)
      ∧ (outsAt0 m c t.val t.isLt).2.1 = k0_pay5 (accC m c t.val t.isLt) := by
  have h0 : ¬t.val % 4 = 0 := by omega
  obtain ⟨eT, eC⟩ := outsAt_acc m c t.val t.isLt
  have e := outsAt0_C m c t h0 h3
  rw [e] at eT eC
  dsimp only at eT eC
  rw [sC0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) _ _ (iblk m c 0 t) (iblk m c 1 t) (iblk m c 2 t) (iblk m c 3 t) (iblk m c 4 t) (iblk m c 5 t) _ _] at eT
  rw [sC1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) _ _ (iblk m c 0 t) (iblk m c 1 t) (iblk m c 2 t) (iblk m c 3 t) (iblk m c 4 t) (iblk m c 5 t) _ _] at eC
  rw [e, ← eT, ← eC]
  dsimp only
  exact ⟨oC6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) _ _ (iblk m c 0 t) (iblk m c 1 t) (iblk m c 2 t) (iblk m c 3 t) (iblk m c 4 t) (iblk m c 5 t) _ _, oC7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) _ _ (iblk m c 0 t) (iblk m c 1 t) (iblk m c 2 t) (iblk m c 3 t) (iblk m c 4 t) (iblk m c 5 t) _ _⟩

end Cert.KernelIdeal.AccValue

end
-- ==== Proof.LibRows.lean ====
/-
  Layout operations, a one-axis reduction and a plain matrix product READ AT AN INDEX GIVEN BY COORDINATES, in the forms
  the body of a row-blocked kernel meets: a column `[a, 1]` broadcast over the lanes, a vector `[a]` viewed as a column
  `[a, 1]`, the index a reduction over the lane axis inserts, the lane sum and the lane maximum of a row, and the
  product of an `[M, K]` by a `[K, N]` matrix into the zero accumulator. Then the three row-wise bodies built from them:
  the scaled product, the scaled and shifted block, and the row-wise log-softmax of it. Everything is stated over generic
  extents with indices written `ix1` / `ix2`; no program is imported.
-/
import Idealize.ShloMosaic.PureOps.Ideal.Laws
import Idealize.ShloMosaic.Lib.ValueIdx
import Idealize.ShloMosaic.Lib.ValueLayout

open scoped BigOperators

namespace Cert.Proof.LibRows

open Idealize.ShloMosaic Idealize.ShloMosaic.ValueIdx

section Layout
variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The source index a reduction of `[a, b]` over its lane axis inserts over row `r` at lane `k` is `(r, k)`. -/
theorem lift_lane {a b : ℕ} (h : (⟨2, ![a, b]⟩ : Shape).Reduces [1] ⟨1, ![a]⟩) (r : Fin a) (k : Fin b) :
    h.lift (ix1 r) k = ix2 r k :=
  funext fun c => Fin.ext (match c with | ⟨0, _⟩ => rfl | ⟨1, _⟩ => rfl)

end Layout

/-! ## A reduction over the lane axis, read at a row -/

section Reduce

/-- The lane sum of an `[a, b]` block at row `r` is the sum over the lanes of the row's entries. -/
theorem multiReduction_add_lane {a b : ℕ} (src : FVec Ideal ⟨2, ![a, b]⟩ .f32) (acc : BitVec FTy.f32.bits)
    (h : (⟨2, ![a, b]⟩ : Shape).Reduces [1] ⟨1, ![a]⟩) (hφ : FKind.Formats .f32) (hacc : acc = FKind.add.neutral .f32 hφ)
    (r : Fin a) :
    multiReduction (F := Ideal) .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_lane h r k))

/-- The lane maximum of an `[a, b]` block at row `r` is the fold of `max`, from the accumulator's value, over the lanes
    of the row's entries. -/
theorem multiReduction_maximumf_lane {a b : ℕ} (src : FVec Ideal ⟨2, ![a, b]⟩ .f32) (acc : BitVec FTy.f32.bits)
    (h : (⟨2, ![a, b]⟩ : Shape).Reduces [1] ⟨1, ![a]⟩) (hφ : FKind.Formats .f32)
    (hacc : acc = FKind.maximumf.neutral .f32 hφ) (r : Fin a) :
    multiReduction (F := Ideal) .maximumf [1] ⟨1, ![a]⟩ src acc h hφ hacc (ix1 r)
      = (Finset.univ : Finset (Fin b)).fold max (Ideal.ofBits .f32 acc) (fun k => src (ix2 r k)) :=
  (Ideal.multiReduction_maximumf_single src acc h hφ hacc (ix1 r)).trans
    (congrArg (fun f : Fin b → EReal => (Finset.univ : Finset (Fin b)).fold max (Ideal.ofBits .f32 acc) f)
      (funext fun k => congrArg src (lift_lane h r k)))

end Reduce

/-! ## The plain matrix product, read at `(r, q)` -/

section Product
variable {M K N : ℕ}

/-- On the left operand's row axis the operand index is the output's row … -/
theorem plain_lhs_0 (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … on its contracted axis the contraction index's one coordinate … -/
theorem plain_lhs_1 (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k
/-- … and on the right operand's contracted axis the same coordinate … -/
theorem plain_rhs_0 (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k
/-- … on its column axis the output's column. -/
theorem plain_rhs_1 (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The product of an `[M, K]` by a `[K, N]` matrix into the zero accumulator, read at `(r, q)`: the sum over `k` of the
    left operand's row `r` times the right operand's column `q`, exactly (no rounding at the ideal values). -/
theorem matmul_plain_zero_apply (prec : Option ContractPrecision) (x : FVec Ideal ⟨2, ![M, K]⟩ .f32)
    (W : FVec Ideal ⟨2, ![K, N]⟩ .f32) (r : Fin M) (q : Fin N) :
    FloatOps.matmul (DotDims.plain M K N) prec x W (constant (F := Ideal) ⟨2, ![M, N]⟩ .f32 0x00000000#32) (ix2 r q)
      = ∑ k : Fin K, x (ix2 r k) * W (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r q) ((contrEquiv1 (DotDims.plain M K N) K rfl rfl).symm k) = ix2 r k :=
    funext fun a => Fin.ext (by
      match a with
      | ⟨0, _⟩ => exact plain_lhs_0 _ _
      | ⟨1, _⟩ => exact (plain_lhs_1 _ _).trans hk)
  have er : (DotDims.plain M K N).rhsIdx (ix2 r q) ((contrEquiv1 (DotDims.plain M K N) K rfl rfl).symm k) = ix2 k q :=
    funext fun a => Fin.ext (by
      match a with
      | ⟨0, _⟩ => exact (plain_rhs_0 _ _).trans hk
      | ⟨1, _⟩ => exact plain_rhs_1 _ _)
  rw [el, er]

end Product

/-! ## The exponential and the logarithm of a vector, read at an index (definitional at the ideal values) -/

section Pointwise
variable {s : Shape} {φ : FTy}

/-- An exponential at an index is the exponential of the element. -/
theorem exp_apply (x : FVec Ideal s φ) (i : s.Idx) : exp x i = Ideal.exp (x i) := rfl
/-- A logarithm at an index is the logarithm of the element. -/
theorem log_apply (x : FVec Ideal s φ) (i : s.Idx) : log x i = Ideal.log (x i) := rfl

end Pointwise

/-! ## Three row-wise bodies, read at `(r, q)` -/

section Bodies

/-- THE SCALED PRODUCT: an `[M, K]` block times a `[K, N]` matrix into the zero accumulator, each row then scaled by its
    entry of an `[M, 1]` column broadcast over the lanes. At `(r, q)` it is the row sum times the column's entry of row `r`:
    a function of row `r` of the block and of the column only. -/
theorem scaledProduct_apply {M K N : ℕ} (prec : Option ContractPrecision) (x : FVec Ideal ⟨2, ![M, K]⟩ .f32)
    (W : FVec Ideal ⟨2, ![K, N]⟩ .f32) (s : FVec Ideal ⟨2, ![M, 1]⟩ .f32)
    (hc : (⟨2, ![M, 1]⟩ : Shape).ShapeCasts ⟨2, ![M, 1]⟩) (hb : (⟨2, ![M, 1]⟩ : Shape).Broadcasts ⟨2, ![M, N]⟩)
    (r : Fin M) (q : Fin N) :
    mulf (matmul (DotDims.plain M K N) prec x W (constant (F := Ideal) ⟨2, ![M, N]⟩ .f32 0x00000000#32))
        (broadcastTo ⟨2, ![M, N]⟩ (shapeCast ⟨2, ![M, 1]⟩ s hc) hb) (ix2 r q)
      = (∑ k : Fin K, x (ix2 r k) * W (ix2 k q)) * s (ix2 r (0 : Fin 1)) := by
  rw [mulf_apply, broadcastTo_a1_ab_apply, shapeCast_self]
  exact congrArg (· * s (ix2 r (0 : Fin 1))) (matmul_plain_zero_apply prec x W r q)

/-- THE SCALED AND SHIFTED BLOCK: an `[a, b]` block, each row scaled by its entry of an `[a, 1]` column and shifted by a
    `[1, b]` row, both broadcast. At `(r, q)` it is `v (r, q) * s (r, 0) + β (0, q)`. -/
theorem scaleShift_apply {a b : ℕ} (v : FVec Ideal ⟨2, ![a, b]⟩ .f32) (s : FVec Ideal ⟨2, ![a, 1]⟩ .f32)
    (β : FVec Ideal ⟨2, ![1, b]⟩ .f32)
    (h0 : (⟨2, ![a, b]⟩ : Shape).ShapeCasts ⟨2, ![a, b]⟩) (h1 : (⟨2, ![a, 1]⟩ : Shape).ShapeCasts ⟨2, ![a, 1]⟩)
    (h2 : (⟨2, ![a, 1]⟩ : Shape).Broadcasts ⟨2, ![a, b]⟩) (h3 : (⟨2, ![1, b]⟩ : Shape).ShapeCasts ⟨2, ![1, b]⟩)
    (h4 : (⟨2, ![1, b]⟩ : Shape).Broadcasts ⟨2, ![a, b]⟩) (r : Fin a) (q : Fin b) :
    addf (mulf (shapeCast ⟨2, ![a, b]⟩ v h0) (broadcastTo ⟨2, ![a, b]⟩ (shapeCast ⟨2, ![a, 1]⟩ s h1) h2))
        (broadcastTo ⟨2, ![a, b]⟩ (shapeCast ⟨2, ![1, b]⟩ β h3) h4) (ix2 r q)
      = v (ix2 r q) * s (ix2 r (0 : Fin 1)) + β (ix2 (0 : Fin 1) q) := by
  rw [addf_apply, mulf_apply, broadcastTo_a1_ab_apply, broadcastTo_1b_ab_apply, shapeCast_self, shapeCast_self,
    shapeCast_self]

/-- THE ROW-WISE LOG-SOFTMAX of an `[a, b]` block `v`: with `m` the lane maximum of a row (kept as a column and
    broadcast back) and `z = v - m`, the body is `z - log (lane sum of exp z)`. Whatever row `r` of `v` is known to be
    (`hv`), at `(r, q)` it is `(f q - m) - log (∑ j, exp (f j - m))` with `m` the fold of `max` over `f` from the
    accumulator's value: a function of row `r` only. -/
theorem logSoftmax_apply {a b : ℕ} (v : FVec Ideal ⟨2, ![a, b]⟩ .f32)
    (hr : (⟨2, ![a, b]⟩ : Shape).Reduces [1] ⟨1, ![a]⟩) (hφ hφ' : FKind.Formats .f32)
    (hm : (0xFF800000#32 : BitVec FTy.f32.bits) = FKind.maximumf.neutral .f32 hφ)
    (hs : (0x00000000#32 : BitVec FTy.f32.bits) = FKind.add.neutral .f32 hφ')
    (hc : (⟨1, ![a]⟩ : Shape).ShapeCasts ⟨2, ![a, 1]⟩) (hb : (⟨2, ![a, 1]⟩ : Shape).Broadcasts ⟨2, ![a, b]⟩)
    (r : Fin a) (q : Fin b) (f : Fin b → EReal) (hv : ∀ k, v (ix2 r k) = f k) :
    subf (subf v (broadcastTo ⟨2, ![a, b]⟩
            (shapeCast ⟨2, ![a, 1]⟩ (multiReduction (F := Ideal) .maximumf [1] ⟨1, ![a]⟩ v 0xFF800000#32 hr hφ hm) hc) hb))
        (broadcastTo ⟨2, ![a, b]⟩
          (log (shapeCast ⟨2, ![a, 1]⟩
            (multiReduction (F := Ideal) .add [1] ⟨1, ![a]⟩
              (exp (subf v (broadcastTo ⟨2, ![a, b]⟩
                (shapeCast ⟨2, ![a, 1]⟩ (multiReduction (F := Ideal) .maximumf [1] ⟨1, ![a]⟩ v 0xFF800000#32 hr hφ hm) hc) hb)))
              0x00000000#32 hr hφ' hs) hc)) hb) (ix2 r q)
      = (f q - (Finset.univ : Finset (Fin b)).fold max (Ideal.ofBits .f32 0xFF800000#32) f)
          - Ideal.log (∑ j : Fin b,
              Ideal.exp (f j - (Finset.univ : Finset (Fin b)).fold max (Ideal.ofBits .f32 0xFF800000#32) f)) := by
  -- the centred block at any entry of row `r`
  have hz : ∀ k : Fin b, subf v (broadcastTo ⟨2, ![a, b]⟩
      (shapeCast ⟨2, ![a, 1]⟩ (multiReduction (F := Ideal) .maximumf [1] ⟨1, ![a]⟩ v 0xFF800000#32 hr hφ hm) hc) hb) (ix2 r k)
      = f k - (Finset.univ : Finset (Fin b)).fold max (Ideal.ofBits .f32 0xFF800000#32) f := fun k => by
    rw [subf_apply, broadcastTo_a1_ab_apply, shapeCast_a_a1_apply, multiReduction_maximumf_lane, hv k]
    exact congrArg (fun g : Fin b → EReal => f k - (Finset.univ : Finset (Fin b)).fold max (Ideal.ofBits .f32 0xFF800000#32) g)
      (funext hv)
  rw [subf_apply, hz q, broadcastTo_a1_ab_apply, log_apply, shapeCast_a_a1_apply, multiReduction_add_lane]
  exact congrArg (fun t : EReal => _ - Ideal.log t) (Finset.sum_congr rfl fun j _ => by rw [exp_apply, hz j])

end Bodies

end Cert.Proof.LibRows
-- ==== Proof.KPoint.lean ====
/-
  The arithmetic of one grid point of the kernel, read at an index at the ideal values, over abstract blocks.

  At a grid point the body holds a block `v13` of 1024 embedding rows, the 1024 center rows `v6` of the column tile, the
  column `v14` of one real per row, the row `v8` of one real per center, the row `v11` of the centers' numbers and the
  column `v16` of the rows' labels. The loss tile at `(p, q)` is `(v14 p - v8 q) + 2 * ∑ k, v13 (p, k) * v6 (q, k)`; the
  mask is one where the loss is positive and the center's number differs from the row's label, zero elsewhere; the sums of
  loss times mask and of the mask over the tile are added to two one-element accumulators; and at the last column tile an
  accumulator is written to lane zero of a row of 128 lanes, zeros elsewhere.
-/
import proofs.«427538_j82927228551475_3_alg».proof.Proof.Gen.KernelIdeal.Skeleton
import proofs.«427538_j82927228551475_3_alg».proof.Proof.LibRows
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.PointValue

open Cert.KernelIdeal Cert.KernelIdeal.Gen Idealize.ShloMosaic Idealize.ShloMosaic.ValueIdx Cert.Proof.LibRows

/-! ## The product of the row block with the transposed center block, read at `(p, q)` -/

/-- On the left operand's row axis the operand index is the output's row … -/
theorem dot_lhs_0 (j : S1024x1024.Idx) (k : dot_S1024x128_S1024x128_S1024x1024_1_1_0_0_n_n.contr.Idx) :
    (dot_S1024x128_S1024x128_S1024x1024_1_1_0_0_n_n.lhsIdx j k 0).val = (j 0).val := by
  unfold DotDims.lhsIdx
  rw [dif_neg (show ¬(0 : Fin S1024x128.rank) ∈ dot_S1024x128_S1024x128_S1024x1024_1_1_0_0_n_n.lhsBatch by decide),
    dif_pos (show (0 : Fin S1024x128.rank) ∈ dot_S1024x128_S1024x128_S1024x1024_1_1_0_0_n_n.lhsNonContracting by decide)]
  rfl
/-- … on its contracted axis the contraction index's one coordinate … -/
theorem dot_lhs_1 (j : S1024x1024.Idx) (k : dot_S1024x128_S1024x128_S1024x1024_1_1_0_0_n_n.contr.Idx) :
    (dot_S1024x128_S1024x128_S1024x1024_1_1_0_0_n_n.lhsIdx j k 1).val = (k ⟨0, by decide⟩).val :=
  dot_S1024x128_S1024x128_S1024x1024_1_1_0_0_n_n.lhsIdx_val_of_single rfl j k
/-- … on the right operand's row axis the output's column … -/
theorem dot_rhs_0 (j : S1024x1024.Idx) (k : dot_S1024x128_S1024x128_S1024x1024_1_1_0_0_n_n.contr.Idx) :
    (dot_S1024x128_S1024x128_S1024x1024_1_1_0_0_n_n.rhsIdx j k 0).val = (j 1).val := by
  unfold DotDims.rhsIdx
  rw [dif_neg (show ¬(0 : Fin S1024x128.rank) ∈ dot_S1024x128_S1024x128_S1024x1024_1_1_0_0_n_n.rhsBatch by decide),
    dif_pos (show (0 : Fin S1024x128.rank) ∈ dot_S1024x128_S1024x128_S1024x1024_1_1_0_0_n_n.rhsNonContracting by decide)]
  rfl
/-- … and on its contracted axis the same coordinate of the contraction index. -/
theorem dot_rhs_1 (j : S1024x1024.Idx) (k : dot_S1024x128_S1024x128_S1024x1024_1_1_0_0_n_n.contr.Idx) :
    (dot_S1024x128_S1024x128_S1024x1024_1_1_0_0_n_n.rhsIdx j k 1).val = (k ⟨0, by decide⟩).val :=
  dot_S1024x128_S1024x128_S1024x1024_1_1_0_0_n_n.rhsIdx_val_of_single rfl j k

/-- The product into the zero accumulator at `(p, q)`: row `p` of the left block against row `q` of the right block. -/
theorem matmul_nt_apply (prec : Option ContractPrecision) (x : FVec Ideal S1024x128 .f32) (c : FVec Ideal S1024x128 .f32)
    (p q : Fin 1024) :
    FloatOps.matmul dot_S1024x128_S1024x128_S1024x1024_1_1_0_0_n_n prec x c
        (constant (F := Ideal) S1024x1024 .f32 0x00000000#32) (ix2 p q)
      = ∑ k : Fin 128, x (ix2 p k) * c (ix2 q k) := by
  rw [Ideal.matmul_constant_zero_apply,
    ← Equiv.sum_comp (contrEquiv1 dot_S1024x128_S1024x128_S1024x1024_1_1_0_0_n_n 128 rfl rfl).symm]
  refine Finset.sum_congr rfl fun k _ => ?_
  have hk := contrEquiv1_symm_val dot_S1024x128_S1024x128_S1024x1024_1_1_0_0_n_n 128 rfl rfl k
  have el : dot_S1024x128_S1024x128_S1024x1024_1_1_0_0_n_n.lhsIdx (ix2 p q)
      ((contrEquiv1 dot_S1024x128_S1024x128_S1024x1024_1_1_0_0_n_n 128 rfl rfl).symm k) = ix2 p k :=
    funext fun a => Fin.ext (by
      match a with
      | ⟨0, _⟩ => exact dot_lhs_0 _ _
      | ⟨1, _⟩ => exact (dot_lhs_1 _ _).trans hk)
  have er : dot_S1024x128_S1024x128_S1024x1024_1_1_0_0_n_n.rhsIdx (ix2 p q)
      ((contrEquiv1 dot_S1024x128_S1024x128_S1024x1024_1_1_0_0_n_n 128 rfl rfl).symm k) = ix2 q k :=
    funext fun a => Fin.ext (by
      match a with
      | ⟨0, _⟩ => exact dot_rhs_0 _ _
      | ⟨1, _⟩ => exact (dot_rhs_1 _ _).trans hk)
  rw [el, er]

/-! ## The loss tile and the mask -/

variable (v6 : Vec Ideal S1024x128 .f32) (v8 : Vec Ideal S1x1024 .f32) (v11 : Vec Ideal S1x1024 .i32)
  (v13 : Vec Ideal S1024x128 .f32) (v14 : Vec Ideal S1024x1 .f32) (v16 : Vec Ideal S1024x1 .i32)

/-- The loss tile at `(p, q)`: the row's real minus the center's real, plus twice the inner product of row and center. -/
def tLoss (p q : Fin 1024) : EReal :=
  (v14 (ix2 p (0 : Fin 1)) - v8 (ix2 (0 : Fin 1) q))
    + Ideal.ofBits .f32 0x40000000#32 * ∑ k : Fin 128, v13 (ix2 p k) * v6 (ix2 q k)

/-- The pair `(p, q)` is counted: its loss is positive and the center's number is not the row's label. -/
def tHit (p q : Fin 1024) : Prop :=
  0 < tLoss v6 v8 v13 v14 p q ∧ v11 (ix2 (0 : Fin 1) q) ≠ v16 (ix2 p (0 : Fin 1))

instance (p q : Fin 1024) : Decidable (tHit v6 v8 v11 v13 v14 v16 p q) := Classical.propDecidable _

/-- The loss tile of the body at `(p, q)`. -/
theorem pay8_apply (p q : Fin 1024) : k0_pay8 (F := Ideal) v6 v8 v13 v14 (ix2 p q) = tLoss v6 v8 v13 v14 p q := by
  unfold k0_pay8 tLoss
  rw [addf_apply, subf_apply, mulf_apply, broadcast_apply, broadcastTo_a1_ab_apply, broadcastTo_1b_ab_apply,
    shapeCast_self, shapeCast_self]
  exact congrArg (fun t : EReal => (v14 (ix2 p (0 : Fin 1)) - v8 (ix2 (0 : Fin 1) q)) + Ideal.ofBits .f32 0x40000000#32 * t)
    (matmul_nt_apply (some .fp32) v13 v6 p q)

/-! ### The mask word -/

/-- A vector conjunction at an index is the conjunction of the elements. -/
theorem andi_apply {s : Shape} {w : ℕ} (x y : IVec s w) (i : s.Idx) : andi x y i = IntOp.andi (x i) (y i) := rfl
/-- A vector integer comparison at an index compares the elements. -/
theorem cmpi_apply {s : Shape} {w : ℕ} (c : CmpIPredicate) (x y : IVec s w) (i : s.Idx) :
    cmpi c x y i = IntOp.cmpi c (x i) (y i) := rfl

/-- The one-bit word `1`, widened to 32 bits and read as a signed integer, is the real `1` … -/
theorem sitofp_bit_one : FloatOps.sitofp (F := Ideal) .f32 ((1#1 : BitVec 1).setWidth 32) = (1 : EReal) := by
  show (((((1#1 : BitVec 1).setWidth 32).toInt : ℤ) : ℝ) : EReal) = 1
  have h : ((1#1 : BitVec 1).setWidth 32).toInt = 1 := by decide
  rw [h]; norm_num
/-- … and the word `0` is the real `0`. -/
theorem sitofp_bit_zero : FloatOps.sitofp (F := Ideal) .f32 ((0#1 : BitVec 1).setWidth 32) = (0 : EReal) := by
  show (((((0#1 : BitVec 1).setWidth 32).toInt : ℤ) : ℝ) : EReal) = 0
  have h : ((0#1 : BitVec 1).setWidth 32).toInt = 0 := by decide
  rw [h]; norm_num

/-- The conjunction of "`a` is above zero" and "`x` is not `y`", widened and converted, is one where both hold and zero
    elsewhere. -/
theorem mask_word (a : Ideal .f32) (x y : BitVec 32) :
    FloatOps.sitofp (F := Ideal) .f32
        ((IntOp.andi (FloatOps.cmpf .ogt a (Scalar.ofBits .f32 0x00000000#32)) (IntOp.cmpi .ne x y)).setWidth 32)
      = if 0 < a ∧ x ≠ y then (1 : EReal) else 0 := by
  have h0 : (Scalar.ofBits (F := Ideal) .f32 0x00000000#32 : Ideal .f32) = 0 := Ideal.ofBits_zero_f32
  rw [Ideal.cmpf_def, h0]
  unfold Ideal.cmp IntOp.cmpi IntOp.andi
  by_cases h1 : 0 < a
  · by_cases h2 : x = y
    · rw [if_neg (fun h => h.2 h2)]
      simp only [h1, h2, decide_true, bne_self_eq_false, BitVec.ofBool_true, BitVec.ofBool_false]
      exact sitofp_bit_zero
    · rw [if_pos ⟨h1, h2⟩]
      have hb : (x != y) = true := by simpa using h2
      simp only [h1, hb, decide_true, BitVec.ofBool_true]
      exact sitofp_bit_one
  · rw [if_neg (fun h => h1 h.1)]
    simp only [h1, decide_false, BitVec.ofBool_false]
    have hz : (0 : BitVec 1) &&& BitVec.ofBool (x != y) = 0#1 := BitVec.zero_and
    rw [hz]
    exact sitofp_bit_zero

/-- The mask of the body at `(p, q)`. -/
theorem pay9_apply (p q : Fin 1024) :
    k0_pay9 (F := Ideal) v6 v8 v11 v13 v14 v16 (ix2 p q) = if tHit v6 v8 v11 v13 v14 v16 p q then (1 : EReal) else 0 := by
  unfold k0_pay9
  rw [sitofp_apply, extui_apply, andi_apply, cmpf_apply, cmpi_apply, broadcast_apply, pay8_apply,
    broadcastTo_1b_ab_apply, broadcastTo_a1_ab_apply, shapeCast_self, shapeCast_self]
  exact (mask_word _ _ _).trans (if_congr Iff.rfl rfl rfl)

/-- The loss times the mask is the loss where the pair is counted, zero elsewhere. -/
theorem mul_mask (x : EReal) (h : Prop) [Decidable h] : x * (if h then (1 : EReal) else 0) = if h then x else 0 := by
  split <;> simp

/-! ## The sum over a tile -/

/-- The source index a reduction of the column `[a, 1]` over its row axis inserts at row `k` is `(k, u)`. -/
theorem lift_row {a : ℕ} (h : (⟨2, ![a, 1]⟩ : Shape).Reduces [0] ⟨1, ![1]⟩) (u : Fin 1) (k : Fin a) :
    h.lift (ix1 u) k = ix2 k u :=
  funext fun c => Fin.ext (match c with | ⟨0, _⟩ => rfl | ⟨1, _⟩ => rfl)

/-- A vector `[a]` viewed as a column, summed over the rows into one element and viewed as `[1, 1]`: the sum of the vector. -/
theorem colSum_apply {a : ℕ} (x : FVec Ideal ⟨1, ![a]⟩ .f32) (hc : (⟨1, ![a]⟩ : Shape).ShapeCasts ⟨2, ![a, 1]⟩)
    (hr : (⟨2, ![a, 1]⟩ : Shape).Reduces [0] ⟨1, ![1]⟩) (hφ : FKind.Formats .f32) (acc : BitVec FTy.f32.bits)
    (hacc : acc = FKind.add.neutral .f32 hφ) (hc' : (⟨1, ![1]⟩ : Shape).ShapeCasts ⟨2, ![1, 1]⟩)
    (y : (⟨2, ![1, 1]⟩ : Shape).Idx) :
    shapeCast ⟨2, ![1, 1]⟩ (multiReduction (F := Ideal) .add [0] ⟨1, ![1]⟩ (shapeCast ⟨2, ![a, 1]⟩ x hc) acc hr hφ hacc) hc' y
      = ∑ k : Fin a, x (ix1 k) := by
  obtain ⟨u, u', rfl⟩ : ∃ u u', y = ix2 u u' := ⟨y 0, y 1, eq_ix2 y⟩
  rw [shapeCast_a_a1_apply]
  refine (Ideal.multiReduction_add_single _ acc hr hφ hacc (ix1 u)).trans ?_
  show ∑ k : Fin a, shapeCast ⟨2, ![a, 1]⟩ x hc (hr.lift (ix1 u) k) = ∑ k : Fin a, x (ix1 k)
  refine Finset.sum_congr rfl fun k _ => ?_
  rw [lift_row, shapeCast_a_a1_apply]

/-- What a grid point adds to the sum of the losses: the sum over the tile of the loss where the pair is counted. -/
theorem pay10_apply (y : S1x1.Idx) :
    k0_pay10 (F := Ideal) v6 v8 v11 v13 v14 v16 y
      = ∑ p : Fin 1024, ∑ q : Fin 1024, (if tHit v6 v8 v11 v13 v14 v16 p q then tLoss v6 v8 v13 v14 p q else 0) := by
  unfold k0_pay10
  refine (colSum_apply _ _ _ _ _ _ _ y).trans (Finset.sum_congr rfl fun p _ => ?_)
  refine (multiReduction_add_lane _ _ _ _ _ p).trans (Finset.sum_congr rfl fun q _ => ?_)
  rw [mulf_apply, pay8_apply, pay9_apply, mul_mask]

/-- What a grid point adds to the number of counted pairs, on top of the accumulator `v47`. -/
theorem pay2_apply (v47 : Vec Ideal S1x1 .f32) (y : S1x1.Idx) :
    k0_pay2 (F := Ideal) (k0_pay11 (F := Ideal) v6 v8 v11 v13 v14 v16) v47 y
      = v47 y + ∑ p : Fin 1024, ∑ q : Fin 1024, (if tHit v6 v8 v11 v13 v14 v16 p q then (1 : EReal) else 0) := by
  unfold k0_pay2
  rw [shapeCast_self, addf_apply]
  refine congrArg (v47 y + ·) ?_
  refine (colSum_apply _ _ _ _ _ _ _ y).trans (Finset.sum_congr rfl fun p _ => ?_)
  unfold k0_pay11
  refine (multiReduction_add_lane _ _ _ _ _ p).trans (Finset.sum_congr rfl fun q _ => ?_)
  rw [pay9_apply]

/-! ## The accumulators -/

/-- The sum accumulator after a grid point: what it held plus what the point adds. -/
theorem pay1_apply (v37 : FVec Ideal S1x1 .f32) (v42 : Vec Ideal S1x1 .f32) (y : S1x1.Idx) :
    k0_pay1 (F := Ideal) v37 v42 y = v42 y + v37 y := by
  unfold k0_pay1
  rw [shapeCast_self, addf_apply]

/-- At the first column tile the sum accumulator is set to zero … -/
theorem pay6_apply (y : S1x1.Idx) : k0_pay6 (F := Ideal) y = 0 := by
  unfold k0_pay6
  rw [shapeCast_self, broadcast_apply]
  exact Ideal.ofBits_zero_f32
/-- … and so is the count accumulator. -/
theorem pay7_apply (y : S1x1.Idx) : k0_pay7 (F := Ideal) y = 0 := by
  unfold k0_pay7
  rw [shapeCast_self, broadcast_apply]
  exact Ideal.ofBits_zero_f32

/-! ## The row written at the last column tile -/

/-- The lane test of the written row: lane `l` is lane zero. -/
theorem pay3_apply (I0 J0 : Fin 1) (l : Fin 128) :
    k0_pay3 (ix3 I0 J0 l) = if l.val = 0 then 1#1 else 0#1 := by
  unfold k0_pay3
  rw [cmpi_apply, iota_single_apply, broadcast_apply]
  show IntOp.cmpi .eq (BitVec.ofNat 32 l.val) 0#32 = _
  unfold IntOp.cmpi
  have hl := l.isLt
  by_cases h : l.val = 0
  · rw [if_pos h, h]; rfl
  · rw [if_neg h]
    have hne : (BitVec.ofNat 32 l.val == 0#32) = false := by
      rw [beq_eq_false_iff_ne]
      intro he
      have := congrArg BitVec.toNat he
      simp only [BitVec.toNat_ofNat] at this
      omega
    simp only [hne, BitVec.ofBool_false]
    rfl

/-- A one-element block `[1, 1]` spread over the 128 lanes of a row `[1, 1, 128]` reads its one element everywhere. -/
theorem spread_apply (v : Vec Ideal S1x1 .f32) (I0 J0 : Fin 1) (l : Fin 128) :
    broadcastTo S1x1x128 (shapeCast S1x1x1 (shapeCast S1x1x1 v shapeCasts_S1x1_S1x1x1) shapeCasts_S1x1x1_S1x1x1)
        broadcasts_S1x1x1_S1x1x128 (ix3 I0 J0 l) = v (ix2 (0 : Fin 1) (0 : Fin 1)) := by
  rw [shapeCast_self]
  refine (broadcastTo_apply _ _ (ix3 I0 J0 l) (ix3 (0 : Fin 1) (0 : Fin 1) (0 : Fin 1)) fun ax => ?_).trans ?_
  · match ax with
    | ⟨0, _⟩ => rfl
    | ⟨1, _⟩ => rfl
    | ⟨2, _⟩ => rfl
  · exact shapeCast_ab_1ab_apply v _ (0 : Fin 1) (0 : Fin 1) (0 : Fin 1)

/-- The row written for the sum: the accumulator at lane zero, zeros elsewhere. -/
theorem pay4_apply (v58 : Vec Ideal S1x1 .f32) (I0 J0 : Fin 1) (l : Fin 128) :
    k0_pay4 (F := Ideal) v58 (ix3 I0 J0 l) = if l.val = 0 then v58 (ix2 (0 : Fin 1) (0 : Fin 1)) else 0 := by
  unfold k0_pay4
  rw [select_apply, pay3_apply, spread_apply, broadcast_apply]
  by_cases h : l.val = 0
  · rw [if_pos h, if_pos h, select_one]
  · rw [if_neg h, if_neg h, select_zero]
    exact Ideal.ofBits_zero_f32

/-- The row written for the count: the accumulator at lane zero, zeros elsewhere. -/
theorem pay5_apply (v62 : Vec Ideal S1x1 .f32) (I0 J0 : Fin 1) (l : Fin 128) :
    k0_pay5 (F := Ideal) v62 (ix3 I0 J0 l) = if l.val = 0 then v62 (ix2 (0 : Fin 1) (0 : Fin 1)) else 0 := by
  unfold k0_pay5
  rw [select_apply, pay3_apply, spread_apply, broadcast_apply]
  by_cases h : l.val = 0
  · rw [if_pos h, if_pos h, select_one]
  · rw [if_neg h, if_neg h, select_zero]
    exact Ideal.ofBits_zero_f32

end Cert.KernelIdeal.PointValue

end
-- ==== Proof.LibGatherScatter.lean ====
/-
  The three index operations of one graph-convolution layer, READ AT AN INDEX, over generic extents: `N` rows (nodes),
  `E` start indices (edges), rows of width `D`.

  * the row gather `[N, D] → [E, D]` at a column `[E, 1]` of start indices (`gathD`): result `(e, q)` is the
    operand at `(row (idx (e, 0)), q)`;
  * the entry gather `[N] → [E]` at the same column (`gath1`): result `e` is the operand at `row (idx (e, 0))`;
    `row` is ONE function of the index word for both: the word read signed and clamped into `[0, N − 1]`;
  * the accumulating scatter `[E, D] → [N, D]` (`scatD`) and `[E] → [N]` (`scat1`) at a column of scatter indices:
    update `(e, q')` lands on `(i, q)` exactly when `q' = q` and the index word of `e`, read signed and NOT clamped,
    is `i`; hence at the ideal instance the scatter's value at `(i, q)` is the operand's plus the sum, over the edges
    `e` whose word is `i`, of the updates `(e, q)`.

  The dimension-number records are written out here with their well-formedness as an argument, so that a program's own
  record of the same fields is one of these by unfolding.
-/
import Idealize.ShloMosaic.PureOps.Ideal
import Idealize.ShloMosaic.Lib.ValueIdx

open scoped BigOperators

namespace Cert.Proof.GS

open Idealize.ShloMosaic Idealize.ShloMosaic.ValueIdx

/-! ## The records -/

/-- Row gather: operand `[N, D]`, start indices `[E, 1]`, result `[E, D]`; axis 0 collapsed and start-indexed, axis 1
    an offset axis of full width. -/
abbrev gathD (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Entry gather: operand `[N]`, start indices `[E, 1]`, result `[E]`; the one axis collapsed and start-indexed. -/
abbrev gath1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Row scatter: operand `[N, D]`, scatter indices `[E, 1]`, updates `[E, D]`; axis 0 inserted and scatter-indexed,
    axis 1 the window. -/
abbrev scatD (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Entry scatter: operand `[N]`, scatter indices `[E, 1]`, updates `[E]`; no window. -/
abbrev scat1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## The gathers at an index -/

/-- The row a gather reads for an index word: the word as a signed integer, clamped into `[0, N − 1]` (a negative
    word reads row 0, a word past the end the last row). -/
def row {N : Nat} (hN : 0 < N) {w : Nat} (b : BitVec w) : Fin N := ⟨min b.toInt.toNat (N - 1), by omega⟩

/-- A word whose signed value is a row number is sent to that row: the clamp leaves it alone. -/
theorem row_of_toInt {N : Nat} (hN : 0 < N) {w : Nat} (b : BitVec w) (i : Fin N) (h : b.toInt = (i.val : Int)) :
    row hN b = i := by
  refine Fin.ext ?_
  show min b.toInt.toNat (N - 1) = i.val
  rw [h, Int.toNat_natCast]
  have := i.isLt
  omega

variable {α : Type}

/-- THE ROW GATHER AT `(e, q)`: the operand at row `row (idx (e, 0))`, column `q`. On axis 0 (collapsed, no batching)
    the operand coordinate is the clamped start; on axis 1 (not start-indexed) it is the offset coordinate `q`. -/
theorem gather_gathD_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (gathD N E D wf) x idx (ix2 e q) = x (ix2 (row hN (idx (ix2 e (0 : Fin 1)))) q) := by
  unfold Host.gather
  congr 1
  funext a
  refine Fin.ext ?_
  match a with
  | ⟨0, _⟩ =>
    show (gathD N E D wf).start (ix2 e q) idx 0 + (gathD N E D wf).batchCoord (ix2 e q) 0
      + (gathD N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (gathD N E D wf).startIndexMap from List.mem_singleton.mpr rfl)]
    show min (idx _).toInt.toNat (N - 1) = min (idx (ix2 e (0 : Fin 1))).toInt.toNat (N - 1)
    congr 3
    congr 1
    funext b
    refine Fin.ext ?_
    match b with
    | ⟨0, _⟩ => rfl
    | ⟨1, _⟩ => rfl
  | ⟨1, _⟩ =>
    show (gathD N E D wf).start (ix2 e q) idx 1 + (gathD N E D wf).batchCoord (ix2 e q) 1
      + (gathD N E D wf).offCoord (ix2 e q) 1 = q.val
    rw [GatherDims.batchCoord_eq_zero _ _ _ List.not_mem_nil]
    have h1 : (1 : Fin 2) ∉ (gathD N E D wf).startIndexMap :=
      show (1 : Fin 2) ∉ ([0] : List (Fin 2)) by decide
    have hk : (1 : Fin 2) ∈ (gathD N E D wf).sKept :=
      (GatherDims.mem_sKept _ _).mpr ⟨show (1 : Fin 2) ∉ ([0] : List (Fin 2)) by decide, List.not_mem_nil⟩
    unfold GatherDims.start GatherDims.offCoord
    rw [dif_neg h1, dif_pos hk]
    simp only [Nat.zero_add]
    rfl

/-- THE ENTRY GATHER AT `e`: the operand at `row (idx (e, 0))`, the same row the row gather reads for that edge. -/
theorem gather_gath1_apply {N E w : Nat} (hN : 0 < N)
    (wf : GatherDims.WF ⟨1, ![N]⟩ ⟨2, ![E, 1]⟩ ⟨1, ![E]⟩ [] [0] [] [0] [] 1 ![1])
    (v : (⟨1, ![N]⟩ : Shape).Idx → α) (idx : IVec ⟨2, ![E, 1]⟩ w) (e : Fin E) :
    Host.gather (gath1 N E wf) v idx (ix1 e) = v (ix1 (row hN (idx (ix2 e (0 : Fin 1))))) := by
  unfold Host.gather
  congr 1
  funext a
  obtain rfl : a = 0 := Subsingleton.elim _ _
  refine Fin.ext ?_
  show (gath1 N E wf).start (ix1 e) idx 0 + (gath1 N E wf).batchCoord (ix1 e) 0 + (gath1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 1) ∈ (gath1 N E wf).startIndexMap from List.mem_singleton.mpr rfl)]
  show min (idx _).toInt.toNat (N - 1) = min (idx (ix2 e (0 : Fin 1))).toInt.toNat (N - 1)
  congr 3
  congr 1
  funext b
  refine Fin.ext ?_
  match b with
  | ⟨0, _⟩ => rfl
  | ⟨1, _⟩ => rfl

/-! ## Where a scattered update lands -/

/-- For any scatter: an update lands on operand index `r` exactly when, on every axis, its signed start plus its
    window coordinate is `r`'s coordinate (if the sum leaves the operand on some axis the update is dropped, and no
    `r` has that coordinate). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro hh a
      have := congrFun (Option.some.inj hh) a
      rw [← this]
      exact (Int.toNat_of_nonneg (h a).1).symm
    · intro hall
      congr 1
      funext a
      refine Fin.ext ?_
      show (d.start j idx a + (d.window j a : Int)).toNat = (r a).val
      rw [hall a]; exact Int.toNat_natCast _
  · next h =>
    constructor
    · intro hh; cases hh
    · intro hall
      exfalso; apply h; intro a
      rw [hall a]
      exact ⟨Int.natCast_nonneg _, by exact_mod_cast (r a).isLt⟩

section ScatD
variable {N E D w : Nat} (wf : ScatterDims.WF ⟨2, ![N, D]⟩ ⟨2, ![E, 1]⟩ ⟨2, ![E, D]⟩ [1] [0] [0] 1)
  (idx : IVec ⟨2, ![E, 1]⟩ w) (e : Fin E) (q' : Fin D)

/-- Row scatter, axis 0: the start is the edge's index word read signed … -/
theorem scatD_start0 : (scatD N E D wf).start (ix2 e q') idx 0 = (idx (ix2 e (0 : Fin 1))).toInt := by
  unfold ScatterDims.start
  rw [dif_pos (show (0 : Fin 2) ∈ (scatD N E D wf).scatterDimsToOperandDims from List.mem_singleton.mpr rfl)]
  congr 2
  funext b
  refine Fin.ext ?_
  match b with
  | ⟨0, _⟩ => rfl
  | ⟨1, _⟩ => rfl

/-- … and there is no window coordinate (the axis is inserted). -/
theorem scatD_window0 : (scatD N E D wf).window (ix2 e q') 0 = 0 := by
  unfold ScatterDims.window
  rw [dif_neg]
  intro h
  have : (0 : Fin 2) ∉ ([0] : List (Fin 2)) := by
    simpa [ScatterDims.sKept, Shape.kept, List.mem_filter] using h
  exact this (List.mem_singleton.mpr rfl)

/-- Row scatter, axis 1: not scatter-indexed, start 0 … -/
theorem scatD_start1 : (scatD N E D wf).start (ix2 e q') idx 1 = 0 := by
  unfold ScatterDims.start
  rw [dif_neg (show (1 : Fin 2) ∉ ([0] : List (Fin 2)) by decide)]

/-- … and the window coordinate is the update's column. -/
theorem scatD_window1 : (scatD N E D wf).window (ix2 e q') 1 = q'.val := by
  unfold ScatterDims.window
  have hk : (1 : Fin 2) ∈ (scatD N E D wf).sKept := by
    simp [ScatterDims.sKept, Shape.kept, List.mem_filter]
  rw [dif_pos hk]
  rfl

/-- WHERE A ROW UPDATE LANDS: update `(e, q')` lands on `(i, q)` iff `q' = q` and the edge's index word, read signed,
    is `i`. -/
theorem scatD_resultIdx?_iff (i : Fin N) (q : Fin D) :
    (scatD N E D wf).resultIdx? (ix2 e q') idx = some (ix2 i q)
      ↔ q' = q ∧ (idx (ix2 e (0 : Fin 1))).toInt = (i.val : Int) := by
  rw [resultIdx?_eq_some_iff]
  constructor
  · intro h
    have h0 : (scatD N E D wf).start (ix2 e q') idx 0 + ((scatD N E D wf).window (ix2 e q') 0 : Int) = (i.val : Int) :=
      h 0
    have h1 : (scatD N E D wf).start (ix2 e q') idx 1 + ((scatD N E D wf).window (ix2 e q') 1 : Int) = (q.val : Int) :=
      h 1
    rw [scatD_start0, scatD_window0] at h0
    rw [scatD_start1, scatD_window1] at h1
    refine ⟨Fin.ext ?_, ?_⟩
    · have : ((q'.val : Int)) = (q.val : Int) := by simpa using h1
      exact_mod_cast this
    · simpa using h0
  · rintro ⟨rfl, ht⟩ a
    match a with
    | ⟨0, _⟩ =>
      show (scatD N E D wf).start (ix2 e q') idx 0 + ((scatD N E D wf).window (ix2 e q') 0 : Int) = (i.val : Int)
      rw [scatD_start0, scatD_window0, ht]; simp
    | ⟨1, _⟩ =>
      show (scatD N E D wf).start (ix2 e q') idx 1 + ((scatD N E D wf).window (ix2 e q') 1 : Int) = (q'.val : Int)
      rw [scatD_start1, scatD_window1]; simp

end ScatD

section Scat1
variable {N E w : Nat} (wf : ScatterDims.WF ⟨1, ![N]⟩ ⟨2, ![E, 1]⟩ ⟨1, ![E]⟩ [] [0] [0] 1)
  (idx : IVec ⟨2, ![E, 1]⟩ w) (e : Fin E)

/-- Entry scatter: the start is the edge's index word read signed … -/
theorem scat1_start0 : (scat1 N E wf).start (ix1 e) idx 0 = (idx (ix2 e (0 : Fin 1))).toInt := by
  unfold ScatterDims.start
  rw [dif_pos (show (0 : Fin 1) ∈ (scat1 N E wf).scatterDimsToOperandDims from List.mem_singleton.mpr rfl)]
  congr 2
  funext b
  refine Fin.ext ?_
  match b with
  | ⟨0, _⟩ => rfl
  | ⟨1, _⟩ => rfl

/-- … and there is no window. -/
theorem scat1_window0 : (scat1 N E wf).window (ix1 e) 0 = 0 := by
  unfold ScatterDims.window
  rw [dif_neg]
  intro h
  have : (0 : Fin 1) ∉ ([0] : List (Fin 1)) := by
    simpa [ScatterDims.sKept, Shape.kept, List.mem_filter] using h
  exact this (List.mem_singleton.mpr rfl)

/-- WHERE AN ENTRY UPDATE LANDS: update `e` lands on `i` iff the edge's index word, read signed, is `i`. -/
theorem scat1_resultIdx?_iff (i : Fin N) :
    (scat1 N E wf).resultIdx? (ix1 e) idx = some (ix1 i) ↔ (idx (ix2 e (0 : Fin 1))).toInt = (i.val : Int) := by
  rw [resultIdx?_eq_some_iff]
  constructor
  · intro h
    have h0 : (scat1 N E wf).start (ix1 e) idx 0 + ((scat1 N E wf).window (ix1 e) 0 : Int) = (i.val : Int) := h 0
    rw [scat1_start0, scat1_window0] at h0
    simpa using h0
  · intro ht a
    obtain rfl : a = 0 := Subsingleton.elim _ _
    show (scat1 N E wf).start (ix1 e) idx 0 + ((scat1 N E wf).window (ix1 e) 0 : Int) = (i.val : Int)
    rw [scat1_start0, scat1_window0, ht]; simp

end Scat1

/-! ## The accumulating scatter at an index, at the ideal instance -/

section ScatterAddAt
open Finset

/-- THE ROW SCATTER-ADD AT `(i, q)`: the operand's entry plus the sum, over the edges `e` whose index word read signed
    is `i`, of the update entries `(e, q)`. The updates that land on `(i, q)` are the `(e, q')` with `q' = q` and word
    `i`: the sum over the pairs collapses to the sum over the edges. -/
theorem scatterAdd_scatD_apply {N E D w : Nat} (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32)
    (i : Fin N) (q : Fin D) :
    Host.scatterAdd (scatD N E D wf) x idx upd (ix2 i q)
      = x (ix2 i q) + ∑ e ∈ univ.filter (fun e : Fin E => (idx (ix2 e (0 : Fin 1))).toInt = (i.val : Int)), upd (ix2 e q) := by
  classical
  show x (ix2 i q) + ∑ j ∈ univ.filter (fun j => (scatD N E D wf).resultIdx? j idx = some (ix2 i q)), upd j = _
  congr 1
  rw [Finset.sum_filter, sum_idx2, Finset.sum_filter]
  refine Finset.sum_congr rfl fun e _ => ?_
  simp only [scatD_resultIdx?_iff]
  by_cases ht : (idx (ix2 e (0 : Fin 1))).toInt = (i.val : Int)
  · simp [ht]
  · simp [ht]

/-- THE ENTRY SCATTER-ADD AT `i`: the operand's entry plus the sum, over the edges whose index word read signed is
    `i`, of their updates. -/
theorem scatterAdd_scat1_apply {N E w : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (i : Fin N) :
    Host.scatterAdd (scat1 N E wf) x idx upd (ix1 i)
      = x (ix1 i) + ∑ e ∈ univ.filter (fun e : Fin E => (idx (ix2 e (0 : Fin 1))).toInt = (i.val : Int)), upd (ix1 e) := by
  classical
  show x (ix1 i) + ∑ j ∈ univ.filter (fun j => (scat1 N E wf).resultIdx? j idx = some (ix1 i)), upd j = _
  congr 1
  refine Finset.sum_bij' (fun j _ => (j 0 : Fin E)) (fun e _ => ix1 e) ?_ ?_ ?_ ?_ ?_
  · intro j hj
    have h2 := (Finset.mem_filter.mp hj).2
    rw [eq_ix1 j] at h2
    exact Finset.mem_filter.mpr ⟨Finset.mem_univ _, (scat1_resultIdx?_iff wf idx _ i).mp h2⟩
  · intro e he
    exact Finset.mem_filter.mpr ⟨Finset.mem_univ _, (scat1_resultIdx?_iff wf idx e i).mpr (Finset.mem_filter.mp he).2⟩
  · intro j _; exact (eq_ix1 j).symm
  · intro e _; rfl
  · intro j _; exact congrArg upd (eq_ix1 j)

end ScatterAddAt

end Cert.Proof.GS
-- ==== Proof.LibTypedOps.lean ====
/-
  A host operation built over typed references is the operation built over the bare references.

  A typed reference carries a buffer together with the equation that the buffer's type is the tensor type `T` of the
  value it holds; the builders over typed references state the operation's function at `T.Contents` and transport its
  arguments and its result along that equation. Destructuring the typed reference turns the equation into `rfl`, the
  transports into the identity, and the typed builder into the plain builder at the same function. The function of
  the plain builder is typed at the buffers' own types, so the two functions are related by heterogeneous equality
  (at a literal reference both types compute to the same tensor type, and the function is one term: `HEq.rfl`).
  Nothing here mentions a particular program: the lemmas are generic in the signature, the references and the values.
-/
import Idealize.ShloMosaic.Lib.StableHlo

namespace Idealize.ShloMosaic.StableHlo.TRef

open Idealize.ShloMosaic.TcCoe

variable {τ : Topo} {sig : RefSig} {Val : EltTy → Type}

/-- A constant written through a typed reference is the constant written to its buffer. -/
theorem nullary_plain {Ty : BufTy} (y : TRef sig Ty) (v : Ty.Contents Val) (v' : y.ref.ty.Contents Val) (hv : HEq v v')
    (hy : y.ref.space ≠ .host ∧ (y.ref : DevRef τ sig).isScoped = false) :
    TRef.nullary (τ := τ) y v = StableHlo.nullary y.ref v' hy := by
  obtain ⟨r, rfl, d, u⟩ := y
  cases hv
  rfl

/-- A one-operand operation over typed references is the plain one at the same function. -/
theorem unary_plain {Tx Ty : BufTy} (x : TRef sig Tx) (y : TRef sig Ty) (f : Tx.Contents Val → Ty.Contents Val)
    (f' : x.ref.ty.Contents Val → y.ref.ty.Contents Val) (hf : HEq f f')
    (hx : x.ref.space ≠ .host ∧ (x.ref : DevRef τ sig).isScoped = false)
    (hy : y.ref.space ≠ .host ∧ (y.ref : DevRef τ sig).isScoped = false) :
    TRef.unary (τ := τ) x y f = StableHlo.unary x.ref y.ref f' hx hy := by
  obtain ⟨rx, rfl, dx, ux⟩ := x
  obtain ⟨ry, rfl, dy, uy⟩ := y
  cases hf
  rfl

/-- A two-operand operation over typed references is the plain one at the same function. -/
theorem binary_plain {Ta Tb Ty : BufTy} (a : TRef sig Ta) (b : TRef sig Tb) (y : TRef sig Ty)
    (f : Ta.Contents Val → Tb.Contents Val → Ty.Contents Val)
    (f' : a.ref.ty.Contents Val → b.ref.ty.Contents Val → y.ref.ty.Contents Val) (hf : HEq f f')
    (ha : a.ref.space ≠ .host ∧ (a.ref : DevRef τ sig).isScoped = false)
    (hb : b.ref.space ≠ .host ∧ (b.ref : DevRef τ sig).isScoped = false)
    (hy : y.ref.space ≠ .host ∧ (y.ref : DevRef τ sig).isScoped = false) :
    TRef.binary (τ := τ) a b y f = StableHlo.binary a.ref b.ref y.ref f' ha hb hy := by
  obtain ⟨ra, rfl, da, ua⟩ := a
  obtain ⟨rb, rfl, db, ub⟩ := b
  obtain ⟨ry, rfl, dy, uy⟩ := y
  cases hf
  rfl

/-- A three-operand operation over typed references is the plain one at the same function. -/
theorem ternary_plain {Tc Ta Tb Ty : BufTy} (c : TRef sig Tc) (a : TRef sig Ta) (b : TRef sig Tb) (y : TRef sig Ty)
    (f : Tc.Contents Val → Ta.Contents Val → Tb.Contents Val → Ty.Contents Val)
    (f' : c.ref.ty.Contents Val → a.ref.ty.Contents Val → b.ref.ty.Contents Val → y.ref.ty.Contents Val) (hf : HEq f f')
    (hc : c.ref.space ≠ .host ∧ (c.ref : DevRef τ sig).isScoped = false)
    (ha : a.ref.space ≠ .host ∧ (a.ref : DevRef τ sig).isScoped = false)
    (hb : b.ref.space ≠ .host ∧ (b.ref : DevRef τ sig).isScoped = false)
    (hy : y.ref.space ≠ .host ∧ (y.ref : DevRef τ sig).isScoped = false) :
    TRef.ternary (τ := τ) c a b y f = StableHlo.ternary c.ref a.ref b.ref y.ref f' hc ha hb hy := by
  obtain ⟨rc, rfl, dc, uc⟩ := c
  obtain ⟨ra, rfl, da, ua⟩ := a
  obtain ⟨rb, rfl, db, ub⟩ := b
  obtain ⟨ry, rfl, dy, uy⟩ := y
  cases hf
  rfl

/-- A reshape over typed references is the plain reshape of the buffers (its side conditions are propositions). -/
theorem reshape_plain {Tx Ty : BufTy} (x : TRef sig Tx) (y : TRef sig Ty) (he : Tx.elt = Ty.elt)
    (hn : Tx.shape.ShapeCasts Ty.shape) (he' : x.ref.ty.elt = y.ref.ty.elt) (hn' : x.ref.ty.shape.ShapeCasts y.ref.ty.shape)
    (hx : x.ref.space ≠ .host ∧ (x.ref : DevRef τ sig).isScoped = false)
    (hy : y.ref.space ≠ .host ∧ (y.ref : DevRef τ sig).isScoped = false) :
    TRef.reshape (τ := τ) (Val := Val) x y he hn = StableHlo.reshape x.ref y.ref he' hn' hx hy := by
  obtain ⟨rx, rfl, dx, ux⟩ := x
  obtain ⟨ry, rfl, dy, uy⟩ := y
  rfl

end Idealize.ShloMosaic.StableHlo.TRef
-- ==== Proof.KHost.lean ====
/-
  What the host operations before the kernel leave in the arrays its windows stage, read at an index, at the ideal
  instance.
-/
import proofs.«427538_j82927228551475_3_alg».proof.Proof.Gen.KernelIdeal.Frame.Runs
import proofs.«427538_j82927228551475_3_alg».proof.Proof.LibGatherScatter
import proofs.«427538_j82927228551475_3_alg».proof.Proof.LibTypedOps
import proofs.«427538_j82927228551475_3_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.Lib.ReduceAll
import Idealize.ShloMosaic.Lib.IdealHost
import Idealize.ShloMosaic.PureOps.Ideal.Laws

open scoped BigOperators

noncomputable section

namespace Cert.KernelIdeal.HostValue

open Cert.KernelIdeal Cert.KernelIdeal.Gen Idealize.ShloMosaic Idealize.ShloMosaic.ValueIdx Idealize.ShloMosaic.TcCoe
  Idealize.SL.Sem
open Idealize.ShloMosaic.StableHlo

variable (m : (ℓ : Loc nD τ sig) → Buf (Elt Ideal) ℓ)

abbrev E (c : Dev nD) : FVec Ideal S16384x128 .f32 := m ((c.tc : Thread nD τ).loc main_arg0)
abbrev Tg (c : Dev nD) : IVec S16384 32 := m ((c.tc : Thread nD τ).loc main_arg1)
abbrev Cn (c : Dev nD) : FVec Ideal S4096x128 .f32 := m ((c.tc : Thread nD τ).loc main_arg2)

/-- The label column is the label vector reshaped: entry `(i, 0)` is label `i`. -/
theorem V_tgt (c : Dev nD) (i : Fin 16384) (u : Fin 1) :
    (V m c main_v17 : S16384x1.Idx → BitVec 32) (ix2 i u) = Tg m c (ix1 i) := by
  have e : (V m c main_v17 : S16384x1.Idx → BitVec 32) = shapeCast S16384x1 (Tg m c) shapeCasts_S16384_S16384x1 := by
    dsimp only [V, V0]
    simp only [hostOps0, hostOps0_1, List.flatten_cons, List.flatten_nil, List.append_nil, List.cons_append, List.nil_append]
    after_results
    rfl
  rw [e]
  refine shapeCast_apply _ shapeCasts_S16384_S16384x1 (ix2 i u) (ix1 i) ?_
  rw [Shape.rowMajor_val_two, Shape.rowMajor_val_one]
  show i.val = i.val * 1 + u.val
  have := u.isLt
  omega

/-- The column-index row is the iota reshaped: entry `(0, q)` is the word `q`. -/
theorem V_col (c : Dev nD) (q : Fin 4096) (u : Fin 1) :
    (V m c main_v16 : S1x4096.Idx → BitVec 32) (ix2 u q) = BitVec.ofNat 32 q.val := by
  have e : (V m c main_v16 : S1x4096.Idx → BitVec 32) = shapeCast S1x4096 (iotaInDim S4096 32 0) shapeCasts_S4096_S1x4096 := by
    dsimp only [V, V0]
    simp only [hostOps0, hostOps0_1, List.flatten_cons, List.flatten_nil, List.append_nil, List.cons_append, List.nil_append]
    after_results
    rfl
  rw [e]
  refine (shapeCast_apply _ shapeCasts_S4096_S1x4096 (ix2 u q) (ix1 q) ?_).trans ?_
  · rw [Shape.rowMajor_val_two, Shape.rowMajor_val_one]
    show q.val = u.val * 4096 + q.val
    have := u.isLt
    omega
  · rfl

/-! ## The squared norms of the centers -/

/-- The centers' squared norms as the host composes them: the row sums of the elementwise square, from zero. -/
def c2sum (C : FVec Ideal S4096x128 .f32) : FVec Ideal S4096 .f32 :=
  Host.reduceAdd (mulf C C) (constant (F := Ideal) S_ .f32 0x00000000#32) reducesTo_S4096x128_S4096_d1 h_S_

/-- Entry `q` of the row sums is the sum over the 128 coordinates of the square of center `q`'s coordinate. -/
theorem c2sum_apply (C : FVec Ideal S4096x128 .f32) (q : Fin 4096) :
    c2sum C (ix1 q) = ∑ d : Fin 128, C (ix2 q d) * C (ix2 q d) := by
  unfold c2sum
  simp only [Host.reduceAdd, Ideal.hostReduceAdd_def]
  rw [Ideal.hostReduceAdd_single reducesTo_S4096x128_S4096_d1 (by decide)]
  refine (congrArg (· + _) Ideal.ofBits_zero_f32).trans ?_
  rw [zero_add]
  refine Finset.sum_congr rfl fun k _ => ?_
  exact congrArg (fun z => C z * C z) (funext fun a => Fin.ext (by match a with | ⟨0, _⟩ => rfl | ⟨1, _⟩ => rfl))

/-- The row of squared norms: entry `(0, q)` is the squared norm of center `q`. The row sums are broadcast to a
    column and the column is transposed. -/
theorem V_c2 (c : Dev nD) (q : Fin 4096) (u : Fin 1) :
    (V m c main_v14 : S1x4096.Idx → EReal) (ix2 u q) = ∑ d : Fin 128, Cn m c (ix2 q d) * Cn m c (ix2 q d) := by
  have e : (V m c main_v14 : S1x4096.Idx → EReal)
      = transpose S1x4096 [1, 0] (broadcastInDim S4096x1 ![0] bcast_S4096_S4096x1_0 (c2sum (Cn m c)))
          transposes_S4096x1_S1x4096_1_0 := by
    dsimp only [V, V0]
    simp only [hostOps0, hostOps0_1, List.flatten_cons, List.flatten_nil, List.append_nil, List.cons_append, List.nil_append]
    after_results
    rfl
  rw [e]
  generalize c2sum_apply (Cn m c) q = hq
  generalize c2sum (Cn m c) = y at hq ⊢
  refine (transpose_apply [1, 0] _ transposes_S4096x1_S1x4096_1_0 (ix2 u q) (ix2 q u) (fun b => match b with
    | ⟨0, _⟩ => rfl
    | ⟨1, _⟩ => rfl)).trans ?_
  refine (broadcastInDim_apply _ bcast_S4096_S4096x1_0 y (ix2 q u) (ix1 q) (fun a => match a with
    | ⟨0, _⟩ => by show q.val = if (4096 : Nat) = 1 then 0 else q.val; rw [if_neg (by decide)])).trans ?_
  exact hq

/-! ## Words -/

/-- A label below 4096, as a 32-bit word, reads signed as itself. -/
theorem toInt_label (t : Nat) (h : t < 4096) : (BitVec.ofNat 32 t).toInt = (t : Int) := by
  have hn : (BitVec.ofNat 32 t).toNat = t := by
    rw [BitVec.toNat_ofNat]
    exact Nat.mod_eq_of_lt (by omega)
  rw [BitVec.toInt_eq_toNat_of_lt (by rw [hn]; omega), hn]

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- A reduction by `and`, from 1, of an array of ones is 1 at every index. -/
theorem reduce_andi_one {s t u : Shape} {axes : List (Fin s.rank)} (x : s.Idx → BitVec 1) (init : u.Idx → BitVec 1)
    (h : s.ReducesTo axes t) (hu : 0 < u.numel) (j : t.Idx) (hi : init (Shape.Idx.first hu) = 1#1)
    (hx : ∀ i, x i = 1#1) : Host.reduce IntOp.andi x init h hu j = 1#1 := by
  rw [Host.reduce_eq_foldl, hi]
  exact foldl_andi_one x _ fun n _ => hx n

/-! ## The gathered rows -/

/-- A vector of 16384 entries as a column: entry `(i, 0)` is entry `i`. -/
theorem col_apply {α : Type} (y : S16384.Idx → α) (i : Fin 16384) (u : Fin 1) :
    broadcastInDim S16384x1 ![0] bcast_S16384_S16384x1_0 y (ix2 i u) = y (ix1 i) :=
  broadcastInDim_apply _ bcast_S16384_S16384x1_0 y (ix2 i u) (ix1 i) (fun a => match a with
    | ⟨0, _⟩ => by show i.val = if (16384 : Nat) = 1 then 0 else i.val; rw [if_neg (by decide)])

/-- The label words with a negative one wrapped around by 4096. -/
def wrapped (T : IVec S16384 32) : IVec S16384 32 :=
  select (cmpi .slt T (broadcastInDim S16384 ![] bcast_S_S16384 (constantI S_ 32 0#32)))
    (addi T (broadcastInDim S16384 ![] bcast_S_S16384 (constantI S_ 32 4096#32))) T

/-- A label in range is not negative: the wrap leaves it alone. -/
theorem wrapped_apply (T : IVec S16384 32) (i : Fin 16384) (t : Fin 4096) (h : T (ix1 i) = BitVec.ofNat 32 t.val) :
    wrapped T (ix1 i) = BitVec.ofNat 32 t.val := by
  unfold wrapped
  rw [select_apply]
  have hlt : cmpi .slt T (broadcastInDim S16384 ![] bcast_S_S16384 (constantI S_ 32 0#32)) (ix1 i) = 0#1 := by
    show IntOp.cmpi .slt (T (ix1 i)) 0#32 = 0#1
    rw [h]
    refine eq_zero_of_ne_one fun h1 => ?_
    have h2 := IntOp.cmpi_slt.mp h1
    rw [toInt_label t.val t.isLt, BitVec.toInt_zero] at h2
    omega
  rw [hlt, select_zero, h]

/-- The wrapped labels as the column of start indices of the gather. -/
def idxCol (T : IVec S16384 32) : IVec S16384x1 32 :=
  broadcastInDim S16384x1 ![0] bcast_S16384_S16384x1_0 (wrapped T)

/-- The range test of the take: `0 ≤ idx ≤ 4095` on the column, reduced by `and` along its one-entry rows. -/
def inRange (T : IVec S16384 32) : IVec S16384 1 :=
  Host.reduce IntOp.andi
    (andi (cmpi .sge (idxCol T) (broadcastInDim S16384x1 ![] bcast_S_S16384x1 (constantI S_ 32 0#32)))
      (cmpi .sle (idxCol T) (broadcastInDim S16384x1 ![0, 1] bcast_S1x1_S16384x1_0_1
        (broadcastInDim S1x1 ![1] bcast_S1_S1x1_1 (constantI S1 32 4095#32)))))
    (constantI S_ 1 1#1) reducesTo_S16384x1_S16384_d1 h_S_

section InRange
variable (T : IVec S16384 32) (tg : Fin 16384 → Fin 4096) (ht : ∀ i : Fin 16384, T (ix1 i) = BitVec.ofNat 32 (tg i).val)
include ht

/-- With every label in range the start index of row `i` is its label. -/
theorem idxCol_apply (i : Fin 16384) (u : Fin 1) : idxCol T (ix2 i u) = BitVec.ofNat 32 (tg i).val := by
  unfold idxCol
  rw [col_apply, wrapped_apply T i (tg i) (ht i)]

/-- With every label in range the range test holds everywhere. -/
theorem inRange_one (j : S16384.Idx) : inRange T j = 1#1 := by
  unfold inRange
  refine reduce_andi_one _ _ _ _ j rfl fun i' => ?_
  obtain ⟨p, v, rfl⟩ : ∃ p v, i' = ix2 p v := ⟨i' 0, i' 1, eq_ix2 i'⟩
  show IntOp.andi (IntOp.cmpi .sge (idxCol T (ix2 p v)) 0#32) (IntOp.cmpi .sle (idxCol T (ix2 p v)) 4095#32) = 1#1
  rw [idxCol_apply T tg ht p v]
  refine IntOp.andi_eq_one.mpr ⟨IntOp.cmpi_sge.mpr ?_, IntOp.cmpi_sle.mpr ?_⟩
  · rw [toInt_label _ (tg p).isLt, BitVec.toInt_zero]; omega
  · rw [toInt_label _ (tg p).isLt, show (4095#32 : BitVec 32).toInt = 4095 from by decide]
    have := (tg p).isLt
    omega

end InRange

/-- The take: the gathered row where the range test holds, a NaN word elsewhere. -/
def taken (C : FVec Ideal S4096x128 .f32) (T : IVec S16384 32) : FVec Ideal S16384x128 .f32 :=
  select (broadcastInDim S16384x128 ![0] bcast_S16384_S16384x128_0 (inRange T))
    (Host.gather gather_S4096x128_S16384x1_S16384x128_1_0_n_n_0_1_1128 C (idxCol T))
    (broadcastInDim S16384x128 ![] bcast_S_S16384x128 (constant (F := Ideal) S_ .f32 0x7FC00000#32))

/-- The printed dimension numbers of the gather are the row gather's. -/
theorem gather_eq : gather_S4096x128_S16384x1_S16384x128_1_0_n_n_0_1_1128
    = Cert.Proof.GS.gathD 4096 16384 128 gather_S4096x128_S16384x1_S16384x128_1_0_n_n_0_1_1128_wf := rfl

/-- With every label in range, row `i` of the take is the center of row `i`'s label. -/
theorem taken_apply (C : FVec Ideal S4096x128 .f32) (T : IVec S16384 32) (tg : Fin 16384 → Fin 4096)
    (ht : ∀ i : Fin 16384, T (ix1 i) = BitVec.ofNat 32 (tg i).val) (i : Fin 16384) (d : Fin 128) :
    taken C T (ix2 i d) = C (ix2 (tg i) d) := by
  unfold taken
  rw [select_apply]
  have h1 : broadcastInDim S16384x128 ![0] bcast_S16384_S16384x128_0 (inRange T) (ix2 i d) = 1#1 :=
    inRange_one T tg ht _
  rw [h1, select_one, gather_eq, Cert.Proof.GS.gather_gathD_apply (by decide : 0 < 4096)]
  refine congrArg (fun r => C (ix2 r d)) (Cert.Proof.GS.row_of_toInt _ _ (tg i) ?_)
  rw [idxCol_apply T tg ht i 0, toInt_label _ (tg i).isLt]

/-! ## The row term -/

/-- The row sums of a `[16384, 128]` array, from zero. -/
def rowsum (X : FVec Ideal S16384x128 .f32) : FVec Ideal S16384 .f32 :=
  Host.reduceAdd X (constant (F := Ideal) S_ .f32 0x00000000#32) reducesTo_S16384x128_S16384_d1 h_S_

/-- Entry `i` of the row sums is the sum of row `i`. -/
theorem rowsum_apply (X : FVec Ideal S16384x128 .f32) (i : Fin 16384) : rowsum X (ix1 i) = ∑ d : Fin 128, X (ix2 i d) := by
  unfold rowsum
  simp only [Host.reduceAdd, Ideal.hostReduceAdd_def]
  rw [Ideal.hostReduceAdd_single reducesTo_S16384x128_S16384_d1 (by decide)]
  refine (congrArg (· + _) Ideal.ofBits_zero_f32).trans ?_
  rw [zero_add]
  refine Finset.sum_congr rfl fun k _ => ?_
  exact congrArg X (funext fun a => Fin.ext (by match a with | ⟨0, _⟩ => rfl | ⟨1, _⟩ => rfl))

/-- The row term as the host composes it: one plus the squared distance to the taken row, minus the squared norm, as a
    column. -/
def rcol (X : FVec Ideal S16384x128 .f32) (C : FVec Ideal S4096x128 .f32) (T : IVec S16384 32) : FVec Ideal S16384x1 .f32 :=
  subf
    (addf (broadcastInDim S16384x1 ![] bcast_S_S16384x1 (constant (F := Ideal) S_ .f32 0x3F800000#32))
      (broadcastInDim S16384x1 ![0] bcast_S16384_S16384x1_0 (rowsum (mulf (subf X (taken C T)) (subf X (taken C T))))))
    (broadcastInDim S16384x1 ![0] bcast_S16384_S16384x1_0 (rowsum (mulf X X)))

/-- The row term at `(i, 0)`, with every label in range. -/
theorem rcol_apply (X : FVec Ideal S16384x128 .f32) (C : FVec Ideal S4096x128 .f32) (T : IVec S16384 32)
    (tg : Fin 16384 → Fin 4096) (ht : ∀ i : Fin 16384, T (ix1 i) = BitVec.ofNat 32 (tg i).val) (i : Fin 16384) (u : Fin 1) :
    rcol X C T (ix2 i u)
      = (Ideal.ofBits .f32 0x3F800000#32 + ∑ d : Fin 128, (X (ix2 i d) - C (ix2 (tg i) d)) * (X (ix2 i d) - C (ix2 (tg i) d)))
        - ∑ d : Fin 128, X (ix2 i d) * X (ix2 i d) := by
  unfold rcol
  rw [subf_apply, addf_apply, col_apply, col_apply, rowsum_apply, rowsum_apply]
  refine congrArg₂ (· - ·) (congrArg₂ (· + ·) rfl (Finset.sum_congr rfl fun d _ => ?_)) rfl
  rw [mulf_apply, subf_apply, taken_apply C T tg ht i d]

/-- The row term the kernel stages: entry `(i, 0)` is one plus the squared distance from embedding `i` to the center
    of its label, minus the squared norm of embedding `i`. -/
theorem V_r (c : Dev nD) (tg : Fin 16384 → Fin 4096)
    (ht : ∀ i : Fin 16384, Tg m c (ix1 i) = BitVec.ofNat 32 (tg i).val) (i : Fin 16384) (u : Fin 1) :
    (V m c main_v10 : S16384x1.Idx → EReal) (ix2 i u)
      = (Ideal.ofBits .f32 0x3F800000#32
          + ∑ d : Fin 128, (E m c (ix2 i d) - Cn m c (ix2 (tg i) d)) * (E m c (ix2 i d) - Cn m c (ix2 (tg i) d)))
        - ∑ d : Fin 128, E m c (ix2 i d) * E m c (ix2 i d) := by
  have e : (V m c main_v10 : S16384x1.Idx → EReal) = rcol (E m c) (Cn m c) (Tg m c) := by
    dsimp only [V, V0]
    simp only [hostOps0, hostOps0_1, List.flatten_cons, List.flatten_nil, List.append_nil, List.cons_append, List.nil_append]
    after_results_simp
    simp only [StableHlo.TRef.ofBuf, StableHlo.TRef.toBuf, cast_eq]
    rfl
  rw [e]
  exact rcol_apply (E m c) (Cn m c) (Tg m c) tg ht i u

end Cert.KernelIdeal.HostValue

end
-- ==== Proof.KBlocks.lean ====
/-
  The value of one grid point of the kernel, at the ideal values, as the specification's tile quantities.

  The grid has 16 row tiles by 4 column tiles; point `4 I + J` works on row tile `I` and column tile `J`. Its block of
  embedding rows, of the rows' terms and of the rows' labels are rows `1024 I + p` of the arrays the kernel is
  launched on; its centers, squared norms and column numbers are entries `1024 J + q` of the resident arrays, read at
  the column tile's offset. At those entries the arrays hold the embeddings and centers themselves, the row term
  `1 + dist i (tg i) - Σ e²`, the squared norm `Σ c²`, the number `1024 J + q` and the label `tg i`. So the loss the body
  forms at `(p, q)`, `(r - c²) + 2 Σ e c`, is the margin violation of the triplet `(i, tg i, c)` with `i = 1024 I + p` and
  `c = 1024 J + q`; it is counted exactly when the triplet is mined (the two numbers are below `2 ^ 32`, so their words
  differ exactly when they do); and the tile's two sums are the specification's `tileTotal` and `tileCount`.
-/
import proofs.«427538_j82927228551475_3_alg».proof.Proof.KAcc
import proofs.«427538_j82927228551475_3_alg».proof.Proof.Spec
import proofs.«427538_j82927228551475_3_alg».proof.Proof.Math
import proofs.«427538_j82927228551475_3_alg».proof.Proof.KPoint
import proofs.«427538_j82927228551475_3_alg».proof.Proof.KHost
import Idealize.ShloMosaic.Lib.ValueIdx
import Idealize.ShloMosaic.Lib.Pipeline.Value
import Mathlib.Algebra.BigOperators.Ring.Finset
import Mathlib.Data.EReal.Basic

open scoped BigOperators

noncomputable section

namespace Cert.KernelIdeal.BlockValue

open Cert.KernelIdeal Cert.KernelIdeal.Gen Cert.KernelIdeal.AccValue Cert.CenterLoss Idealize.ShloMosaic
  Idealize.ShloMosaic.ValueIdx Idealize.ShloMosaic.TcCoe Idealize.SL.Sem
  Cert.KernelIdeal.PointValue Cert.KernelIdeal.HostValue

/-! ## The grid point and its block indices -/

/-- Point `4 I + J` is one of the 64 points of the grid. -/
theorem pt_lt (I : Fin 16) (J : Fin 4) : 4 * I.val + J.val < cfg0.N := by
  have h : cfg0.N = 64 := N_0
  have := I.isLt; have := J.isLt; omega

/-- The embedding rows' block index at point `t` is `(t / 4, 0)`. -/
theorem idx0 : ∀ t : Fin grid0.N, win0_0.index t 0 = t.val / 4 ∧ win0_0.index t 1 = 0 := by decide +kernel
/-- The centers are one block, at `(0, 0)`. -/
theorem idx1 : ∀ t : Fin grid0.N, win0_1.index t 0 = 0 ∧ win0_1.index t 1 = 0 := by decide +kernel
/-- The rows' terms' block index at point `t` is `(t / 4, 0)`. -/
theorem idx2 : ∀ t : Fin grid0.N, win0_2.index t 0 = t.val / 4 ∧ win0_2.index t 1 = 0 := by decide +kernel
/-- The rows' labels' block index at point `t` is `(t / 4, 0)`. -/
theorem idx3 : ∀ t : Fin grid0.N, win0_3.index t 0 = t.val / 4 ∧ win0_3.index t 1 = 0 := by decide +kernel
/-- The squared norms are one block, at `(0, 0)`. -/
theorem idx4 : ∀ t : Fin grid0.N, win0_4.index t 0 = 0 ∧ win0_4.index t 1 = 0 := by decide +kernel
/-- The column numbers are one block, at `(0, 0)`. -/
theorem idx5 : ∀ t : Fin grid0.N, win0_5.index t 0 = 0 ∧ win0_5.index t 1 = 0 := by decide +kernel
/-- The centers' tile starts at row `1024 (t % 4)`. -/
theorem off1 : ∀ t : Fin grid0.N, k0_off1 (grid0.coords t) 0 = (t.val % 4) * 1024 ∧ k0_off1 (grid0.coords t) 1 = 0 := by
  decide +kernel
/-- The squared norms' and the column numbers' tiles start at column `1024 (t % 4)`. -/
theorem off2 : ∀ t : Fin grid0.N, k0_off2 (grid0.coords t) 0 = 0 ∧ k0_off2 (grid0.coords t) 1 = (t.val % 4) * 1024 := by
  decide +kernel

variable (m : (ℓ : Loc nD τ sig) → Buf (Elt Ideal) ℓ) (c : Dev nD)

/-! ## The point's blocks, read at an index

A block's coordinate in its array is the block index times the block size plus the coordinate inside the block; a
tile's coordinate in the resident block is the tile's offset plus the coordinate inside the tile. -/

/-- The point's block of embedding rows. -/
abbrev eblk (t : Fin cfg0.N) : Vec Ideal S1024x128 .f32 := iblk m c 0 t
/-- The resident centers. -/
abbrev cblk (t : Fin cfg0.N) : Vec Ideal S4096x128 .f32 := iblk m c 1 t
/-- The point's block of the rows' terms. -/
abbrev rblk (t : Fin cfg0.N) : Vec Ideal S1024x1 .f32 := iblk m c 2 t
/-- The point's block of the rows' labels. -/
abbrev lblk (t : Fin cfg0.N) : Vec Ideal S1024x1 .i32 := iblk m c 3 t
/-- The resident squared norms of the centers. -/
abbrev nblk (t : Fin cfg0.N) : Vec Ideal S1x4096 .f32 := iblk m c 4 t
/-- The resident column numbers. -/
abbrev jblk (t : Fin cfg0.N) : Vec Ideal S1x4096 .i32 := iblk m c 5 t

/-- Row `p` of the point's embedding block is row `1024 I + p` of the embeddings. -/
theorem eblk_apply (I : Fin 16) (J : Fin 4) (p : Fin 1024) (k : Fin 128) :
    eblk m c ⟨4 * I.val + J.val, pt_lt I J⟩ (ix2 p k) = (V m c main_arg0 : S16384x128.Idx → EReal) (ix2 (rowOf I p) k) := by
  unfold eblk iblk
  rw [View.read_apply]
  show V m c main_arg0 _ = V m c main_arg0 _
  congr 1
  funext a
  apply Fin.ext
  have hi := idx0 ⟨4 * I.val + J.val, pt_lt I J⟩
  match a with
  | ⟨0, _⟩ =>
    show win0_0.index ⟨4 * I.val + J.val, pt_lt I J⟩ 0 * 1024 + 1 * p.val = I.val * 1024 + p.val
    rw [hi.1]; have := J.isLt; show (4 * I.val + J.val) / 4 * 1024 + 1 * p.val = _; omega
  | ⟨1, _⟩ =>
    show win0_0.index ⟨4 * I.val + J.val, pt_lt I J⟩ 1 * 128 + 1 * k.val = k.val
    rw [hi.2]; omega

/-- Entry `p` of the point's block of row terms is entry `1024 I + p` of the row terms. -/
theorem rblk_apply (I : Fin 16) (J : Fin 4) (p : Fin 1024) (u : Fin 1) :
    rblk m c ⟨4 * I.val + J.val, pt_lt I J⟩ (ix2 p u) = (V m c main_v10 : S16384x1.Idx → EReal) (ix2 (rowOf I p) u) := by
  unfold rblk iblk
  rw [View.read_apply]
  show V m c main_v10 _ = V m c main_v10 _
  congr 1
  funext a
  apply Fin.ext
  have hi := idx2 ⟨4 * I.val + J.val, pt_lt I J⟩
  match a with
  | ⟨0, _⟩ =>
    show win0_2.index ⟨4 * I.val + J.val, pt_lt I J⟩ 0 * 1024 + 1 * p.val = I.val * 1024 + p.val
    rw [hi.1]; have := J.isLt; show (4 * I.val + J.val) / 4 * 1024 + 1 * p.val = _; omega
  | ⟨1, _⟩ =>
    show win0_2.index ⟨4 * I.val + J.val, pt_lt I J⟩ 1 * 1 + 1 * u.val = u.val
    rw [hi.2]; omega

/-- Entry `p` of the point's block of labels is entry `1024 I + p` of the label column. -/
theorem lblk_apply (I : Fin 16) (J : Fin 4) (p : Fin 1024) (u : Fin 1) :
    lblk m c ⟨4 * I.val + J.val, pt_lt I J⟩ (ix2 p u) = (V m c main_v17 : S16384x1.Idx → BitVec 32) (ix2 (rowOf I p) u) := by
  unfold lblk iblk
  rw [View.read_apply]
  show V m c main_v17 _ = V m c main_v17 _
  congr 1
  funext a
  apply Fin.ext
  have hi := idx3 ⟨4 * I.val + J.val, pt_lt I J⟩
  match a with
  | ⟨0, _⟩ =>
    show win0_3.index ⟨4 * I.val + J.val, pt_lt I J⟩ 0 * 1024 + 1 * p.val = I.val * 1024 + p.val
    rw [hi.1]; have := J.isLt; show (4 * I.val + J.val) / 4 * 1024 + 1 * p.val = _; omega
  | ⟨1, _⟩ =>
    show win0_3.index ⟨4 * I.val + J.val, pt_lt I J⟩ 1 * 1 + 1 * u.val = u.val
    rw [hi.2]; omega

/-- Row `q` of the point's tile of centers is row `1024 J + q` of the centers. -/
theorem ctile_apply (I : Fin 16) (J : Fin 4) (q : Fin 1024) (k : Fin 128) :
    cTile (grid0.coords ⟨4 * I.val + J.val, pt_lt I J⟩) (cblk m c ⟨4 * I.val + J.val, pt_lt I J⟩) (ix2 q k)
      = (V m c main_arg2 : S4096x128.Idx → EReal) (ix2 (colOf J q) k) := by
  unfold cTile cblk iblk View.ld
  rw [View.read_apply]
  show V m c main_arg2 _ = V m c main_arg2 _
  congr 1
  funext a
  apply Fin.ext
  have hi := idx1 ⟨4 * I.val + J.val, pt_lt I J⟩
  have ho := off1 ⟨4 * I.val + J.val, pt_lt I J⟩
  match a with
  | ⟨0, _⟩ =>
    show win0_1.index ⟨4 * I.val + J.val, pt_lt I J⟩ 0 * 4096 + 1 * (k0_off1 (grid0.coords ⟨4 * I.val + J.val, pt_lt I J⟩) 0 + 1 * q.val) = J.val * 1024 + q.val
    rw [hi.1, ho.1]; have := J.isLt; show 0 * 4096 + 1 * ((4 * I.val + J.val) % 4 * 1024 + 1 * q.val) = _; omega
  | ⟨1, _⟩ =>
    show win0_1.index ⟨4 * I.val + J.val, pt_lt I J⟩ 1 * 128 + 1 * (k0_off1 (grid0.coords ⟨4 * I.val + J.val, pt_lt I J⟩) 1 + 1 * k.val) = k.val
    rw [hi.2, ho.2]; omega

/-- Entry `q` of the point's tile of squared norms is entry `1024 J + q` of the squared norms. -/
theorem ntile_apply (I : Fin 16) (J : Fin 4) (u : Fin 1) (q : Fin 1024) :
    nTile (grid0.coords ⟨4 * I.val + J.val, pt_lt I J⟩) (nblk m c ⟨4 * I.val + J.val, pt_lt I J⟩) (ix2 u q)
      = (V m c main_v14 : S1x4096.Idx → EReal) (ix2 u (colOf J q)) := by
  unfold nTile nblk iblk View.ld
  rw [View.read_apply]
  show V m c main_v14 _ = V m c main_v14 _
  congr 1
  funext a
  apply Fin.ext
  have hi := idx4 ⟨4 * I.val + J.val, pt_lt I J⟩
  have ho := off2 ⟨4 * I.val + J.val, pt_lt I J⟩
  match a with
  | ⟨0, _⟩ =>
    show win0_4.index ⟨4 * I.val + J.val, pt_lt I J⟩ 0 * 1 + 1 * (k0_off2 (grid0.coords ⟨4 * I.val + J.val, pt_lt I J⟩) 0 + 1 * u.val) = u.val
    rw [hi.1, ho.1]; omega
  | ⟨1, _⟩ =>
    show win0_4.index ⟨4 * I.val + J.val, pt_lt I J⟩ 1 * 4096 + 1 * (k0_off2 (grid0.coords ⟨4 * I.val + J.val, pt_lt I J⟩) 1 + 1 * q.val) = J.val * 1024 + q.val
    rw [hi.2, ho.2]; have := J.isLt; show 0 * 4096 + 1 * ((4 * I.val + J.val) % 4 * 1024 + 1 * q.val) = _; omega

/-- Entry `q` of the point's tile of column numbers is entry `1024 J + q` of the column numbers. -/
theorem jtile_apply (I : Fin 16) (J : Fin 4) (u : Fin 1) (q : Fin 1024) :
    jTile (grid0.coords ⟨4 * I.val + J.val, pt_lt I J⟩) (jblk m c ⟨4 * I.val + J.val, pt_lt I J⟩) (ix2 u q)
      = (V m c main_v16 : S1x4096.Idx → BitVec 32) (ix2 u (colOf J q)) := by
  unfold jTile jblk iblk View.ld
  rw [View.read_apply]
  show V m c main_v16 _ = V m c main_v16 _
  congr 1
  funext a
  apply Fin.ext
  have hi := idx5 ⟨4 * I.val + J.val, pt_lt I J⟩
  have ho := off2 ⟨4 * I.val + J.val, pt_lt I J⟩
  match a with
  | ⟨0, _⟩ =>
    show win0_5.index ⟨4 * I.val + J.val, pt_lt I J⟩ 0 * 1 + 1 * (k0_off2 (grid0.coords ⟨4 * I.val + J.val, pt_lt I J⟩) 0 + 1 * u.val) = u.val
    rw [hi.1, ho.1]; omega
  | ⟨1, _⟩ =>
    show win0_5.index ⟨4 * I.val + J.val, pt_lt I J⟩ 1 * 4096 + 1 * (k0_off2 (grid0.coords ⟨4 * I.val + J.val, pt_lt I J⟩) 1 + 1 * q.val) = J.val * 1024 + q.val
    rw [hi.2, ho.2]; have := J.isLt; show 0 * 4096 + 1 * ((4 * I.val + J.val) % 4 * 1024 + 1 * q.val) = _; omega

/-! ## The loss and the mask over abstract blocks holding the specification's quantities -/

section Abstract

variable (e : Fin 16384 → Fin 128 → ℝ) (cn : Fin 4096 → Fin 128 → ℝ) (tg : Fin 16384 → Fin 4096)
  (v6 : Vec Ideal S1024x128 .f32) (v8 : Vec Ideal S1x1024 .f32) (v11 : Vec Ideal S1x1024 .i32)
  (v13 : Vec Ideal S1024x128 .f32) (v14 : Vec Ideal S1024x1 .f32) (v16 : Vec Ideal S1024x1 .i32)

/-- Where row `p` of the blocks is embedding `i` with its term `1 + dist i (tg i) - Σ e²` and column `q` is center `cc` with
    its squared norm, the loss tile at `(p, q)` is the margin violation of `(i, tg i, cc)`. -/
theorem tLoss_of (i : Fin 16384) (cc : Fin 4096) (p q : Fin 1024)
    (h14 : v14 (ix2 p (0 : Fin 1))
      = (((1 : ℝ) : EReal) + ∑ d : Fin 128, ((e i d : EReal) - (cn (tg i) d : EReal)) * ((e i d : EReal) - (cn (tg i) d : EReal)))
        - ∑ d : Fin 128, (e i d : EReal) * (e i d : EReal))
    (h8 : v8 (ix2 (0 : Fin 1) q) = ∑ d : Fin 128, (cn cc d : EReal) * (cn cc d : EReal))
    (h13 : ∀ k : Fin 128, v13 (ix2 p k) = ((e i k : ℝ) : EReal))
    (h6 : ∀ k : Fin 128, v6 (ix2 q k) = ((cn cc k : ℝ) : EReal)) :
    tLoss v6 v8 v13 v14 p q = ((loss e cn tg i cc : ℝ) : EReal) := by
  have hs : (∑ k : Fin 128, v13 (ix2 p k) * v6 (ix2 q k)) = ∑ d : Fin 128, (e i d : EReal) * (cn cc d : EReal) :=
    Finset.sum_congr rfl fun k _ => by rw [h13 k, h6 k]
  unfold tLoss
  rw [h14, h8, ofBits_two, hs]
  exact kernel_loss e cn tg i cc

/-- Two numbers below `2 ^ 32` have the same 32-bit word only if they are equal. -/
theorem ofNat_inj {a b : ℕ} (ha : a < 2 ^ 32) (hb : b < 2 ^ 32) (h : BitVec.ofNat 32 a = BitVec.ofNat 32 b) : a = b := by
  have h' := congrArg BitVec.toNat h
  rwa [BitVec.toNat_ofNat, BitVec.toNat_ofNat, Nat.mod_eq_of_lt ha, Nat.mod_eq_of_lt hb] at h'

/-- Where moreover column `q` carries the number of `cc` and row `p` the label of `i`, the pair `(p, q)` is counted exactly
    when the triplet `(i, tg i, cc)` is mined. -/
theorem tHit_of (i : Fin 16384) (cc : Fin 4096) (p q : Fin 1024)
    (hL : tLoss v6 v8 v13 v14 p q = ((loss e cn tg i cc : ℝ) : EReal))
    (h11 : v11 (ix2 (0 : Fin 1) q) = BitVec.ofNat 32 cc.val)
    (h16 : v16 (ix2 p (0 : Fin 1)) = BitVec.ofNat 32 (tg i).val) :
    tHit v6 v8 v11 v13 v14 v16 p q ↔ hit e cn tg i cc := by
  unfold tHit hit
  rw [hL, h11, h16, EReal.coe_pos]
  refine and_congr Iff.rfl (not_congr ⟨fun h => ?_, fun h => by rw [h]⟩)
  exact Fin.ext (ofNat_inj (lt_trans cc.isLt (by norm_num)) (lt_trans (tg i).isLt (by norm_num)) h)

end Abstract

/-! ## The point's loss and mask are the specification's -/

variable (e : Fin 16384 → Fin 128 → ℝ) (cn : Fin 4096 → Fin 128 → ℝ) (tg : Fin 16384 → Fin 4096)
  (he : ∀ (i : Fin 16384) (d : Fin 128), (m ((c.tc : Thread nD τ).loc main_arg0) : S16384x128.Idx → EReal) (ix2 i d) = ((e i d : ℝ) : EReal))
  (hc : ∀ (q : Fin 4096) (d : Fin 128), (m ((c.tc : Thread nD τ).loc main_arg2) : S4096x128.Idx → EReal) (ix2 q d) = ((cn q d : ℝ) : EReal))
  (ht : ∀ i : Fin 16384, (m ((c.tc : Thread nD τ).loc main_arg1) : S16384.Idx → BitVec 32) (ix1 i) = BitVec.ofNat 32 (tg i).val)

include he in
/-- The embeddings the kernel finds are the specification's. -/
theorem V_e (i : Fin 16384) (d : Fin 128) : (V m c main_arg0 : S16384x128.Idx → EReal) (ix2 i d) = ((e i d : ℝ) : EReal) := by
  rw [V_main_arg0]; exact he i d

include hc in
/-- The centers the kernel finds are the specification's. -/
theorem V_cn (q : Fin 4096) (d : Fin 128) : (V m c main_arg2 : S4096x128.Idx → EReal) (ix2 q d) = ((cn q d : ℝ) : EReal) := by
  rw [V_main_arg2]; exact hc q d

include he hc ht in
/-- The row term of embedding `i`, over the specification's reals. -/
theorem V_r_real (i : Fin 16384) (u : Fin 1) : (V m c main_v10 : S16384x1.Idx → EReal) (ix2 i u)
    = (((1 : ℝ) : EReal) + ∑ d : Fin 128, ((e i d : EReal) - (cn (tg i) d : EReal)) * ((e i d : EReal) - (cn (tg i) d : EReal)))
      - ∑ d : Fin 128, (e i d : EReal) * (e i d : EReal) := by
  have hE : ∀ d : Fin 128, E m c (ix2 i d) = ((e i d : ℝ) : EReal) := fun d => he i d
  have hC : ∀ d : Fin 128, Cn m c (ix2 (tg i) d) = ((cn (tg i) d : ℝ) : EReal) := fun d => hc (tg i) d
  rw [V_r m c tg ht i u, ofBits_one,
    Finset.sum_congr rfl (fun d _ => by rw [hE d, hC d] :
      ∀ d ∈ (Finset.univ : Finset (Fin 128)), (E m c (ix2 i d) - Cn m c (ix2 (tg i) d)) * (E m c (ix2 i d) - Cn m c (ix2 (tg i) d))
        = ((e i d : EReal) - (cn (tg i) d : EReal)) * ((e i d : EReal) - (cn (tg i) d : EReal))),
    Finset.sum_congr rfl (fun d _ => by rw [hE d] :
      ∀ d ∈ (Finset.univ : Finset (Fin 128)), E m c (ix2 i d) * E m c (ix2 i d) = (e i d : EReal) * (e i d : EReal))]

include hc in
/-- The squared norm of center `q`, over the specification's reals. -/
theorem V_c2_real (q : Fin 4096) (u : Fin 1) : (V m c main_v14 : S1x4096.Idx → EReal) (ix2 u q)
    = ∑ d : Fin 128, (cn q d : EReal) * (cn q d : EReal) := by
  have hC : ∀ d : Fin 128, Cn m c (ix2 q d) = ((cn q d : ℝ) : EReal) := fun d => hc q d
  have hs : (∑ d : Fin 128, Cn m c (ix2 q d) * Cn m c (ix2 q d)) = ∑ d : Fin 128, (cn q d : EReal) * (cn q d : EReal) :=
    Finset.sum_congr rfl fun d _ => by rw [hC d]
  exact (V_c2 m c q u).trans hs

include he hc ht in
/-- The loss the point forms at `(p, q)` is the margin violation of row `1024 I + p` against center `1024 J + q`. -/
theorem tLoss_pt (I : Fin 16) (J : Fin 4) (p q : Fin 1024) :
    tLoss (cTile (grid0.coords ⟨4 * I.val + J.val, pt_lt I J⟩) (cblk m c ⟨4 * I.val + J.val, pt_lt I J⟩))
        (nTile (grid0.coords ⟨4 * I.val + J.val, pt_lt I J⟩) (nblk m c ⟨4 * I.val + J.val, pt_lt I J⟩))
        (eblk m c ⟨4 * I.val + J.val, pt_lt I J⟩) (rblk m c ⟨4 * I.val + J.val, pt_lt I J⟩) p q
      = ((loss e cn tg (rowOf I p) (colOf J q) : ℝ) : EReal) :=
  tLoss_of e cn tg _ _ _ _ (rowOf I p) (colOf J q) p q
    ((rblk_apply m c I J p 0).trans (V_r_real m c e cn tg he hc ht _ _))
    ((ntile_apply m c I J 0 q).trans (V_c2_real m c cn hc _ _))
    (fun k => (eblk_apply m c I J p k).trans (V_e m c e he _ _))
    (fun k => (ctile_apply m c I J q k).trans (V_cn m c cn hc _ _))

include he hc ht in
/-- The point counts `(p, q)` exactly when row `1024 I + p` against center `1024 J + q` is mined. -/
theorem tHit_pt (I : Fin 16) (J : Fin 4) (p q : Fin 1024) :
    tHit (cTile (grid0.coords ⟨4 * I.val + J.val, pt_lt I J⟩) (cblk m c ⟨4 * I.val + J.val, pt_lt I J⟩))
        (nTile (grid0.coords ⟨4 * I.val + J.val, pt_lt I J⟩) (nblk m c ⟨4 * I.val + J.val, pt_lt I J⟩))
        (jTile (grid0.coords ⟨4 * I.val + J.val, pt_lt I J⟩) (jblk m c ⟨4 * I.val + J.val, pt_lt I J⟩))
        (eblk m c ⟨4 * I.val + J.val, pt_lt I J⟩) (rblk m c ⟨4 * I.val + J.val, pt_lt I J⟩) (lblk m c ⟨4 * I.val + J.val, pt_lt I J⟩) p q
      ↔ hit e cn tg (rowOf I p) (colOf J q) :=
  tHit_of e cn tg _ _ _ _ _ _ (rowOf I p) (colOf J q) p q (tLoss_pt m c e cn tg he hc ht I J p q)
    ((jtile_apply m c I J 0 q).trans (V_col m c _ _))
    ((lblk_apply m c I J p 0).trans ((V_tgt m c _ _).trans (ht _)))

/-! ## The point's two sums are the tile's total and count -/

include he hc ht in
/-- The tile's sum of mined violations, as the body computes it at point `4 I + J`, is the specification's. -/
theorem ptT_value (I : Fin 16) (J : Fin 4) (y : S1x1.Idx) :
    ptT m c ⟨4 * I.val + J.val, pt_lt I J⟩ y = ((tileTotal e cn tg I J : ℝ) : EReal) := by
  unfold ptT tileT
  refine (pay10_apply (cTile (grid0.coords ⟨4 * I.val + J.val, pt_lt I J⟩) (cblk m c ⟨4 * I.val + J.val, pt_lt I J⟩))
        (nTile (grid0.coords ⟨4 * I.val + J.val, pt_lt I J⟩) (nblk m c ⟨4 * I.val + J.val, pt_lt I J⟩))
        (jTile (grid0.coords ⟨4 * I.val + J.val, pt_lt I J⟩) (jblk m c ⟨4 * I.val + J.val, pt_lt I J⟩))
        (eblk m c ⟨4 * I.val + J.val, pt_lt I J⟩) (rblk m c ⟨4 * I.val + J.val, pt_lt I J⟩) (lblk m c ⟨4 * I.val + J.val, pt_lt I J⟩) y).trans ?_
  unfold tileTotal
  rw [coe_sum]
  refine Finset.sum_congr rfl fun p _ => ?_
  rw [coe_sum]
  refine Finset.sum_congr rfl fun q _ => ?_
  have hL := tLoss_pt m c e cn tg he hc ht I J p q
  have hH := tHit_pt m c e cn tg he hc ht I J p q
  by_cases h : hit e cn tg (rowOf I p) (colOf J q)
  · rw [if_pos (hH.mpr h), if_pos h, hL]
  · rw [if_neg (mt hH.mp h), if_neg h, EReal.coe_zero]

include he hc ht in
/-- The tile's number of mined triplets, as the body adds it to its counter at point `4 I + J`, is the specification's. -/
theorem ptC_value (I : Fin 16) (J : Fin 4) (v47 : Vec Ideal S1x1 .f32) (y : S1x1.Idx) :
    k0_pay2 (F := Ideal) (ptC m c ⟨4 * I.val + J.val, pt_lt I J⟩) v47 y = v47 y + (((tileCount e cn tg I J : ℕ) : ℝ) : EReal) := by
  unfold ptC tileC
  refine (pay2_apply (cTile (grid0.coords ⟨4 * I.val + J.val, pt_lt I J⟩) (cblk m c ⟨4 * I.val + J.val, pt_lt I J⟩))
        (nTile (grid0.coords ⟨4 * I.val + J.val, pt_lt I J⟩) (nblk m c ⟨4 * I.val + J.val, pt_lt I J⟩))
        (jTile (grid0.coords ⟨4 * I.val + J.val, pt_lt I J⟩) (jblk m c ⟨4 * I.val + J.val, pt_lt I J⟩))
        (eblk m c ⟨4 * I.val + J.val, pt_lt I J⟩) (rblk m c ⟨4 * I.val + J.val, pt_lt I J⟩) (lblk m c ⟨4 * I.val + J.val, pt_lt I J⟩) v47 y).trans ?_
  refine congrArg (v47 y + ·) ?_
  unfold tileCount
  rw [Nat.cast_sum, coe_sum]
  refine Finset.sum_congr rfl fun p _ => ?_
  rw [Nat.cast_sum, coe_sum]
  refine Finset.sum_congr rfl fun q _ => ?_
  have hH := tHit_pt m c e cn tg he hc ht I J p q
  by_cases h : hit e cn tg (rowOf I p) (colOf J q)
  · rw [if_pos (hH.mpr h), if_pos h, Nat.cast_one, EReal.coe_one]
  · rw [if_neg (mt hH.mp h), if_neg h, Nat.cast_zero, EReal.coe_zero]

end Cert.KernelIdeal.BlockValue

end
-- ==== Proof.KArr.lean ====
/-
  The two output arrays after the region.

  Output window `w` (6: the totals, 7: the counts) has one block per row tile, a 1×1×128 row at block index
  `(I, 0, 0)`, written back only after the row tile's last column tile, point `4·I + 3`. So the array ends holding,
  in row `I`, that point's block: the accumulator after point `4·I + 3` spread on lane 0. Here: the block index maps
  decided over the grid, what a flushing point writes back as a block of one array-sized function, the cover of the
  array by the sixteen flushed blocks, and the accumulators after `4·I + 3` unrolled into the row tile's four steps.
-/
import proofs.«427538_j82927228551475_3_alg».proof.Proof.KAcc
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)

namespace Cert.KernelIdeal.AccValue
open Cert.KernelIdeal Cert.KernelIdeal.Gen Idealize.ShloMosaic.ValueIdx
variable {F : FTy → Type} [FloatOps F]
variable (m : (ℓ : Loc nD τ sig) → Buf (Elt F) ℓ)

/-- The last column tile of row tile `I` is a point of the grid. -/
theorem lastPt_lt (I : ℕ) (hI : I < 16) : 4 * I + 3 < cfg0.N := by rw [show cfg0.N = 64 from N_0]; omega

theorem accT_congr (c : Dev nD) {n n' : ℕ} (e : n = n') (h : n < cfg0.N) (h' : n' < cfg0.N) : accT m c n h = accT m c n' h' := by
  subst e; rfl
theorem accC_congr (c : Dev nD) {n n' : ℕ} (e : n = n') (h : n < cfg0.N) (h' : n' < cfg0.N) : accC m c n h = accC m c n' h' := by
  subst e; rfl

/-- The block index of output window 6 at a point: the row tile, on the first axis only. -/
theorem idx_facts6 : ∀ t : Fin cfg0.N, win0_6.index t (0 : Fin 3) = t.val / 4 ∧ win0_6.index t (1 : Fin 3) = 0
    ∧ win0_6.index t (2 : Fin 3) = 0 :=
  (by decide +kernel : ∀ t : Fin grid0.N, _)

/-- What output array 6 (the totals) ends holding: row tile `I`'s accumulator after its last column tile, on lane 0. -/
def G6 (c : Dev nD) : S16x1x128.Idx → Elt F .f32 := fun j =>
  k0_pay4 (accT m c (4 * (j 0).val + 3) (lastPt_lt _ (j 0).isLt)) (ix3 (0 : Fin 1) (0 : Fin 1) (⟨(j 2).val, (j 2).isLt⟩ : Fin 128))

/-- What a flushing point writes back is its block of that array. -/
theorem flushed6_eq (c : Dev nD) (t : Fin cfg0.N) (hf : (cfg0.win 6).flush t = true) :
    (dats m 0 c).flushed 6 t = ((cfg0.win 6).blk t).view.read (Elt F) (G6 m c) := by
  have h3 : t.val % 4 = 3 := (flush0_6 t).mp hf
  obtain ⟨e0, e1, e2⟩ := idx_facts6 t
  show (cfg0.win 6).cut (grid0.coords t) ((dats m 0 c).after 6 t) = _
  rw [after0_6, (outsAt_out m c t h3).1]
  funext y
  show k0_pay4 (accT m c t.val t.isLt) y = G6 m c (((cfg0.win 6).blk t).view.emb y)
  unfold G6
  have hy0 : (y 0).val = 0 := by have : (y 0).val < 1 := (y 0).isLt; omega
  have hy1 : (y 1).val = 0 := by have : (y 1).val < 1 := (y 1).isLt; omega
  have q0 : ((((cfg0.win 6).blk t).view.emb y) 0).val = t.val / 4 := by
    show win0_6.index t (0 : Fin 3) * 1 + 1 * (y 0).val = t.val / 4
    rw [e0, hy0]; omega
  have q2 : ((((cfg0.win 6).blk t).view.emb y) 2).val = (y 2).val := by
    show win0_6.index t (2 : Fin 3) * 128 + 1 * (y 2).val = (y 2).val
    rw [e2]; omega
  have hn : 4 * ((((cfg0.win 6).blk t).view.emb y) 0).val + 3 = t.val := by rw [q0]; omega
  rw [accT_congr m c hn _ t.isLt]
  congr 1
  funext a
  apply Fin.ext
  match a with
  | ⟨0, _⟩ => exact hy0
  | ⟨1, _⟩ => exact hy1
  | ⟨2, _⟩ => exact q2.symm

/-- An index of the array is in a point's block iff each coordinate is in the block's range on its axis. -/
theorem mem_blk6 (t : Fin cfg0.N) (i : S16x1x128.Idx) :
    i ∈ ((cfg0.win 6).blk t).view.set ↔ ∀ a : Fin 3, win0_6.index t a * S1x1x128.size a ≤ (i a).val ∧ (i a).val < win0_6.index t a * S1x1x128.size a + S1x1x128.size a := by
  show i ∈ ((View.whole main_v18_0).slice (win0_6.rect t)).set ↔ _
  rw [View.set_slice_whole, Rect.mem_set_unit]
  exact Iff.rfl

/-- Row tile `I`'s block is written back at its last column tile, so the blocks cover the array. -/
theorem cover6 (i : S16x1x128.Idx) : ∃ t : Fin cfg0.N, (cfg0.win 6).flush t = true ∧ i ∈ ((cfg0.win 6).blk t).view.set := by
  have hi0 : (i 0).val < 16 := (i 0).isLt
  have hi1 : (i 1).val < 1 := (i 1).isLt
  have hi2 : (i 2).val < 128 := (i 2).isLt
  refine ⟨⟨4 * (i 0).val + 3, lastPt_lt _ hi0⟩, (flush0_6 _).mpr (by show (4 * (i 0).val + 3) % 4 = 3; omega), ?_⟩
  obtain ⟨e0, e1, e2⟩ := idx_facts6 ⟨4 * (i 0).val + 3, lastPt_lt _ hi0⟩
  rw [mem_blk6]
  intro a
  match a with
  | ⟨0, _⟩ => show win0_6.index _ (0 : Fin 3) * 1 ≤ (i 0).val ∧ (i 0).val < win0_6.index _ (0 : Fin 3) * 1 + 1; rw [e0]; dsimp only; omega
  | ⟨1, _⟩ => show win0_6.index _ (1 : Fin 3) * 1 ≤ (i 1).val ∧ (i 1).val < win0_6.index _ (1 : Fin 3) * 1 + 1; rw [e1]; omega
  | ⟨2, _⟩ => show win0_6.index _ (2 : Fin 3) * 128 ≤ (i 2).val ∧ (i 2).val < win0_6.index _ (2 : Fin 3) * 128 + 128; rw [e2]; omega

/-- The array after the run. -/
theorem final6 (c : Dev nD) : (dats m 0 c).arrAt 6 cfg0.N = G6 m c :=
  (dats m 0 c).arrAt_eq_of_cover 6 (G6 m c) (flushed6_eq m c) cover6

/-- The block index of output window 7 at a point: the row tile, on the first axis only. -/
theorem idx_facts7 : ∀ t : Fin cfg0.N, win0_7.index t (0 : Fin 3) = t.val / 4 ∧ win0_7.index t (1 : Fin 3) = 0
    ∧ win0_7.index t (2 : Fin 3) = 0 :=
  (by decide +kernel : ∀ t : Fin grid0.N, _)

/-- What output array 7 (the counts) ends holding: row tile `I`'s accumulator after its last column tile, on lane 0. -/
def G7 (c : Dev nD) : S16x1x128.Idx → Elt F .f32 := fun j =>
  k0_pay5 (accC m c (4 * (j 0).val + 3) (lastPt_lt _ (j 0).isLt)) (ix3 (0 : Fin 1) (0 : Fin 1) (⟨(j 2).val, (j 2).isLt⟩ : Fin 128))

/-- What a flushing point writes back is its block of that array. -/
theorem flushed7_eq (c : Dev nD) (t : Fin cfg0.N) (hf : (cfg0.win 7).flush t = true) :
    (dats m 0 c).flushed 7 t = ((cfg0.win 7).blk t).view.read (Elt F) (G7 m c) := by
  have h3 : t.val % 4 = 3 := (flush0_7 t).mp hf
  obtain ⟨e0, e1, e2⟩ := idx_facts7 t
  show (cfg0.win 7).cut (grid0.coords t) ((dats m 0 c).after 7 t) = _
  rw [after0_7, (outsAt_out m c t h3).2]
  funext y
  show k0_pay5 (accC m c t.val t.isLt) y = G7 m c (((cfg0.win 7).blk t).view.emb y)
  unfold G7
  have hy0 : (y 0).val = 0 := by have : (y 0).val < 1 := (y 0).isLt; omega
  have hy1 : (y 1).val = 0 := by have : (y 1).val < 1 := (y 1).isLt; omega
  have q0 : ((((cfg0.win 7).blk t).view.emb y) 0).val = t.val / 4 := by
    show win0_7.index t (0 : Fin 3) * 1 + 1 * (y 0).val = t.val / 4
    rw [e0, hy0]; omega
  have q2 : ((((cfg0.win 7).blk t).view.emb y) 2).val = (y 2).val := by
    show win0_7.index t (2 : Fin 3) * 128 + 1 * (y 2).val = (y 2).val
    rw [e2]; omega
  have hn : 4 * ((((cfg0.win 7).blk t).view.emb y) 0).val + 3 = t.val := by rw [q0]; omega
  rw [accC_congr m c hn _ t.isLt]
  congr 1
  funext a
  apply Fin.ext
  match a with
  | ⟨0, _⟩ => exact hy0
  | ⟨1, _⟩ => exact hy1
  | ⟨2, _⟩ => exact q2.symm

/-- An index of the array is in a point's block iff each coordinate is in the block's range on its axis. -/
theorem mem_blk7 (t : Fin cfg0.N) (i : S16x1x128.Idx) :
    i ∈ ((cfg0.win 7).blk t).view.set ↔ ∀ a : Fin 3, win0_7.index t a * S1x1x128.size a ≤ (i a).val ∧ (i a).val < win0_7.index t a * S1x1x128.size a + S1x1x128.size a := by
  show i ∈ ((View.whole main_v18_1).slice (win0_7.rect t)).set ↔ _
  rw [View.set_slice_whole, Rect.mem_set_unit]
  exact Iff.rfl

/-- Row tile `I`'s block is written back at its last column tile, so the blocks cover the array. -/
theorem cover7 (i : S16x1x128.Idx) : ∃ t : Fin cfg0.N, (cfg0.win 7).flush t = true ∧ i ∈ ((cfg0.win 7).blk t).view.set := by
  have hi0 : (i 0).val < 16 := (i 0).isLt
  have hi1 : (i 1).val < 1 := (i 1).isLt
  have hi2 : (i 2).val < 128 := (i 2).isLt
  refine ⟨⟨4 * (i 0).val + 3, lastPt_lt _ hi0⟩, (flush0_7 _).mpr (by show (4 * (i 0).val + 3) % 4 = 3; omega), ?_⟩
  obtain ⟨e0, e1, e2⟩ := idx_facts7 ⟨4 * (i 0).val + 3, lastPt_lt _ hi0⟩
  rw [mem_blk7]
  intro a
  match a with
  | ⟨0, _⟩ => show win0_7.index _ (0 : Fin 3) * 1 ≤ (i 0).val ∧ (i 0).val < win0_7.index _ (0 : Fin 3) * 1 + 1; rw [e0]; dsimp only; omega
  | ⟨1, _⟩ => show win0_7.index _ (1 : Fin 3) * 1 ≤ (i 1).val ∧ (i 1).val < win0_7.index _ (1 : Fin 3) * 1 + 1; rw [e1]; omega
  | ⟨2, _⟩ => show win0_7.index _ (2 : Fin 3) * 128 ≤ (i 2).val ∧ (i 2).val < win0_7.index _ (2 : Fin 3) * 128 + 128; rw [e2]; omega

/-- The array after the run. -/
theorem final7 (c : Dev nD) : (dats m 0 c).arrAt 7 cfg0.N = G7 m c :=
  (dats m 0 c).arrAt_eq_of_cover 7 (G7 m c) (flushed7_eq m c) cover7

theorem accT_reset (c : Dev nD) (n : ℕ) (h : n < cfg0.N) (h0 : n % 4 = 0) :
    accT m c n h = k0_pay1 (ptT m c ⟨n, h⟩) (k0_pay6 (F := F)) := by
  cases n with
  | zero => rfl
  | succ n => exact accT_succ_reset m c n h h0

/-- The first accumulator after a row tile's last column tile: the four tiles' values taken in order onto the reset value. -/
theorem accT_unroll (c : Dev nD) (I : ℕ) (hI : I < 16) (h3 : 4 * I + 3 < cfg0.N) (h2 : 4 * I + 2 < cfg0.N)
    (h1 : 4 * I + 1 < cfg0.N) (h0 : 4 * I < cfg0.N) :
    accT m c (4 * I + 3) h3
      = k0_pay1 (ptT m c ⟨4 * I + 3, h3⟩) (k0_pay1 (ptT m c ⟨4 * I + 2, h2⟩)
          (k0_pay1 (ptT m c ⟨4 * I + 1, h1⟩) (k0_pay1 (ptT m c ⟨4 * I, h0⟩) (k0_pay6 (F := F))))) := by
  have s3 : accT m c (4 * I + 3) h3 = k0_pay1 (ptT m c ⟨4 * I + 3, h3⟩) (accT m c (4 * I + 2) h2) :=
    accT_succ_add m c (4 * I + 2) h3 (by omega)
  have s2 : accT m c (4 * I + 2) h2 = k0_pay1 (ptT m c ⟨4 * I + 2, h2⟩) (accT m c (4 * I + 1) h1) :=
    accT_succ_add m c (4 * I + 1) h2 (by omega)
  have s1 : accT m c (4 * I + 1) h1 = k0_pay1 (ptT m c ⟨4 * I + 1, h1⟩) (accT m c (4 * I) h0) :=
    accT_succ_add m c (4 * I) h1 (by omega)
  have s0 := accT_reset m c (4 * I) h0 (by omega)
  rw [s3, s2, s1, s0]

theorem accC_reset (c : Dev nD) (n : ℕ) (h : n < cfg0.N) (h0 : n % 4 = 0) :
    accC m c n h = k0_pay2 (ptC m c ⟨n, h⟩) (k0_pay7 (F := F)) := by
  cases n with
  | zero => rfl
  | succ n => exact accC_succ_reset m c n h h0

/-- The second accumulator after a row tile's last column tile: the four tiles' values taken in order onto the reset value. -/
theorem accC_unroll (c : Dev nD) (I : ℕ) (hI : I < 16) (h3 : 4 * I + 3 < cfg0.N) (h2 : 4 * I + 2 < cfg0.N)
    (h1 : 4 * I + 1 < cfg0.N) (h0 : 4 * I < cfg0.N) :
    accC m c (4 * I + 3) h3
      = k0_pay2 (ptC m c ⟨4 * I + 3, h3⟩) (k0_pay2 (ptC m c ⟨4 * I + 2, h2⟩)
          (k0_pay2 (ptC m c ⟨4 * I + 1, h1⟩) (k0_pay2 (ptC m c ⟨4 * I, h0⟩) (k0_pay7 (F := F))))) := by
  have s3 : accC m c (4 * I + 3) h3 = k0_pay2 (ptC m c ⟨4 * I + 3, h3⟩) (accC m c (4 * I + 2) h2) :=
    accC_succ_add m c (4 * I + 2) h3 (by omega)
  have s2 : accC m c (4 * I + 2) h2 = k0_pay2 (ptC m c ⟨4 * I + 2, h2⟩) (accC m c (4 * I + 1) h1) :=
    accC_succ_add m c (4 * I + 1) h2 (by omega)
  have s1 : accC m c (4 * I + 1) h1 = k0_pay2 (ptC m c ⟨4 * I + 1, h1⟩) (accC m c (4 * I) h0) :=
    accC_succ_add m c (4 * I) h1 (by omega)
  have s0 := accC_reset m c (4 * I) h0 (by omega)
  rw [s3, s2, s1, s0]

end Cert.KernelIdeal.AccValue

end
-- ==== Proof.TailEval.lean ====
/-
  The host operations after the kernel, evaluated on arrays of a known form.

  The kernel leaves two arrays of shape [16, 1, 128]: row I holds tile-row I's accumulated total (resp. its number of
  mined triplets, an integer-valued real) in lane 0 and zeros in the other lanes. The host sums the first over all
  three axes from 0; it rounds the second to nearest-even, converts it to 32-bit words and sums the words over all
  three axes from 0. Here: the first sum is the real sum of the sixteen totals (`sum_lane0`), and the second is the
  word of the sum of the sixteen numbers (`count_lane0`).

  Both rest on one re-indexing: a sum over the indices of a rank-3 shape is the triple sum over its coordinates
  (`sum_idx3`), the lane sum of "x in lane 0, zero elsewhere" is x (`sum_lane`), and the unit axis contributes one term.
-/
import proofs.«427538_j82927228551475_3_alg».proof.Proof.Spec
import Idealize.ShloMosaic.PureOps
import Idealize.ShloMosaic.PureOps.Ideal
import Idealize.ShloMosaic.PureOps.Ideal.Laws
import Idealize.ShloMosaic.PureOps.Reduce
import Idealize.ShloMosaic.Lib.ValueIdx
import Idealize.ShloMosaic.Lib.ReduceAll
import Mathlib.Algebra.BigOperators.Fin
import Mathlib.Data.Fintype.BigOperators

open scoped BigOperators

noncomputable section

namespace Cert.CenterLoss

open Idealize.ShloMosaic Idealize.ShloMosaic.ValueIdx

/-- The shape of the two arrays the kernel leaves: sixteen rows, a unit axis, 128 lanes. -/
abbrev SO : Shape := ⟨3, ![16, 1, 128]⟩

/-! ## A sum over a rank-3 index set, by coordinates -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The lane sum of "x in lane 0, zero in the other lanes" is x. -/
theorem sum_lane {M : Type*} [AddCommMonoid M] (x : M) : ∑ l : Fin 128, (if l.val = 0 then x else 0) = x := by
  have hz : ∀ l : Fin 128, l ≠ 0 → (if l.val = 0 then x else 0) = 0 := fun l hl => if_neg fun e => hl (Fin.ext e)
  exact (Fintype.sum_eq_single (0 : Fin 128) hz).trans (if_pos rfl)

/-- The sum over [16, 1, 128] of an array that holds `x I` in lane 0 of row `I` and zero elsewhere is the sum of the
    sixteen `x I`. -/
theorem sum_SO_lane0 {M : Type*} [AddCommMonoid M] (x : Fin 16 → M) (f : SO.Idx → M)
    (hf : ∀ (I : Fin 16) (u : Fin 1) (l : Fin 128), f (ix3 I u l) = if l.val = 0 then x I else 0) :
    ∑ i, f i = ∑ I : Fin 16, x I := by
  rw [sum_idx3 f]
  refine Finset.sum_congr rfl fun I _ => ?_
  rw [Fin.sum_univ_one]
  refine (Finset.sum_congr rfl fun l _ => hf I 0 l).trans ?_
  exact sum_lane (x I)

/-- The inclusion of the reals in the extended reals carries a finite sum to the sum. -/
theorem coe_sum_EReal {ι : Type*} (S : Finset ι) (a : ι → ℝ) :
    ((∑ i ∈ S, a i : ℝ) : EReal) = ∑ i ∈ S, ((a i : ℝ) : EReal) := by
  classical
  induction S using Finset.induction_on with
  | empty => simp
  | insert i S hi ih => rw [Finset.sum_insert hi, Finset.sum_insert hi, EReal.coe_add, ih]

/-! ## The float sum -/

/-- The host's sum over all three axes, from 0, of the array of totals: the real sum of the sixteen totals. -/
theorem sum_lane0 (h : SO.ReducesTo [0, 1, 2] S0) (h0 : 0 < S0.numel) (a : Fin 16 → ℝ) (A : FVec Ideal SO .f32)
    (hA : ∀ (I : Fin 16) (u : Fin 1) (l : Fin 128), A (ix3 I u l) = if l.val = 0 then ((a I : ℝ) : EReal) else 0) :
    Host.reduceAdd (F := Ideal) A (constant (F := Ideal) S0 .f32 0x00000000#32) h h0
      = fun _ => ((∑ I : Fin 16, a I : ℝ) : EReal) := by
  funext j
  refine (Ideal.hostReduceAdd_total h (fun b => b.elim0) A _ j).trans ?_
  rw [constant_apply, Ideal.ofBits_zero_f32, zero_add, sum_SO_lane0 (fun I => ((a I : ℝ) : EReal)) A hA]
  exact (coe_sum_EReal Finset.univ a).symm

/-! ## The count -/

/-- Rounding to nearest-even fixes a natural number. -/
theorem roundHalfEven_natCast (k : ℕ) : Ideal.roundHalfEven (k : ℝ) = (k : ℤ) := by
  unfold Ideal.roundHalfEven
  simp only [Int.floor_natCast, Int.cast_natCast, sub_self]
  rw [if_pos (by norm_num)]

/-- Rounding a natural number below 2³¹ to nearest-even and converting to a signed 32-bit word gives its word: the
    rounding fixes it, the truncation toward zero fixes it, and the clamp to the word's range does not bind. -/
theorem fptosi_roundeven_natCast (k : ℕ) (hk : k < 2147483648) :
    FloatOps.fptosi (F := Ideal) (φ := .f32) 32 (FloatOps.hostUnary (F := Ideal) (φ := .f32) .roundeven (((k : ℕ) : ℝ) : EReal))
      = BitVec.ofNat 32 k := by
  show Ideal.fptosi 32 (Ideal.liftRound Ideal.roundHalfEven (((k : ℕ) : ℝ) : EReal)) = _
  rw [Ideal.liftRound_coe, roundHalfEven_natCast, Ideal.fptosi, Ideal.toIntClamped_coe]
  have h0 : (0 : ℝ) ≤ ((k : ℤ) : ℝ) := by exact_mod_cast Nat.zero_le k
  rw [if_pos h0, Int.floor_intCast]
  have e : max (-((2 ^ (32 - 1) : ℕ) : ℤ)) (min (((2 ^ (32 - 1) : ℕ) : ℤ) - 1) (k : ℤ)) = (k : ℤ) := by
    have : ((2 ^ (32 - 1) : ℕ) : ℤ) = 2147483648 := by norm_num
    rw [this]; omega
  rw [e, BitVec.ofInt_natCast]

/-- A fold of 32-bit addition from zero over words that are the words of natural numbers is the word of their sum. -/
theorem fold_addi_ofNat {ι : Type*} (S : Finset ι) (x : ι → BitVec 32) (g : ι → ℕ)
    (hx : ∀ i, x i = BitVec.ofNat 32 (g i)) : S.fold IntOp.addi 0#32 x = BitVec.ofNat 32 (∑ i ∈ S, g i) := by
  classical
  induction S using Finset.induction_on with
  | empty => rfl
  | insert i S hi ih =>
    rw [Finset.fold_insert hi, Finset.sum_insert hi, ih, hx i, BitVec.ofNat_add]
    rfl

/-- The host's rounding, conversion to 32-bit words and wrapping sum over all three axes, from 0, of the array of
    numbers: the word of the sum of the sixteen numbers. -/
theorem count_lane0 (h : SO.ReducesTo [0, 1, 2] S0) (h0 : 0 < S0.numel) (n : Fin 16 → ℕ) (hn : ∀ I, n I ≤ 4194304)
    (A : FVec Ideal SO .f32)
    (hA : ∀ (I : Fin 16) (u : Fin 1) (l : Fin 128), A (ix3 I u l) = if l.val = 0 then (((n I : ℕ) : ℝ) : EReal) else 0) :
    Host.reduce IntOp.addi (fptosi (F := Ideal) 32 (Host.roundeven (F := Ideal) A)) (constantI S0 32 0#32) h h0
      = fun _ => BitVec.ofNat 32 (∑ I : Fin 16, n I) := by
  funext j
  -- the number at each index: n I in lane 0 of row I, zero elsewhere
  have hg : ∀ (I : Fin 16) (u : Fin 1) (l : Fin 128),
      (fun i : SO.Idx => if (i 2).val = 0 then n (i 0) else 0) (ix3 I u l) = if l.val = 0 then n I else 0 :=
    fun _ _ _ => rfl
  have hx : ∀ i : SO.Idx, fptosi (F := Ideal) 32 (Host.roundeven (F := Ideal) A) i
      = BitVec.ofNat 32 ((fun i : SO.Idx => if (i 2).val = 0 then n (i 0) else 0) i) := by
    intro i
    obtain ⟨I, u, l, rfl⟩ : ∃ I u l, i = ix3 I u l := ⟨i 0, i 1, i 2, eq_ix3 i⟩
    show FloatOps.fptosi (F := Ideal) (φ := .f32) 32 (FloatOps.hostUnary (F := Ideal) (φ := .f32) .roundeven (A (ix3 I u l))) = _
    rw [hA I u l, hg I u l]
    by_cases hl : l.val = 0
    · rw [if_pos hl, if_pos hl]
      exact fptosi_roundeven_natCast (n I) (by have := hn I; omega)
    · rw [if_neg hl, if_neg hl]
      have := fptosi_roundeven_natCast 0 (by norm_num)
      simpa using this
  rw [Host.reduce_eq_fold,
    Finset.filter_true_of_mem fun i _ => (funext fun b => b.elim0 : h.drop i = j)]
  refine (fold_addi_ofNat Finset.univ _ _ hx).trans (congrArg (BitVec.ofNat 32) ?_)
  exact sum_SO_lane0 n _ hg

end Cert.CenterLoss

end
-- ==== Proof.KValue.lean ====
/-
  The kernel's result from the values of its grid points.

  Given that point `4·I + J` contributes the specification's `tileTotal I J` to the first accumulator and
  `tileCount I J` to the second (hypotheses `hT`, `hC`): after row tile `I`'s last column tile the accumulators hold
  the sums over `J`; the two output arrays hold them on lane 0 of row `I` and zeros elsewhere; the host's sum of the
  first array is the specification's `total`, and its rounded, converted, integer-summed second array is the word of
  `count` (each row tile's count is at most 4·2²⁰, so the conversion to a 32-bit word is exact).
-/
import proofs.«427538_j82927228551475_3_alg».proof.Proof.KArr
import proofs.«427538_j82927228551475_3_alg».proof.Proof.KPoint
import proofs.«427538_j82927228551475_3_alg».proof.Proof.Math
import proofs.«427538_j82927228551475_3_alg».proof.Proof.TailEval
import proofs.«427538_j82927228551475_3_alg».proof.Proof.Spec
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)

namespace Cert.KernelIdeal.KValue
open Cert.KernelIdeal Cert.KernelIdeal.Gen Cert.KernelIdeal.AccValue Cert.KernelIdeal.PointValue Cert.CenterLoss
open Idealize.ShloMosaic.ValueIdx
open scoped BigOperators

variable (m : (ℓ : Loc nD τ sig) → Buf (Elt Ideal) ℓ) (c : Dev nD)
  (e : Fin 16384 → Fin 128 → ℝ) (cn : Fin 4096 → Fin 128 → ℝ) (tg : Fin 16384 → Fin 4096)

/-- Point `4·I + J` is a point of the grid. -/
theorem pt_lt (I : Fin 16) (J : Fin 4) : 4 * I.val + J.val < cfg0.N := by
  rw [show cfg0.N = 64 from N_0]; have := I.isLt; have := J.isLt; omega

variable
  (hT : ∀ (I : Fin 16) (J : Fin 4) (y : S1x1.Idx),
    ptT m c ⟨4 * I.val + J.val, pt_lt I J⟩ y = ((tileTotal e cn tg I J : ℝ) : EReal))
  (hC : ∀ (I : Fin 16) (J : Fin 4) (v47 : Vec Ideal S1x1 .f32) (y : S1x1.Idx),
    k0_pay2 (F := Ideal) (ptC m c ⟨4 * I.val + J.val, pt_lt I J⟩) v47 y = v47 y + (((tileCount e cn tg I J : ℕ) : ℝ) : EReal))

include hT in
/-- The first accumulator after row tile `I`'s last column tile is the sum of the four tiles' sums. -/
theorem accT_last (I : Fin 16) (y : S1x1.Idx) :
    accT m c (4 * I.val + 3) (lastPt_lt _ I.isLt) y = ((∑ J : Fin 4, tileTotal e cn tg I J : ℝ) : EReal) := by
  have hN : cfg0.N = 64 := N_0
  have hI := I.isLt
  rw [accT_unroll m c I.val hI (lastPt_lt _ hI) (by omega) (by omega) (by omega)]
  rw [pay1_apply, pay1_apply, pay1_apply, pay1_apply, pay6_apply]
  rw [show ptT m c ⟨4 * I.val + 3, _⟩ y = _ from hT I 3 y, show ptT m c ⟨4 * I.val + 2, _⟩ y = _ from hT I 2 y,
    show ptT m c ⟨4 * I.val + 1, _⟩ y = _ from hT I 1 y, show ptT m c ⟨4 * I.val, _⟩ y = _ from hT I 0 y]
  rw [Fin.sum_univ_four, zero_add, ← EReal.coe_add, ← EReal.coe_add, ← EReal.coe_add]

include hC in
/-- The second accumulator after row tile `I`'s last column tile is the number of mined triplets of the four tiles. -/
theorem accC_last (I : Fin 16) (y : S1x1.Idx) :
    accC m c (4 * I.val + 3) (lastPt_lt _ I.isLt) y = (((∑ J : Fin 4, tileCount e cn tg I J : ℕ) : ℝ) : EReal) := by
  have hN : cfg0.N = 64 := N_0
  have hI := I.isLt
  rw [accC_unroll m c I.val hI (lastPt_lt _ hI) (by omega) (by omega) (by omega)]
  rw [show k0_pay2 (F := Ideal) (ptC m c ⟨4 * I.val + 3, _⟩) _ y = _ from hC I 3 _ y,
    show k0_pay2 (F := Ideal) (ptC m c ⟨4 * I.val + 2, _⟩) _ y = _ from hC I 2 _ y,
    show k0_pay2 (F := Ideal) (ptC m c ⟨4 * I.val + 1, _⟩) _ y = _ from hC I 1 _ y,
    show k0_pay2 (F := Ideal) (ptC m c ⟨4 * I.val, _⟩) _ y = _ from hC I 0 _ y, pay7_apply]
  rw [Fin.sum_univ_four, zero_add, ← EReal.coe_add, ← EReal.coe_add, ← EReal.coe_add]
  push_cast
  rfl

include hT in
/-- The totals array after the run, at an entry. -/
theorem arr6_at (I : Fin 16) (u : Fin 1) (l : Fin 128) :
    G6 m c (ix3 I u l) = if l.val = 0 then ((∑ J : Fin 4, tileTotal e cn tg I J : ℝ) : EReal) else 0 := by
  show k0_pay4 (F := Ideal) (accT m c (4 * I.val + 3) (lastPt_lt _ I.isLt)) (ix3 (0 : Fin 1) (0 : Fin 1) l) = _
  rw [pay4_apply, accT_last m c e cn tg hT I]

include hC in
/-- The counts array after the run, at an entry. -/
theorem arr7_at (I : Fin 16) (u : Fin 1) (l : Fin 128) :
    G7 m c (ix3 I u l) = if l.val = 0 then (((∑ J : Fin 4, tileCount e cn tg I J : ℕ) : ℝ) : EReal) else 0 := by
  show k0_pay5 (F := Ideal) (accC m c (4 * I.val + 3) (lastPt_lt _ I.isLt)) (ix3 (0 : Fin 1) (0 : Fin 1) l) = _
  rw [pay5_apply, accC_last m c e cn tg hC I]

include hT hC in
/-- The host operations after the region, on the two arrays the run leaves: the specification's mean. -/
theorem tail_value (h : S16x1x128.ReducesTo [0, 1, 2] S_) (h0 : 0 < S_.numel) (A6 A7 : FVec Ideal S16x1x128 .f32)
    (h6 : A6 = G6 m c) (h7 : A7 = G7 m c) :
    Cert.CenterLoss.tail
        (Host.reduceAdd (F := Ideal) A6 (constant (F := Ideal) S_ .f32 0x00000000#32) h h0)
        (Host.reduce IntOp.addi (fptosi (F := Ideal) 32 (Host.roundeven (F := Ideal) A7)) (constantI S_ 32 0#32) h h0)
      = Cert.CenterLoss.tail (fun _ => ((total e cn tg : ℝ) : EReal)) (fun _ => BitVec.ofNat 32 (count e cn tg)) := by
  subst h6 h7
  rw [sum_lane0 h h0 (fun I => ∑ J : Fin 4, tileTotal e cn tg I J) (G6 m c) (arr6_at m c e cn tg hT)]
  rw [count_lane0 h h0 (fun I => ∑ J : Fin 4, tileCount e cn tg I J) (fun I => by
      rw [Fin.sum_univ_four]
      have := tileCount_le e cn tg I 0; have := tileCount_le e cn tg I 1
      have := tileCount_le e cn tg I 2; have := tileCount_le e cn tg I 3
      omega) (G7 m c) (arr7_at m c e cn tg hC)]
  rw [← total_tiles, ← count_tiles]

end Cert.KernelIdeal.KValue

end
-- ==== Proof.KTailRun.lean ====
/-
  The idealized kernel program's run with its result named.

  After the pipelined region the program adds up the region's first output (sixteen rows of partial sums, one per
  row tile), rounds the region's second output (the partial counts) to integers and adds those up, and then forms
  the mean of the two totals, or zero when the count is zero: `Cert.CenterLoss.tail` of the two sums. Here the
  frame run of the program is read at the program's result buffer, which gives that expression over the two arrays
  the region leaves, and at the three arguments, which end as they were launched.
-/
import proofs.«427538_j82927228551475_3_alg».proof.Proof.Gen.KernelIdeal.Frame
import proofs.«427538_j82927228551475_3_alg».proof.Proof.Spec
import proofs.«427538_j82927228551475_3_alg».proof.Proof.LibTypedOps
import Idealize.ShloMosaic.Lib.StableHlo.Run
import Idealize.ShloMosaic.Lib.Pipeline.Value
import Idealize.ShloMosaic.Lib.Pipeline.FrameSuffix

noncomputable section

namespace Cert.KernelIdeal.TailRun

open Cert.KernelIdeal Cert.KernelIdeal.Gen Idealize.ShloMosaic Idealize.ShloMosaic.TcCoe Idealize.SL.Sem

/-- The program's result from the two arrays the region leaves: the mean of the sum of the first over the sum of
    the second rounded to integers, or zero when that count is zero. -/
def tailTerm (A6 A7 : FVec Ideal S16x1x128 .f32) : FVec Ideal S_ .f32 :=
  Cert.CenterLoss.tail (Host.reduceAdd (F := Ideal) A6 (constant (F := Ideal) S_ .f32 0x00000000#32) reducesTo_S16x1x128_S_d0_1_2 h_S_)
    (Host.reduce IntOp.addi (fptosi (F := Ideal) 32 (Host.roundeven (F := Ideal) A7)) (constantI S_ 32 0#32) reducesTo_S16x1x128_S_d0_1_2 h_S_)

variable (m : (ℓ : Loc nD τ sig) → Buf (Elt Ideal) ℓ) (ρ : Dev nD → PrngReg)

/-- The rounding of the counts, written over the buffers themselves. -/
theorem round_plain :
    (StableHlo.TRef.unary (τ := τ) (.of main_v18_1 : StableHlo.TRef sig ⟨S16x1x128, .f32⟩) (.of main_v20 : StableHlo.TRef sig ⟨S16x1x128, .f32⟩) (Host.roundeven (F := Ideal) (s := S16x1x128) (φ := .f32)) : HloOp τ sig (Elt Ideal))
      = StableHlo.unary main_v18_1 main_v20 (Host.roundeven (F := Ideal) (s := S16x1x128) (φ := .f32) : (⟨S16x1x128, .f32⟩ : BufTy).Contents (Elt Ideal) → (⟨S16x1x128, .f32⟩ : BufTy).Contents (Elt Ideal)) :=
  StableHlo.TRef.unary_plain _ _ _ _ HEq.rfl _ _

/-- The copy of the constant zero, written over the buffers themselves. -/
theorem where_id_plain :
    (StableHlo.TRef.unary (τ := τ) (.of main_cst_6 : StableHlo.TRef sig ⟨S_, .f32⟩) (.of main_call2_v0 : StableHlo.TRef sig ⟨S_, .f32⟩) id : HloOp τ sig (Elt Ideal))
      = StableHlo.unary main_cst_6 main_call2_v0 (id : (⟨S_, .f32⟩ : BufTy).Contents (Elt Ideal) → (⟨S_, .f32⟩ : BufTy).Contents (Elt Ideal)) :=
  StableHlo.TRef.unary_plain _ _ _ _ HEq.rfl _ _

/-- The final selection, written over the buffers themselves. -/
theorem where_select_plain :
    (StableHlo.TRef.ternary (τ := τ) (.of main_v24 : StableHlo.TRef sig ⟨S_, .i1⟩) (.of main_v26 : StableHlo.TRef sig ⟨S_, .f32⟩) (.of main_call2_v0 : StableHlo.TRef sig ⟨S_, .f32⟩) (.of main_v27 : StableHlo.TRef sig ⟨S_, .f32⟩) select : HloOp τ sig (Elt Ideal))
      = StableHlo.ternary main_v24 main_v26 main_call2_v0 main_v27 (select : (⟨S_, .i1⟩ : BufTy).Contents (Elt Ideal) → (⟨S_, .f32⟩ : BufTy).Contents (Elt Ideal) → (⟨S_, .f32⟩ : BufTy).Contents (Elt Ideal) → (⟨S_, .f32⟩ : BufTy).Contents (Elt Ideal)) :=
  StableHlo.TRef.ternary_plain _ _ _ _ _ _ HEq.rfl _ _ _ _

/-- The program's result buffer after the lines that follow the region, from the region's exit contents: the tail
    expression of the two arrays the region leaves. Every line's result is read off in turn; the region's two
    outputs are the pipeline's windows 6 and 7. -/
theorem tail_at (c : Dev nD) :
    Pipeline.afterTail₀ cfgs (dats m) 0 (V0 m) [hostOps1, hostOps1_1, hostOps1_2, hostOps1_3] c main_v27
      = tailTerm ((dats m 0 c).arrAt 6 cfg0.N) ((dats m 0 c).arrAt 7 cfg0.N) := by
  unfold Pipeline.afterTail₀
  show StableHlo.after _ _ (Proc.devRef .tc main_v27) = _
  simp only [hostOps1, hostOps1_1, hostOps1_2, hostOps1_3, List.flatten_cons, List.flatten_nil, List.append_nil, List.cons_append, List.nil_append]
  rw [round_plain, where_id_plain, where_select_plain]
  after_results_simp
  have h6 : Pipeline.withArrays (cfgs 0).spec c (V0 m c) (fun w => (dats m 0 c).arrAt w (cfgs 0).N) (Proc.devRef .tc main_v18_0)
      = (dats m 0 c).arrAt 6 cfg0.N := Pipeline.withArrays_arr spec0 launch0.win.arr_inj c _ _ 6
  have h7 : Pipeline.withArrays (cfgs 0).spec c (V0 m c) (fun w => (dats m 0 c).arrAt w (cfgs 0).N) (Proc.devRef .tc main_v18_1)
      = (dats m 0 c).arrAt 7 cfg0.N := Pipeline.withArrays_arr spec0 launch0.win.arr_inj c _ _ 7
  rw [h6, h7]
  rfl

/-- At the compiled mesh, from any memory with zero counters, every weakly fair execution of the program terminates,
    and in every final state the result buffer holds the tail expression of the two arrays the region leaves, and the
    three arguments hold what they were launched with: the first and the third are inputs the region only reads
    and no line before the region writes; the second is written by no line at all. -/
theorem run :
    θ_run (defs (F := Ideal)) (onTc (τ := τ) (main (F := Ideal))) ⟨m, fun _ => 0, ρ⟩ (fun r => ∀ c : Dev nD,
      r.2.mem ((c.tc : Thread nD τ).loc main_v27) = tailTerm ((dats m 0 c).arrAt 6 cfg0.N) ((dats m 0 c).arrAt 7 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v27 (Pipeline.mem_restRefs_of main_v27 (by decide) (by decide))).trans (tail_at m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c)))⟩) (run_main m ρ)

end Cert.KernelIdeal.TailRun

end
-- ==== Proof.lean ====
/-
  The certificate of the online center loss: a Pallas kernel that tiles the 16384 × 4096 matrix of margin violations
  `loss i c = 1 + dist i (y i) − dist i c` (`dist` the squared distance from embedding `i` to center `c`, `y i` the
  row's label) into 16 × 4 tiles, accumulates per row tile the sum and the number of the mined triplets (positive
  violation, `c ≠ y i`), and a host tail that takes their mean — against the plain jnp reference that forms the whole
  matrix. Under the precondition (every float input finite, every label in `[0, 4096)`) both programs end at the
  specification's `tail (total) (count)` (Proof/Spec.lean).

  The kernel side: the generated frame run gives the two output arrays after the region as the library's fold over
  the grid points; Proof/KAcc.lean reads what each point leaves in the two carried accumulators and proves by
  induction on the point that they are the running sums of the tiles' values; Proof/KArr.lean opens the two arrays
  (row tile `I`'s block is written after its last column tile); Proof/KPoint.lean reads the body's arithmetic at an
  index, Proof/KHost.lean the host operations before the call, Proof/KBlocks.lean joins them with the block index
  maps into the value of one point, `tileTotal` / `tileCount`, using that over the reals
  `Σ (e − c)² = Σ e² − 2 Σ e·c + Σ c²` (Proof/Math.lean: this is where finiteness is used); Proof/KValue.lean and
  Proof/TailEval.lean evaluate the host tail on the two arrays, and Proof/KTailRun.lean states the run with its result
  named. The reference side: its run and its operations read at an index, then Proof/RefValue.lean. Proof/PreRead.lean
  turns the printed precondition into real arrays and in-range labels. `preserves` is `True`: the ideal pass rewrote nothing.
-/
import proofs.«427538_j82927228551475_3_alg».proof.Defs
import proofs.«427538_j82927228551475_3_alg».proof.Proof.Gen.Kernel
import proofs.«427538_j82927228551475_3_alg».proof.Proof.Gen.Kernel.Skeleton
import proofs.«427538_j82927228551475_3_alg».proof.Proof.Gen.Kernel.Launch
import proofs.«427538_j82927228551475_3_alg».proof.Proof.Gen.Kernel.Points
import proofs.«427538_j82927228551475_3_alg».proof.Proof.Gen.Kernel.Frame
import proofs.«427538_j82927228551475_3_alg».proof.Proof.Gen.KernelIdeal
import proofs.«427538_j82927228551475_3_alg».proof.Proof.Gen.KernelIdeal.Skeleton
import proofs.«427538_j82927228551475_3_alg».proof.Proof.Gen.KernelIdeal.Launch
import proofs.«427538_j82927228551475_3_alg».proof.Proof.Gen.KernelIdeal.Points
import proofs.«427538_j82927228551475_3_alg».proof.Proof.Gen.KernelIdeal.Frame
import proofs.«427538_j82927228551475_3_alg».proof.Proof.Gen.ReferenceIdeal
import proofs.«427538_j82927228551475_3_alg».proof.Proof.Gen.Pre_finite_inputs
import proofs.«427538_j82927228551475_3_alg».proof.Proof.RefRun
import proofs.«427538_j82927228551475_3_alg».proof.Proof.RefRead
import proofs.«427538_j82927228551475_3_alg».proof.Proof.PreRead
import proofs.«427538_j82927228551475_3_alg».proof.Proof.RefValue
import proofs.«427538_j82927228551475_3_alg».proof.Proof.KBlocks
import proofs.«427538_j82927228551475_3_alg».proof.Proof.KValue
import proofs.«427538_j82927228551475_3_alg».proof.Proof.KTailRun
import Idealize.ShloMosaic.Adequacy
import Idealize.ShloMosaic.Init

noncomputable section

namespace Cert.Proof

open Idealize.ShloMosaic Idealize.SL.Sem Cert.CenterLoss

/-- The kernel as printed runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- Both idealized programs end at the mean violation of the mined triplets of the specification. -/
theorem algebraic : Cert.algebraic_KernelIdeal_ReferenceIdeal := by
  intro m ρ m' ρ' hpre hagree
  have hdec := fun c => Cert.CenterLoss.PreRead.decode _ _ _ (hpre c)
  choose e cn tg he hc ht using hdec
  refine ⟨fun c => Cert.CenterLoss.tail (fun _ => ((total (e c) (cn c) (tg c) : ℝ) : EReal))
    (fun _ => BitVec.ofNat 32 (count (e c) (cn c) (tg c))), ?_, ?_⟩
  · refine (θ_run Cert.KernelIdeal.defs _ _).mono (fun r h c => ⟨(h c).1.trans ?_, (h c).2⟩)
      (Cert.KernelIdeal.TailRun.run m ρ)
    unfold Cert.KernelIdeal.TailRun.tailTerm
    exact Cert.KernelIdeal.KValue.tail_value m c (e c) (cn c) (tg c)
      (Cert.KernelIdeal.BlockValue.ptT_value m c (e c) (cn c) (tg c) (he c) (hc c) (ht c))
      (Cert.KernelIdeal.BlockValue.ptC_value m c (e c) (cn c) (tg c) (he c) (hc c) (ht c)) _ _ _ _
      (Cert.KernelIdeal.AccValue.final6 m c) (Cert.KernelIdeal.AccValue.final7 m c)
  · refine (θ_run Cert.ReferenceIdeal.defs _ _).mono (fun r h c => ⟨(h c).1.trans ?_, (h c).2⟩)
      (Cert.ReferenceIdeal.RunP.run (F := Ideal) m' ρ')
    rw [Cert.ReferenceIdeal.ReadP.val_main_v37_eq, (hagree c).1, (hagree c).2.1, (hagree c).2.2]
    exact Cert.ReferenceIdeal.RefValue.ref_value _ _ _ (e c) (cn c) (tg c) (he c) (hc c) (ht c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
